-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32x2 .f32) (main_arg10 : FVec F S2 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x32 .f32) (main_arg8 : FVec F S32 .f32) (main_arg9 : FVec F S32x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x1 .f32) (main_arg1 : IVec S2x1600000 32) (main_arg2 : IVec S100000 32) (main_arg3 : FVec F S1x128 .f32) (main_arg4 : FVec F S128 .f32) (main_arg5 : FVec F S128x128 .f32) (main_arg6 : FVec F S128 .f32) (main_arg7 : FVec F S128x32 .f32) (main_arg8 : FVec F S32 .f32) (main_arg9 : FVec F S32x2 .f32) (main_arg10 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x1 : Shape := ⟨2, ![5000, 1]⟩
abbrev S5000x128 : Shape := ⟨2, ![5000, 128]⟩
abbrev S1700000x128 : Shape := ⟨2, ![1700000, 128]⟩
abbrev S256 : Shape := ⟨1, ![256]⟩
abbrev S256x1 : Shape := ⟨2, ![256, 1]⟩
abbrev S1x32 : Shape := ⟨2, ![1, 32]⟩
abbrev S1x2 : Shape := ⟨2, ![1, 2]⟩
abbrev S256x2 : Shape := ⟨2, ![256, 2]⟩
abbrev S256x128 : Shape := ⟨2, ![256, 128]⟩
abbrev S5000x256 : Shape := ⟨2, ![5000, 256]⟩
abbrev S256x32 : Shape := ⟨2, ![256, 32]⟩

abbrev nBuf : Space → Nat
  | .hbm => 81
  | .vmem => 23
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x1, .f32⟩
  | .hbm, ⟨46, _⟩ => ⟨S_, .f32⟩
  | .hbm, ⟨47, _⟩ => ⟨S100000x1, .f32⟩
  | .hbm, ⟨48, _⟩ => ⟨S1700000x1, .i32⟩
  | .hbm, ⟨49, _⟩ => ⟨S100000x1, .f32⟩
  | .hbm, ⟨50, _⟩ => ⟨S1x128, .f32⟩
  | .hbm, ⟨51, _⟩ => ⟨S100000x128, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .bf16⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S256, .f32⟩
  | .hbm, ⟨70, _⟩ => ⟨S100000x1, .i32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256x1, .f32⟩
  | .hbm, ⟨76, _⟩ => ⟨S100000x1, .i32⟩
  | .hbm, ⟨77, _⟩ => ⟨S1x128, .f32⟩
  | .hbm, ⟨78, _⟩ => ⟨S1x32, .f32⟩
  | .hbm, ⟨79, _⟩ => ⟨S1x2, .f32⟩
  | .hbm, ⟨80, _⟩ => ⟨S256x2, .f32⟩
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S128x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x1, .i32⟩
  | .local _ .vmem, ⟨15, _⟩ => ⟨S5000x1, .i32⟩
  | .local _ .vmem, ⟨16, _⟩ => ⟨S256x1, .f32⟩
  | .local _ .vmem, ⟨17, _⟩ => ⟨S128x32, .f32⟩
  | .local _ .vmem, ⟨18, _⟩ => ⟨S1x32, .f32⟩
  | .local _ .vmem, ⟨19, _⟩ => ⟨S32x2, .f32⟩
  | .local _ .vmem, ⟨20, _⟩ => ⟨S1x2, .f32⟩
  | .local _ .vmem, ⟨21, _⟩ => ⟨S256x2, .f32⟩
  | .local _ .vmem, ⟨22, _⟩ => ⟨S256x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_13 : BitVec 32 := 0#32
  let v32 : BitVec 1 := Scalar.cmpi .ne v31 c0_i32_13
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x1 : S_.BroadcastsInDim S100000x1 (![] : Fin 0 → Fin S100000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  broadcasts_S5000x1_S5000x128 : S5000x1.Broadcasts S5000x128
  broadcasts_S1x128_S5000x128 : S1x128.Broadcasts S5000x128
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  shapeCasts_S32_S1x32 : S32.ShapeCasts S1x32
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S5000x128_S5000x128 : S5000x128.ShapeCasts S5000x128
  iota_S5000x256_d1_w32 : S5000x256.Iotas .tc 32 [1]
  broadcasts_S5000x1_S5000x256 : S5000x1.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1700000x1_S1700000_n_0_0_1_wf : ScatterDims.WF S100000 S1700000x1 S1700000 [] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256_S100000x1_S100000_n_0_0_1_wf : ScatterDims.WF S256 S100000x1 S100000 [] [0] [0] 1
  dot_S5000x256_S5000x128_S256x128_0_0_1_1_n_n_wf : DotDims.WF S5000x256 S5000x128 S256x128 [0] [0] [1] [1] [] []
  dot_S256x128_S128x32_S256x32_1_0_0_1_n_n_wf : DotDims.WF S256x128 S128x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x2.size a ≤ S32x2.size a
  hwx1_7 : ∀ i : grid1.Coords, EltTy.bits .f32 = 32 ∨ (Rect.block (s := S32x2) S32x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x2.size a ≤ S256x2.size a
  hwx1_9 : ∀ i : grid1.Coords, EltTy.bits .f32 = 32 ∨ (Rect.block (s := S256x2) S256x2.size (cc1_transform_9 i) (hinb1_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_v28) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S32x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S256x2.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S256x128 : Shape := ⟨2, ![256, 128]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S256x2 : Shape := ⟨2, ![256, 2]⟩
abbrev S1x2 : Shape := ⟨2, ![1, 2]⟩

abbrev nBuf : Space → Nat
  | .hbm => 135
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S32x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .f32⟩
  | 101 => ⟨S256x128, .f32⟩
  | 102 => ⟨S100000x1, .i32⟩
  | 103 => ⟨S256x128, .f32⟩
  | 104 => ⟨S_, .f32⟩
  | 105 => ⟨S100000, .f32⟩
  | 106 => ⟨S_, .f32⟩
  | 107 => ⟨S256, .f32⟩
  | 108 => ⟨S100000x1, .i32⟩
  | 109 => ⟨S256, .f32⟩
  | 110 => ⟨S_, .f32⟩
  | 111 => ⟨S256, .f32⟩
  | 112 => ⟨S256, .f32⟩
  | 113 => ⟨S256x1, .f32⟩
  | 114 => ⟨S256x128, .f32⟩
  | 115 => ⟨S256x128, .f32⟩
  | 116 => ⟨S256x32, .f32⟩
  | 117 => ⟨S1x32, .f32⟩
  | 118 => ⟨S256x32, .f32⟩
  | 119 => ⟨S256x32, .f32⟩
  | 120 => ⟨S_, .f32⟩
  | 121 => ⟨S256x32, .f32⟩
  | 122 => ⟨S256x32, .f32⟩
  | 123 => ⟨S256x2, .f32⟩
  | 124 => ⟨S1x2, .f32⟩
  | 125 => ⟨S256x2, .f32⟩
  | 126 => ⟨S256x2, .f32⟩
  | 127 => ⟨S256x2, .f32⟩
  | _ => ⟨S100000x1, .f32⟩

abbrev hbmTy0_1 (i : Nat) : BufTy := match i % 128 with
  | 0 => ⟨S256x2, .f32⟩
  | 1 => ⟨S_, .f32⟩
  | 2 => ⟨S256x2, .f32⟩
  | 3 => ⟨S256x2, .f32⟩
  | 4 => ⟨S_, .f32⟩
  | 5 => ⟨S256x2, .f32⟩
  | 6 => ⟨S256x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  bcast_S_S256x2 : S_.BroadcastsInDim S256x2 (![] : Fin 0 → Fin S256x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x128_S100000x128_1_0_0_1_n_n_wf : DotDims.WF S100000x1 S1x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x32_S256x32_1_0_0_1_n_n_wf : DotDims.WF S256x128 S128x32 S256x32 [1] [0] [0] [1] [] []
  dot_S256x32_S32x2_S256x2_1_0_0_1_n_n_wf : DotDims.WF S256x32 S32x2 S256x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.K.R0.lean ====
import proofs.«409842_j28716151341663_3_alg».proof.Proof.Gen.Kernel.Launch
import proofs.«409842_j28716151341663_3_alg».proof.Proof.Gen.Kernel.Skeleton
import proofs.«409842_j28716151341663_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The first kernel call of @main (pipeline 0): the first graph-convolution layer and the pre-scale of the second, at the entry contents `V` -/

/-! ## The windows' blocks -/

/-- Window `w`'s block at grid point `t`, read off the array the call finds (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, whether the block was moved in at that point or at an
    earlier one: a window whose index map is constant is moved in once and its block stays (the index has not
    moved), a window whose index is the point is moved in afresh. Stated for any proof data whose array is `V`'s
    and whose body leaves the block where it is; no window here is cut or idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles of the body's loads and of its store: each the whole buffer, offsets zero -/

abbrev rNode : Rect S5000x1 := Rect.unit (s := S5000x1) ![0, 0] S5000x1.size inb_S5000x1_S5000x1_0_0
abbrev rFeat : Rect S1x128 := Rect.unit (s := S1x128) ![0, 0] S1x128.size inb_S1x128_S1x128_0_0
abbrev rWeight : Rect S128x128 := Rect.unit (s := S128x128) ![0, 0] S128x128.size inb_S128x128_S128x128_0_0
abbrev rOut : Rect S5000x128 := Rect.unit (s := S5000x128) ![0, 0] S5000x128.size inb_S5000x128_S5000x128_0_0

/-- The offsets of all four rectangles are zero on both axes. -/
theorem offs_zero : (![0, 0] : Fin 2 → Nat) = fun _ => 0 := funext fun a => by fin_cases a <;> rfl

/-! ## What the body leaves in the output window's buffer -/

/-- The result buffer after the body, from the five input blocks: the one store's payload laid over the buffer.
    The per-node scale (window 2) is read twice, once for the first layer and once for the pre-scale of the
    second; both reads see the same block. -/
def out0_5 (x0 : Vec F S5000x1 .f32) (x1 : Vec F S1x128 .f32) (x2 : Vec F S5000x1 .f32) (x3 : Vec F S1x128 .f32) (x4 : Vec F S128x128 .f32) : Vec F S5000x128 .bf16 :=
  View.canon [⟨rOut, k0_pay1 (View.ld x0 rNode) (View.ld x1 rFeat) (View.ld x2 rNode) (View.ld x3 rFeat) (View.ld x4 rWeight) (View.ld x2 rNode)⟩]

/-- Whole-buffer rectangles read the contents and the one covering store leaves its payload: the closed form. -/
theorem out0_5_eq (x0 : Vec F S5000x1 .f32) (x1 : Vec F S1x128 .f32) (x2 : Vec F S5000x1 .f32) (x3 : Vec F S1x128 .f32) (x4 : Vec F S128x128 .f32) :
    out0_5 x0 x1 x2 x3 x4 = k0_pay1 x0 x1 x2 x3 x4 x2 := by
  unfold out0_5
  rw [View.canon_unit_zero offs_zero]
  simp only [View.ld_unit_zero (S := S5000x1) offs_zero, View.ld_unit_zero (S := S1x128) offs_zero, View.ld_unit_zero (S := S128x128) offs_zero]

/-- The store's rectangle is the whole buffer, so it covers every index. -/
theorem cover0_5 (p0 : Vec F S5000x128 .bf16) (y : S5000x128.Idx) :
    ∃ pc ∈ ([⟨rOut, p0⟩] : List (View.Piece (Elt F) S5000x128 .bf16)), y ∈ pc.1.set :=
  ⟨_, List.mem_singleton_self _, View.mem_set_unit_zero offs_zero inb_S5000x128_S5000x128_0_0 y⟩

/-! ## The body's triple -/

set_option maxHeartbeats 1000000 in
/-- The body on whole buffers, the five inputs' at read contents `xW` and the output's at anything, runs to the
    continuation holding the inputs' as they were and the output's at `out0_5` of the inputs'. -/
theorem sound_kernel0 (c : Dev nD) (E : Set ℕ) (i : grid0.Coords)
    (arg1 : Memref sig .tc .vmem S5000x1 .f32) (harg1 : arg1.IsWhole) (arg2 : Memref sig .tc .vmem S1x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x1 .f32) (x1 : Vec F S1x128 .f32) (x2 : Vec F S5000x1 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the call finds them; after the body at point `t`
    each input's buffer at its block and the output's at `out0_5` of the input blocks; the invariant is the
    untouched rest (the other call's buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«409842_j28716151341663_3_alg».proof.Proof.Gen.Kernel.Launch
import proofs.«409842_j28716151341663_3_alg».proof.Proof.Gen.Kernel.Skeleton
import proofs.«409842_j28716151341663_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The whole-buffer rectangle -/

/-- The zero offsets of a rank-2 buffer, as the printed rectangles spell them. -/
theorem hz2 : (![0, 0] : Fin 2 → Nat) = fun _ => 0 := funext fun a => by fin_cases a <;> rfl

/-! ## The body's two conditions -/

/-- The condition of the body's first conditional (the zeroing store), from the grid coordinate. -/
abbrev cond1_0 (i : grid1.Coords) : Prop := (Scalar.cmpi .ne (Scalar.extui (Scalar.cmpi .eq (BitVec.ofNat 32 (i 0).val) 0#32)) 0#32) = 1#1
/-- The condition of the second (the classifier and the result's store). -/
abbrev cond1_1 (i : grid1.Coords) : Prop := k1_cond2 i = 1#1

/-- The first holds at the grid's first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second at its last point only. -/
theorem hcond1_1 : ∀ t : Fin cfg1.N, cond1_1 (grid1.coords t) ↔ t.val = 19 :=
  (by decide +kernel : ∀ t : Fin grid1.N, cond1_1 (grid1.coords t) ↔ t.val = 19)

/-! ## Where the result window is idle -/

/-- Where the second condition fails the printed configuration calls the result window idle: nothing is stored into it. -/
theorem idleAt1_9 : ∀ t : Fin cfg1.N, ¬cond1_1 (grid1.coords t) → cfg1.idle 9 (grid1.coords t) = true := by decide +kernel
/-- There the pipeline does not write its block back. -/
theorem noFlush1_9 : ∀ t : Fin cfg1.N, ¬cond1_1 (grid1.coords t) → (cfg1.win 9).flush t = false := by decide +kernel
/-- Where the condition holds the window is live. -/
theorem liveAt1_9 : ∀ t : Fin cfg1.N, cond1_1 (grid1.coords t) → cfg1.idle 9 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body's three stores leave -/

/-- What the first point's zeroing store leaves in the scratch: its payload, the store covering the buffer. -/
def accInit : Vec F S256x128 .f32 := k1_pay1

/-- The scratch after the accumulating store, over what it held before: the block's partial product added. -/
def accStep (prev : Vec F S256x128 .f32) (x0 : Vec F S5000x128 .f32) (x1 : Vec F S5000x1 .f32) (x2 : Vec F S1x128 .f32) (x3 : Vec F S5000x1 .i32) : Vec F S256x128 .f32 :=
  k1_pay2 x0 x1 x2 x3 prev

/-- The result window's buffer after the last point's store: the classifier over the pooled sums. -/
def outFin (acc : Vec F S256x128 .f32) (x4 : Vec F S256x1 .f32) (x5 : Vec F S128x32 .f32) (x6 : Vec F S1x32 .f32) (x7 : Vec F S32x2 .f32) (x8 : Vec F S1x2 .f32) : Vec F S256x2 .f32 :=
  k1_pay3 acc x4 x5 x6 x7 x8

theorem accInit_eq : (accInit : Vec F S256x128 .f32) = k1_pay1 := rfl
theorem accStep_eq (prev : Vec F S256x128 .f32) (x0 : Vec F S5000x128 .f32) (x1 : Vec F S5000x1 .f32) (x2 : Vec F S1x128 .f32) (x3 : Vec F S5000x1 .i32) :
    accStep prev x0 x1 x2 x3 = k1_pay2 x0 x1 x2 x3 prev := rfl
theorem outFin_eq (acc : Vec F S256x128 .f32) (x4 : Vec F S256x1 .f32) (x5 : Vec F S128x32 .f32) (x6 : Vec F S1x32 .f32) (x7 : Vec F S32x2 .f32) (x8 : Vec F S1x2 .f32) :
    outFin acc x4 x5 x6 x7 x8 = k1_pay3 acc x4 x5 x6 x7 x8 := rfl

/-! ## The scratch point by point -/

/-- THE ACCUMULATION. The scratch after the body at point `n`: at the first point the zeroed buffer plus that
    block's product, afterwards what the point before left plus this block's. -/
def accAt1 (c : Dev nD) : (n : ℕ) → n < cfg1.N → Vec F S256x128 .f32
  | 0, h => accStep accInit (iblk1 V c 0 ⟨0, h⟩) (iblk1 V c 1 ⟨0, h⟩) (iblk1 V c 2 ⟨0, h⟩) (iblk1 V c 3 ⟨0, h⟩)
  | n + 1, h => accStep (accAt1 c n (Nat.lt_of_succ_lt h)) (iblk1 V c 0 ⟨n + 1, h⟩) (iblk1 V c 1 ⟨n + 1, h⟩) (iblk1 V c 2 ⟨n + 1, h⟩) (iblk1 V c 3 ⟨n + 1, h⟩)

theorem accAt1_zero (c : Dev nD) (h : 0 < cfg1.N) :
    accAt1 V c 0 h = accStep accInit (iblk1 V c 0 ⟨0, h⟩) (iblk1 V c 1 ⟨0, h⟩) (iblk1 V c 2 ⟨0, h⟩) (iblk1 V c 3 ⟨0, h⟩) := rfl
theorem accAt1_succ (c : Dev nD) (n : ℕ) (h : n + 1 < cfg1.N) :
    accAt1 V c (n + 1) h = accStep (accAt1 V c n (Nat.lt_of_succ_lt h)) (iblk1 V c 0 ⟨n + 1, h⟩) (iblk1 V c 1 ⟨n + 1, h⟩) (iblk1 V c 2 ⟨n + 1, h⟩) (iblk1 V c 3 ⟨n + 1, h⟩) := rfl

/-! ## The invariant -/

/-- The scratch operand: a whole scoped buffer of the kernel's own, passed beside the windows. -/
abbrev scM1 : Memref sig .tc .vmem S256x128 .f32 := Memref.whole cc1_scratch0

/-- The core's scoped buffers that this region stages nothing in, with the scratch described by `P`: the other
    region's staging buffers at some contents each, then the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region invariant before position `n`: before the first point the class's (every scoped buffer at anything);
    afterwards the scoped rest with the scratch at what the point before left, and the generator register at some state. -/
def PhiS1 (c : Dev nD) : (n : ℕ) → n ≤ cfg1.N → sProp 𝕄
  | 0, _ => Pipeline.ΦA spec1 c
  | n + 1, hn => iprop(scoped1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(scoped1 c (owns (c : Thread nD τ) scM1 fullShare (accAt1 V c n hn)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(scoped1 c (owns (c : Thread nD τ) scM1 fullShare (accAt1 V c (n - 1) (by omega))) ∗ (∃ r, prngReg c r)) := by
  cases n with
  | zero => exact absurd rfl hz
  | succ n => rfl

/-- The class's invariant with the scratch as a memref owned at some contents. -/
theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

/-! ## The proof data -/

/-- The proof data of the region on core `c`: the arrays as the region finds them; after the body each input's buffer
    at its block, the result's at the classifier over the scratch of that point (read at the last point only); the
    scratch-carrying invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outFin (accAt1 V c t.val t.isLt) (iblk1 V c 4 t) (iblk1 V c 5 t) (iblk1 V c 6 t) (iblk1 V c 7 t) (iblk1 V c 8 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) :
    (dat1 V c).after 9 t = outFin (accAt1 V c t.val t.isLt) (iblk1 V c 4 t) (iblk1 V c 5 t) (iblk1 V c 6 t) (iblk1 V c 7 t) (iblk1 V c 8 t) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves in the inputs' buffers: their blocks. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at every point, fetched there or not: unfetched, the block index
    has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl

/-! ## The body's run, case by case

The printed body is its skeleton of memory operations over the payloads; on whole memrefs, each at stated contents,
it runs to the continuation holding every buffer it touched at what the case leaves there. The two conditionals are
decided by the case's hypotheses. A load through the whole-buffer rectangle reads the buffer's contents; one store
through it leaves its payload whatever was there; a load after such a store reads the payload stored. -/

set_option maxHeartbeats 1000000 in
/-- The body at the first point: the first conditional taken, the second not; the scratch, at anything, is zeroed, then
    read back and stored with this block's product added. -/
theorem runA (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : cond1_0 i) (hc1 : ¬cond1_1 i)
    (x0 : Vec F S5000x128 .f32) (x1 : Vec F S5000x1 .f32) (x2 : Vec F S1x128 .f32) (x3 : Vec F S5000x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg11 fullShare (accStep accInit x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  sl_unfold_words
  rw [View.read_writes_eq_canon _ _ _ (fun y => ⟨_, List.mem_cons_self, View.mem_set_unit_zero hz2 inb_S256x128_S256x128_0_0 y⟩),
    View.canon_cons_unit_zero (S := S256x128) hz2]
  simp only [View.readAt_eq_ld, harg1.read_unread, harg2.read_unread, harg3.read_unread, harg4.read_unread,
    View.ld_unit_zero (S := S5000x128) hz2, View.ld_unit_zero (S := S5000x1) hz2, View.ld_unit_zero (S := S1x128) hz2,
    View.readCov_unit_zero (S := S256x128) _ hz2]
  rfl

set_option maxHeartbeats 1000000 in
/-- The body at a point that is neither the first nor the last: neither conditional taken; the four blocks are
    loaded, the scratch is loaded at what the point before left and stored back with this block's product added. -/
theorem runB (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : ¬cond1_0 i) (hc1 : ¬cond1_1 i)
    (x0 : Vec F S5000x128 .f32) (x1 : Vec F S5000x1 .f32) (x2 : Vec F S1x128 .f32) (x3 : Vec F S5000x1 .i32) (xs : Vec F S256x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg11 fullShare (accStep xs x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg4.eq_unread hf3
  obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  rw [View.read_writes_eq_canon _ _ _ (fun y => ⟨_, List.mem_singleton_self _, View.mem_set_unit_zero hz2 inb_S256x128_S256x128_0_0 y⟩),
    View.canon_unit_zero (S := S256x128) hz2]
  simp only [View.readAt_eq_ld, harg1.read_unread, harg2.read_unread, harg3.read_unread, harg4.read_unread, harg11.read_unread,
    View.ld_unit_zero (S := S5000x128) hz2, View.ld_unit_zero (S := S5000x1) hz2, View.ld_unit_zero (S := S1x128) hz2,
    View.ld_unit_zero (S := S256x128) hz2]
  rfl

set_option maxHeartbeats 1000000 in
/-- The body at the last point: the first conditional not taken, the second taken; after the accumulating store the
    scratch is read back, the five small operands are loaded, and the classifier's value is stored over the result's
    buffer, which held anything. -/
theorem runC (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : ¬cond1_0 i) (hc1 : cond1_1 i)
    (x0 : Vec F S5000x128 .f32) (x1 : Vec F S5000x1 .f32) (x2 : Vec F S1x128 .f32) (x3 : Vec F S5000x1 .i32) (xs : Vec F S256x128 .f32)
    (x4 : Vec F S256x1 .f32) (x5 : Vec F S128x32 .f32) (x6 : Vec F S1x32 .f32) (x7 : Vec F S32x2 .f32) (x8 : Vec F S1x2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outFin (accStep xs x0 x1 x2 x3) x4 x5 x6 x7 x8)
            ∗ owns (c : Thread nD τ) arg11 fullShare (accStep xs x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7; obtain rfl := harg9.eq_unread hf8
  obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    sl_unfold_words
    rw [View.read_writes_eq_canon _ _ _ (fun y => ⟨_, List.mem_singleton_self _, View.mem_set_unit_zero hz2 inb_S256x2_S256x2_0_0 y⟩),
      View.canon_unit_zero (S := S256x2) hz2]
    simp only [View.readAt_eq_ld, harg1.read_unread, harg2.read_unread, harg3.read_unread, harg4.read_unread, harg5.read_unread,
      harg6.read_unread, harg7.read_unread, harg8.read_unread, harg9.read_unread, harg11.read_unread,
      View.ld_unit_zero (S := S5000x128) hz2, View.ld_unit_zero (S := S5000x1) hz2, View.ld_unit_zero (S := S1x128) hz2,
      View.ld_unit_zero (S := S256x128) hz2, View.ld_unit_zero (S := S256x1) hz2, View.ld_unit_zero (S := S128x32) hz2,
      View.ld_unit_zero (S := S1x32) hz2, View.ld_unit_zero (S := S32x2) hz2, View.ld_unit_zero (S := S1x2) hz2,
      View.readCov_unit_zero (S := S256x128) _ hz2]
    rfl
  iexists _; isplitr
  swap; · iexact HS
  ipureintro
  sl_unfold_words
  rw [View.read_writes_eq_canon _ _ _ (fun y => ⟨_, List.mem_singleton_self _, View.mem_set_unit_zero hz2 inb_S256x128_S256x128_0_0 y⟩),
    View.canon_unit_zero (S := S256x128) hz2]
  simp only [View.readAt_eq_ld, harg1.read_unread, harg2.read_unread, harg3.read_unread, harg4.read_unread, harg5.read_unread,
      harg6.read_unread, harg7.read_unread, harg8.read_unread, harg9.read_unread, harg11.read_unread,
      View.ld_unit_zero (S := S5000x128) hz2, View.ld_unit_zero (S := S5000x1) hz2, View.ld_unit_zero (S := S1x128) hz2,
      View.ld_unit_zero (S := S256x128) hz2, View.ld_unit_zero (S := S256x1) hz2, View.ld_unit_zero (S := S128x32) hz2,
      View.ld_unit_zero (S := S1x32) hz2, View.ld_unit_zero (S := S32x2) hz2, View.ld_unit_zero (S := S1x2) hz2,
      View.readCov_unit_zero (S := S256x128) _ hz2]
  rfl

/-! ## The body obligation, at a generic point -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x2 .f32 := win1_9.stage (cfg1.slots t 9)
abbrev hs1_9 (t : Fin cfg1.N) : (ms1_9 t).IsWhole := hstage1_9 ((cfg1.slots t 9).cast nbuf1_9)

/-- The scratch after the body at the first point. -/
theorem accAt1_first (c : Dev nD) (t : Fin cfg1.N) (h0 : t.val = 0) :
    accAt1 V c t.val t.isLt = accStep accInit (iblk1 V c 0 t) (iblk1 V c 1 t) (iblk1 V c 2 t) (iblk1 V c 3 t) := by
  obtain ⟨n, hn⟩ := t
  cases n with
  | zero => rfl
  | succ n => exact absurd h0 (Nat.succ_ne_zero n)

/-- The scratch after the body at a later point, over what the point before left. -/
theorem accAt1_later (c : Dev nD) (t : Fin cfg1.N) (h0 : ¬t.val = 0) :
    accAt1 V c t.val t.isLt = accStep (accAt1 V c (t.val - 1) (Nat.lt_of_le_of_lt (Nat.sub_le _ _) t.isLt)) (iblk1 V c 0 t) (iblk1 V c 1 t) (iblk1 V c 2 t) (iblk1 V c 3 t) := by
  obtain ⟨n, hn⟩ := t
  cases n with
  | zero => exact absurd rfl h0
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point. The inputs' memrefs hold their blocks; the closed forms of the two conditions say which of the
    three cases the point is in, and that case's run applies; the invariant hands the body the scratch at what the point
    before left (at anything at the first point) and takes it back at this point's contents; the result window is handed
    back untouched where the body stores nothing into it, and at the last point holds the classifier's value; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : ¬t.val = 19 := by omega
    rw [Dat.leavesExact_idle (dat1 V c) 9 t (idleAt1_9 t (fun h => h1 ((hcond1_1 t).mp h))) (noFlush1_9 t (fun h => h1 ((hcond1_1 t).mp h)))]
    rw [accAt1_first V c t h0]
    rw [PhiS1_castSucc V c t, PhiS1_zero V c _ _ h0, PhiA1_eq]
    unfold scoped1
    iintro ⟨⟨⟨G0, G1, G2, G3, G4, G5, G6, G7, G8, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid1.coords t) _ _ _ _ _ _ _ _ _ _ _ _ _ _ _ _ _ _ _ _ _ _ ((hcond1_0 t).mpr h0) (fun h => h1 ((hcond1_1 t).mp h))
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [G0 G1 G2 G3 G4 G5 G6 G7 G8 HS Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 19
    · rw [show (dat1 V c).leavesExact 9 t = owns (c : Thread nD τ) (ms1_9 t) fullShare ((dat1 V c).after 9 t) from by
        unfold Dat.leavesExact; rw [liveAt1_9 t ((hcond1_1 t).mpr h1)], after1_9]
      rw [accAt1_later V c t h0]
      rw [PhiS1_castSucc V c t, PhiS1_pos V c _ _ h0]
      unfold scoped1
      iintro ⟨⟨⟨G0, G1, G2, G3, G4, G5, G6, G7, G8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c (grid1.coords t) _ _ _ _ _ _ _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (accAt1 V c (t.val - 1) (Nat.lt_of_le_of_lt (Nat.sub_le _ _) t.isLt))
        (iblk1 V c 4 t) (iblk1 V c 5 t) (iblk1 V c 6 t) (iblk1 V c 7 t) (iblk1 V c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [G0 G1 G2 G3 G4 G5 G6 G7 G8 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat1 V c) 9 t (idleAt1_9 t (fun h => h1 ((hcond1_1 t).mp h))) (noFlush1_9 t (fun h => h1 ((hcond1_1 t).mp h)))]
      rw [accAt1_later V c t h0]
      rw [PhiS1_castSucc V c t, PhiS1_pos V c _ _ h0]
      unfold scoped1
      iintro ⟨⟨⟨G0, G1, G2, G3, G4, G5, G6, G7, G8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid1.coords t) _ _ _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 G7 G8 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨G0, G1, G2, G3, G4, G5, G6, G7, G8, HS⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.K.Run.lean ====
import proofs.«409842_j28716151341663_3_alg».proof.Proof.K.R0
import proofs.«409842_j28716151341663_3_alg».proof.Proof.K.R1
import proofs.«409842_j28716151341663_3_alg».proof.Proof.Gen.Kernel.Regions
import proofs.«409842_j28716151341663_3_alg».proof.Proof.Gen.Kernel.Launch
import proofs.«409842_j28716151341663_3_alg».proof.Proof.Gen.Kernel.Skeleton
import proofs.«409842_j28716151341663_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main, from the launch to the return

@main is three stretches of host operations, the first kernel region (twenty grid points, six windows), one more
stretch of host operations, and the second kernel region (twenty grid points, ten windows, an accumulator carried
from point to point). This module follows the TensorCore's unscoped buffers through those six items: what each
buffer holds at every boundary is a fold from the launch memory, a host stretch acting by its operations' results
and a region by what its write-backs leave in its windows' arrays. Every argument array is read back through the
fold to its launch contents, and the result array `main_v53` is read at what the second region's write-backs leave.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- Core `c`'s buffers at the launch. -/
abbrev W0 (c : Dev nD) : Valuation τ sig (Elt F) := fun b => m (c, b)
/-- After the first host stretch. -/
abbrev W1 (c : Dev nD) : Valuation τ sig (Elt F) := StableHlo.after hostOps0 (W0 m c)
/-- After the second host stretch (the body of the module-local selection function). -/
abbrev W2 (c : Dev nD) : Valuation τ sig (Elt F) := StableHlo.after hostOps0_1 (W1 m c)
/-- After the third host stretch: what the first region is entered from. -/
abbrev W3 (c : Dev nD) : Valuation τ sig (Elt F) := StableHlo.after hostOps0_2 (W2 m c)
/-- The same, read at the TensorCore's references: the parameter of the first region's proof data. -/
abbrev V3 : (c : Dev nD) → (b : Ref sig .tc) → Buf (Elt F) ((c : Thread nD τ).loc b) := fun c b => W3 m c b
/-- At the first region's exit: each of its six arrays at what the write-backs of all twenty points leave in it (an
    input array as entered), every other buffer as entered. -/
def W4 (c : Dev nD) : Valuation τ sig (Elt F) :=
  Pipeline.withArrays spec0 c (W3 m c) fun w => (dat0 (V3 m) c).arrAt w cfg0.N
/-- After the fourth host stretch: what the second region is entered from. -/
abbrev W5 (c : Dev nD) : Valuation τ sig (Elt F) := StableHlo.after hostOps1 (W4 m c)
/-- The same, read at the TensorCore's references: the parameter of the second region's proof data. -/
abbrev V5 : (c : Dev nD) → (b : Ref sig .tc) → Buf (Elt F) ((c : Thread nD τ).loc b) := fun c b => W5 m c b
/-- At the second region's exit, likewise over its ten arrays: what the program returns from. -/
def W6 (c : Dev nD) : Valuation τ sig (Elt F) :=
  Pipeline.withArrays spec1 c (W5 m c) fun w => (dat1 (V5 m) c).arrAt w cfg1.N

/-! ## Reading the fold -/

/-- A region's array holds, at the region's exit, what the write-backs leave. -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
/-- A buffer that is none of the first region's arrays passes the region unchanged. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is never written back: it leaves the first region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))

/-- The first region's output array `main_v30` (window 5) at the region's exit. -/
theorem W4_main_v30 (c : Dev nD) : W4 m c (Proc.devRef .tc main_v30) = (dat0 (V3 m) c).arrAt 5 cfg0.N :=
  W4_arr m c 5
/-- The second region's output array `main_v53` (window 9) at the region's exit: the program's result. -/
theorem W6_main_v53 (c : Dev nD) : W6 m c (Proc.devRef .tc main_v53) = (dat1 (V5 m) c).arrAt 9 cfg1.N :=
  W6_arr m c 9

/-- A buffer no operation of a host stretch writes keeps its contents through the stretch. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h

/-! ### The arguments end as launched

No host operation writes an argument, and a region meets one only as an input window's array (the first region
`main_arg3` and `main_arg5`, the second `main_arg7` and `main_arg9`) or not at all: the fold at an argument's
buffer walks back to the launch memory. -/

theorem W6_main_arg0 (c : Dev nD) : W6 m c (Proc.devRef .tc main_arg0) = m ((c : Thread nD τ).loc main_arg0) :=
  (W6_of_ne m c main_arg0 (by decide)).trans <| (W5_of m c main_arg0 (by decide)).trans <| (W4_of_ne m c main_arg0 (by decide)).trans <|
    (W3_of m c main_arg0 (by decide)).trans <| (W2_of m c main_arg0 (by decide)).trans <| (W1_of m c main_arg0 (by decide)).trans rfl
theorem W6_main_arg1 (c : Dev nD) : W6 m c (Proc.devRef .tc main_arg1) = m ((c : Thread nD τ).loc main_arg1) :=
  (W6_of_ne m c main_arg1 (by decide)).trans <| (W5_of m c main_arg1 (by decide)).trans <| (W4_of_ne m c main_arg1 (by decide)).trans <|
    (W3_of m c main_arg1 (by decide)).trans <| (W2_of m c main_arg1 (by decide)).trans <| (W1_of m c main_arg1 (by decide)).trans rfl
theorem W6_main_arg2 (c : Dev nD) : W6 m c (Proc.devRef .tc main_arg2) = m ((c : Thread nD τ).loc main_arg2) :=
  (W6_of_ne m c main_arg2 (by decide)).trans <| (W5_of m c main_arg2 (by decide)).trans <| (W4_of_ne m c main_arg2 (by decide)).trans <|
    (W3_of m c main_arg2 (by decide)).trans <| (W2_of m c main_arg2 (by decide)).trans <| (W1_of m c main_arg2 (by decide)).trans rfl
theorem W6_main_arg3 (c : Dev nD) : W6 m c (Proc.devRef .tc main_arg3) = m ((c : Thread nD τ).loc main_arg3) :=
  (W6_of_ne m c main_arg3 (by decide)).trans <| (W5_of m c main_arg3 (by decide)).trans <| (W4_in m c 1 rfl).trans <|
    (W3_of m c main_arg3 (by decide)).trans <| (W2_of m c main_arg3 (by decide)).trans <| (W1_of m c main_arg3 (by decide)).trans rfl
theorem W6_main_arg4 (c : Dev nD) : W6 m c (Proc.devRef .tc main_arg4) = m ((c : Thread nD τ).loc main_arg4) :=
  (W6_of_ne m c main_arg4 (by decide)).trans <| (W5_of m c main_arg4 (by decide)).trans <| (W4_of_ne m c main_arg4 (by decide)).trans <|
    (W3_of m c main_arg4 (by decide)).trans <| (W2_of m c main_arg4 (by decide)).trans <| (W1_of m c main_arg4 (by decide)).trans rfl
theorem W6_main_arg5 (c : Dev nD) : W6 m c (Proc.devRef .tc main_arg5) = m ((c : Thread nD τ).loc main_arg5) :=
  (W6_of_ne m c main_arg5 (by decide)).trans <| (W5_of m c main_arg5 (by decide)).trans <| (W4_in m c 4 rfl).trans <|
    (W3_of m c main_arg5 (by decide)).trans <| (W2_of m c main_arg5 (by decide)).trans <| (W1_of m c main_arg5 (by decide)).trans rfl
theorem W6_main_arg6 (c : Dev nD) : W6 m c (Proc.devRef .tc main_arg6) = m ((c : Thread nD τ).loc main_arg6) :=
  (W6_of_ne m c main_arg6 (by decide)).trans <| (W5_of m c main_arg6 (by decide)).trans <| (W4_of_ne m c main_arg6 (by decide)).trans <|
    (W3_of m c main_arg6 (by decide)).trans <| (W2_of m c main_arg6 (by decide)).trans <| (W1_of m c main_arg6 (by decide)).trans rfl
theorem W6_main_arg7 (c : Dev nD) : W6 m c (Proc.devRef .tc main_arg7) = m ((c : Thread nD τ).loc main_arg7) :=
  (W6_in m c 5 rfl).trans <| (W5_of m c main_arg7 (by decide)).trans <| (W4_of_ne m c main_arg7 (by decide)).trans <|
    (W3_of m c main_arg7 (by decide)).trans <| (W2_of m c main_arg7 (by decide)).trans <| (W1_of m c main_arg7 (by decide)).trans rfl
theorem W6_main_arg8 (c : Dev nD) : W6 m c (Proc.devRef .tc main_arg8) = m ((c : Thread nD τ).loc main_arg8) :=
  (W6_of_ne m c main_arg8 (by decide)).trans <| (W5_of m c main_arg8 (by decide)).trans <| (W4_of_ne m c main_arg8 (by decide)).trans <|
    (W3_of m c main_arg8 (by decide)).trans <| (W2_of m c main_arg8 (by decide)).trans <| (W1_of m c main_arg8 (by decide)).trans rfl
theorem W6_main_arg9 (c : Dev nD) : W6 m c (Proc.devRef .tc main_arg9) = m ((c : Thread nD τ).loc main_arg9) :=
  (W6_in m c 7 rfl).trans <| (W5_of m c main_arg9 (by decide)).trans <| (W4_of_ne m c main_arg9 (by decide)).trans <|
    (W3_of m c main_arg9 (by decide)).trans <| (W2_of m c main_arg9 (by decide)).trans <| (W1_of m c main_arg9 (by decide)).trans rfl
theorem W6_main_arg10 (c : Dev nD) : W6 m c (Proc.devRef .tc main_arg10) = m ((c : Thread nD τ).loc main_arg10) :=
  (W6_of_ne m c main_arg10 (by decide)).trans <| (W5_of m c main_arg10 (by decide)).trans <| (W4_of_ne m c main_arg10 (by decide)).trans <|
    (W3_of m c main_arg10 (by decide)).trans <| (W2_of m c main_arg10 (by decide)).trans <| (W1_of m c main_arg10 (by decide)).trans rfl

/-! ## The proof data of both pipelines and the thread state -/

/-- The two pipelines' proof data, each at the contents its region is entered from. A literal case split, so that
    the pinned configuration at a numeral reduces to the printed one. -/
def runPdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state, and its dues, at
    nothing. -/
abbrev runR (c : Dev nD) : sProp 𝕄 := iprop((∃ r, prngReg c r) ∗ ∃ Wd, owes (c : Thread nD τ) (0 : CellTallies nD τ sig Unit) Wd)
/-- A host stretch as an item of the run: over the unscoped references from the contents `W`, `runR` riding along;
    it ends with those references at `StableHlo.after ops (W c)`, the next boundary's contents by name. -/
abbrev runHost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev runTn (c : Dev nD) : sProp 𝕄 := iprop(StableHlo.held (c : Thread nD τ) (Pipeline.ucRefs τ sig) (W6 m c) ∗ ∃ r, prngReg c r)

/-- At a region's exit each of its arrays holds what the pipeline leaves, and every other buffer what it held at
    the entry: the two hypotheses under which the arrays and the bypassing rest make the unscoped buffers again. -/
theorem W4_hF (c : Dev nD) (w : Fin cfg0.W) : (dat0 (V3 m) c).arrAt w cfg0.N = W4 m c (Proc.devRef .tc (Pipeline.arrRef spec0 w)) :=
  (W4_arr m c w).symm
theorem W4_hrest (c : Dev nD) : ∀ b : Ref sig .tc, b ∉ Finset.univ.image (Pipeline.arrRef spec0) → W4 m c (Proc.devRef .tc b) = W3 m c (Proc.devRef .tc b) :=
  fun b hb => W4_of_ne m c b fun w e => hb (Finset.mem_image.mpr ⟨w, Finset.mem_univ _, e⟩)
theorem W6_hF (c : Dev nD) (w : Fin cfg1.W) : (dat1 (V5 m) c).arrAt w cfg1.N = W6 m c (Proc.devRef .tc (Pipeline.arrRef spec1 w)) :=
  (W6_arr m c w).symm
theorem W6_hrest (c : Dev nD) : ∀ b : Ref sig .tc, b ∉ Finset.univ.image (Pipeline.arrRef spec1) → W6 m c (Proc.devRef .tc b) = W5 m c (Proc.devRef .tc b) :=
  fun b hb => W6_of_ne m c b fun w e => hb (Finset.mem_image.mpr ⟨w, Finset.mem_univ _, e⟩)

/-! ## The regions as items of the run -/

set_option backward.isDefEq.respectTransparency.types false in
/-- THE FIRST REGION over the thread state: entered from every unscoped buffer at `W3`, left at `W4`. Its six arrays
    are split out of the unscoped buffers at the entry and put back at the exit contents; the generator register goes
    into the region's invariant (the scratch buffers no window stages, and the register) and comes out; nothing is
    owed; the kernel has no semaphore of its own. -/
def runReg0 : Pipeline.RegionSeg (pcfgs (F := F)) adm (runPdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ runL runLv 0 fun _ _ => rfl
  pre c := iprop(StableHlo.held (c : Thread nD τ) (Pipeline.ucRefs τ sig) (W3 m c) ∗ runR c)
  post c := iprop(StableHlo.held (c : Thread nD τ) (Pipeline.ucRefs τ sig) (W4 m c) ∗ runR c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (runPdats m) launch0.win launch0.arr_whole c
      ((runPdats m 0 c).share_full fun _ => rfl) (V3 m c) (A_eq0 (V3 m) c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wd, Howes⟩; iexists Wd; isplitr; · ipureintro; exact fun _ _ => Or.inl trivial
      iexact Howes
    isplitl [Hprng]; · iexact Hprng
    iexact Hrest
  hin c := by
    rw [show (runPdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (runPdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (runPdats m) ((runPdats m 0 c).share_full fun _ => rfl)
      (V3 m c) (fun b => W4 m c b) ((runPdats m 0 c).arrAt · cfg0.N) (W4_hF m c) (W4_hrest m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%Wd, -, Howes⟩; iexists Wd; iexact Howes

set_option backward.isDefEq.respectTransparency.types false in
/-- THE SECOND REGION over the thread state: entered from every unscoped buffer at `W5`, left at `W6`, which the return
    reads. As the first, but for its invariant: at the first point it is made from the scratch buffers and the
    generator register (`hin1`), and at the last point it gives them back (`hout1`), the accumulator among the
    scratch buffers. -/
def runReg1 : Pipeline.RegionSeg (pcfgs (F := F)) adm (runPdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ runL runLv 1 fun _ _ => rfl
  pre c := iprop(StableHlo.held (c : Thread nD τ) (Pipeline.ucRefs τ sig) (W5 m c) ∗ runR c)
  post c := iprop(runTn m c ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (runPdats m) launch1.win launch1.arr_whole c
      ((runPdats m 1 c).share_full fun _ => rfl) (V5 m c) (A_eq1 (V5 m) c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wd, Howes⟩; iexists Wd; isplitr; · ipureintro; exact fun _ _ => Or.inl trivial
      iexact Howes
    isplitl [Hprng]; · iexact Hprng
    iexact Hrest
  hin c := by
    refine BI.Entails.trans ?_ (show Pipeline.ΦA spec1 c ⊢ (runPdats m 1 c).Φ 0 from hin1 (V5 m) c)
    show (_ : sProp 𝕄) ⊢ _
    unfold Pipeline.ΦA
    iintro ⟨Hprng, -, Hsc⟩
    isplitl [Hsc]; · iexact Hsc
    iexact Hprng
  hout c := by
    rw [Pipeline.ownSems0_none]
    refine BI.Entails.trans (show (runPdats m 1 c).Φ (Fin.last _) ⊢ Pipeline.ΦA spec1 c from hout1 (V5 m) c) ?_
    show (_ : sProp 𝕄) ⊢ _
    unfold Pipeline.ΦA
    iintro ⟨Hsc, Hprng⟩
    isplitl [Hprng]; · iexact Hprng
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (runPdats m) ((runPdats m 1 c).share_full fun _ => rfl)
      (V5 m c) (fun b => W6 m c b) ((runPdats m 1 c).arrAt · cfg1.N) (W6_hF m c) (W6_hrest m c)
    rw [Pipeline.unscopedBufs_held] at hjoin
    iintro ⟨Harr, Howes, Hprng, Hrest⟩
    imodintro
    isplitl [Harr Hrest Hprng]
    · isplitl [Harr Hrest]
      · iapply hjoin; isplitl [Harr] <;> iassumption
      iexact Hprng
    unfold Pipeline.Dat.owesAt Pipeline.owesWithin
    icases Howes with ⟨%Wd, -, Howes⟩; iexists Wd; iexact Howes

/-! ## @main as the six items, and the launch -/

/-- @main's six items in order: a host item per stretch from its boundary's contents, a region per kernel call. -/
abbrev runSegs : List (Pipeline.Seg (pcfgs (F := F)) adm (runPdats m) () defs₀ run𝒱 runL runLv) :=
  [ .host (runHost hostOps0 hostOps0_sub hostOps0_fresh (W0 m)),
    .host (runHost hostOps0_1 hostOps0_1_sub hostOps0_1_fresh (W1 m)),
    .host (runHost hostOps0_2 hostOps0_2_sub hostOps0_2_fresh (W2 m)),
    .region (runReg0 m),
    .host (runHost hostOps1 hostOps1_sub hostOps1_fresh (W4 m)),
    .region (runReg1 m) ]

/-- @main is the run of the six items: @main is the chain of its items, and so is the items' run. -/
theorem run_main_eq (c : Dev nD) : main (F := F) c = Pipeline.Seg.run (runSegs m) := by
  rw [main_chain c, Pipeline.Seg.run_eq_chain]
  rfl

set_option backward.isDefEq.respectTransparency.types false in
/-- THE RUN. At the compiled mesh, from any memory with zero counters, every weakly fair execution of @main on the
    TensorCores terminates, nothing faulting, and in every final state each unscoped buffer of each core holds the
    last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (runPdats m) () cellOf_inj emb₁ defs₀ run𝒱 runL runLv m ρ main (runSegs m)
    (fun c Q => by rw [run_main_eq m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m)
    (hch := ⟨fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_main m ρ).mono fun r h c =>
    ⟨(h c _ (run_mem_uc main_arg0 (by decide))).trans (W6_main_arg0 m c),
      (h c _ (run_mem_uc main_arg1 (by decide))).trans (W6_main_arg1 m c),
      (h c _ (run_mem_uc main_arg2 (by decide))).trans (W6_main_arg2 m c),
      (h c _ (run_mem_uc main_arg3 (by decide))).trans (W6_main_arg3 m c),
      (h c _ (run_mem_uc main_arg4 (by decide))).trans (W6_main_arg4 m c),
      (h c _ (run_mem_uc main_arg5 (by decide))).trans (W6_main_arg5 m c),
      (h c _ (run_mem_uc main_arg6 (by decide))).trans (W6_main_arg6 m c),
      (h c _ (run_mem_uc main_arg7 (by decide))).trans (W6_main_arg7 m c),
      (h c _ (run_mem_uc main_arg8 (by decide))).trans (W6_main_arg8 m c),
      (h c _ (run_mem_uc main_arg9 (by decide))).trans (W6_main_arg9 m c),
      (h c _ (run_mem_uc main_arg10 (by decide))).trans (W6_main_arg10 m c)⟩

/-- THE RUN WITH ITS VALUE: the result array ends at what the second region's write-backs leave in it, and every
    argument array at its launch contents. -/
theorem run_value : θ_run defs (onTc (τ := τ) (main (F := F))) ⟨m, fun _ => 0, ρ⟩ (fun r => ∀ c : Dev nD,
      r.2.mem ((c.tc : Thread nD τ).loc main_v53) = (dat1 (V5 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_main m ρ).mono fun r h c =>
    ⟨(h c _ (run_mem_uc main_v53 (by decide))).trans (W6_main_v53 m c),
      (h c _ (run_mem_uc main_arg0 (by decide))).trans (W6_main_arg0 m c),
      (h c _ (run_mem_uc main_arg1 (by decide))).trans (W6_main_arg1 m c),
      (h c _ (run_mem_uc main_arg2 (by decide))).trans (W6_main_arg2 m c),
      (h c _ (run_mem_uc main_arg3 (by decide))).trans (W6_main_arg3 m c),
      (h c _ (run_mem_uc main_arg4 (by decide))).trans (W6_main_arg4 m c),
      (h c _ (run_mem_uc main_arg5 (by decide))).trans (W6_main_arg5 m c),
      (h c _ (run_mem_uc main_arg6 (by decide))).trans (W6_main_arg6 m c),
      (h c _ (run_mem_uc main_arg7 (by decide))).trans (W6_main_arg7 m c),
      (h c _ (run_mem_uc main_arg8 (by decide))).trans (W6_main_arg8 m c),
      (h c _ (run_mem_uc main_arg9 (by decide))).trans (W6_main_arg9 m c),
      (h c _ (run_mem_uc main_arg10 (by decide))).trans (W6_main_arg10 m c)⟩

end Cert.Kernel.Hand

end
-- ==== Proof.KI.R0.lean ====
import proofs.«409842_j28716151341663_3_alg».proof.Proof.Gen.KernelIdeal.Launch
import proofs.«409842_j28716151341663_3_alg».proof.Proof.Gen.KernelIdeal.Skeleton
import proofs.«409842_j28716151341663_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The first kernel call of @main (pipeline 0): the first graph-convolution layer and the pre-scale of the second, at the entry contents `V` -/

/-! ## The windows' blocks -/

/-- Window `w`'s block at grid point `t`, read off the array the call finds (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, whether the block was moved in at that point or at an
    earlier one: a window whose index map is constant is moved in once and its block stays (the index has not
    moved), a window whose index is the point is moved in afresh. Stated for any proof data whose array is `V`'s
    and whose body leaves the block where it is; no window here is cut or idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles of the body's loads and of its store: each the whole buffer, offsets zero -/

abbrev rNode : Rect S5000x1 := Rect.unit (s := S5000x1) ![0, 0] S5000x1.size inb_S5000x1_S5000x1_0_0
abbrev rFeat : Rect S1x128 := Rect.unit (s := S1x128) ![0, 0] S1x128.size inb_S1x128_S1x128_0_0
abbrev rWeight : Rect S128x128 := Rect.unit (s := S128x128) ![0, 0] S128x128.size inb_S128x128_S128x128_0_0
abbrev rOut : Rect S5000x128 := Rect.unit (s := S5000x128) ![0, 0] S5000x128.size inb_S5000x128_S5000x128_0_0

/-- The offsets of all four rectangles are zero on both axes. -/
theorem offs_zero : (![0, 0] : Fin 2 → Nat) = fun _ => 0 := funext fun a => by fin_cases a <;> rfl

/-! ## What the body leaves in the output window's buffer -/

/-- The result buffer after the body, from the five input blocks: the one store's payload laid over the buffer.
    The per-node scale (window 2) is read twice, once for the first layer and once for the pre-scale of the
    second; both reads see the same block. -/
def out0_5 (x0 : Vec F S5000x1 .f32) (x1 : Vec F S1x128 .f32) (x2 : Vec F S5000x1 .f32) (x3 : Vec F S1x128 .f32) (x4 : Vec F S128x128 .f32) : Vec F S5000x128 .bf16 :=
  View.canon [⟨rOut, k0_pay1 (View.ld x0 rNode) (View.ld x1 rFeat) (View.ld x2 rNode) (View.ld x3 rFeat) (View.ld x4 rWeight) (View.ld x2 rNode)⟩]

/-- Whole-buffer rectangles read the contents and the one covering store leaves its payload: the closed form. -/
theorem out0_5_eq (x0 : Vec F S5000x1 .f32) (x1 : Vec F S1x128 .f32) (x2 : Vec F S5000x1 .f32) (x3 : Vec F S1x128 .f32) (x4 : Vec F S128x128 .f32) :
    out0_5 x0 x1 x2 x3 x4 = k0_pay1 x0 x1 x2 x3 x4 x2 := by
  unfold out0_5
  rw [View.canon_unit_zero offs_zero]
  simp only [View.ld_unit_zero (S := S5000x1) offs_zero, View.ld_unit_zero (S := S1x128) offs_zero, View.ld_unit_zero (S := S128x128) offs_zero]

/-- The store's rectangle is the whole buffer, so it covers every index. -/
theorem cover0_5 (p0 : Vec F S5000x128 .bf16) (y : S5000x128.Idx) :
    ∃ pc ∈ ([⟨rOut, p0⟩] : List (View.Piece (Elt F) S5000x128 .bf16)), y ∈ pc.1.set :=
  ⟨_, List.mem_singleton_self _, View.mem_set_unit_zero offs_zero inb_S5000x128_S5000x128_0_0 y⟩

/-! ## The body's triple -/

set_option maxHeartbeats 1000000 in
/-- The body on whole buffers, the five inputs' at read contents `xW` and the output's at anything, runs to the
    continuation holding the inputs' as they were and the output's at `out0_5` of the inputs'. -/
theorem sound_kernel0 (c : Dev nD) (E : Set ℕ) (i : grid0.Coords)
    (arg1 : Memref sig .tc .vmem S5000x1 .f32) (harg1 : arg1.IsWhole) (arg2 : Memref sig .tc .vmem S1x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x1 .f32) (x1 : Vec F S1x128 .f32) (x2 : Vec F S5000x1 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the call finds them; after the body at point `t`
    each input's buffer at its block and the output's at `out0_5` of the input blocks; the invariant is the
    untouched rest (the other call's buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«409842_j28716151341663_3_alg».proof.Proof.Gen.KernelIdeal.Launch
import proofs.«409842_j28716151341663_3_alg».proof.Proof.Gen.KernelIdeal.Skeleton
import proofs.«409842_j28716151341663_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The whole-buffer rectangle -/

/-- The zero offsets of a rank-2 buffer, as the printed rectangles spell them. -/
theorem hz2 : (![0, 0] : Fin 2 → Nat) = fun _ => 0 := funext fun a => by fin_cases a <;> rfl

/-! ## The body's two conditions -/

/-- The condition of the body's first conditional (the zeroing store), from the grid coordinate. -/
abbrev cond1_0 (i : grid1.Coords) : Prop := (Scalar.cmpi .ne (Scalar.extui (Scalar.cmpi .eq (BitVec.ofNat 32 (i 0).val) 0#32)) 0#32) = 1#1
/-- The condition of the second (the classifier and the result's store). -/
abbrev cond1_1 (i : grid1.Coords) : Prop := k1_cond2 i = 1#1

/-- The first holds at the grid's first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second at its last point only. -/
theorem hcond1_1 : ∀ t : Fin cfg1.N, cond1_1 (grid1.coords t) ↔ t.val = 19 :=
  (by decide +kernel : ∀ t : Fin grid1.N, cond1_1 (grid1.coords t) ↔ t.val = 19)

/-! ## Where the result window is idle -/

/-- Where the second condition fails the printed configuration calls the result window idle: nothing is stored into it. -/
theorem idleAt1_9 : ∀ t : Fin cfg1.N, ¬cond1_1 (grid1.coords t) → cfg1.idle 9 (grid1.coords t) = true := by decide +kernel
/-- There the pipeline does not write its block back. -/
theorem noFlush1_9 : ∀ t : Fin cfg1.N, ¬cond1_1 (grid1.coords t) → (cfg1.win 9).flush t = false := by decide +kernel
/-- Where the condition holds the window is live. -/
theorem liveAt1_9 : ∀ t : Fin cfg1.N, cond1_1 (grid1.coords t) → cfg1.idle 9 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body's three stores leave -/

/-- What the first point's zeroing store leaves in the scratch: its payload, the store covering the buffer. -/
def accInit : Vec F S256x128 .f32 := k1_pay1

/-- The scratch after the accumulating store, over what it held before: the block's partial product added. -/
def accStep (prev : Vec F S256x128 .f32) (x0 : Vec F S5000x128 .f32) (x1 : Vec F S5000x1 .f32) (x2 : Vec F S1x128 .f32) (x3 : Vec F S5000x1 .i32) : Vec F S256x128 .f32 :=
  k1_pay2 x0 x1 x2 x3 prev

/-- The result window's buffer after the last point's store: the classifier over the pooled sums. -/
def outFin (acc : Vec F S256x128 .f32) (x4 : Vec F S256x1 .f32) (x5 : Vec F S128x32 .f32) (x6 : Vec F S1x32 .f32) (x7 : Vec F S32x2 .f32) (x8 : Vec F S1x2 .f32) : Vec F S256x2 .f32 :=
  k1_pay3 acc x4 x5 x6 x7 x8

theorem accInit_eq : (accInit : Vec F S256x128 .f32) = k1_pay1 := rfl
theorem accStep_eq (prev : Vec F S256x128 .f32) (x0 : Vec F S5000x128 .f32) (x1 : Vec F S5000x1 .f32) (x2 : Vec F S1x128 .f32) (x3 : Vec F S5000x1 .i32) :
    accStep prev x0 x1 x2 x3 = k1_pay2 x0 x1 x2 x3 prev := rfl
theorem outFin_eq (acc : Vec F S256x128 .f32) (x4 : Vec F S256x1 .f32) (x5 : Vec F S128x32 .f32) (x6 : Vec F S1x32 .f32) (x7 : Vec F S32x2 .f32) (x8 : Vec F S1x2 .f32) :
    outFin acc x4 x5 x6 x7 x8 = k1_pay3 acc x4 x5 x6 x7 x8 := rfl

/-! ## The scratch point by point -/

/-- THE ACCUMULATION. The scratch after the body at point `n`: at the first point the zeroed buffer plus that
    block's product, afterwards what the point before left plus this block's. -/
def accAt1 (c : Dev nD) : (n : ℕ) → n < cfg1.N → Vec F S256x128 .f32
  | 0, h => accStep accInit (iblk1 V c 0 ⟨0, h⟩) (iblk1 V c 1 ⟨0, h⟩) (iblk1 V c 2 ⟨0, h⟩) (iblk1 V c 3 ⟨0, h⟩)
  | n + 1, h => accStep (accAt1 c n (Nat.lt_of_succ_lt h)) (iblk1 V c 0 ⟨n + 1, h⟩) (iblk1 V c 1 ⟨n + 1, h⟩) (iblk1 V c 2 ⟨n + 1, h⟩) (iblk1 V c 3 ⟨n + 1, h⟩)

theorem accAt1_zero (c : Dev nD) (h : 0 < cfg1.N) :
    accAt1 V c 0 h = accStep accInit (iblk1 V c 0 ⟨0, h⟩) (iblk1 V c 1 ⟨0, h⟩) (iblk1 V c 2 ⟨0, h⟩) (iblk1 V c 3 ⟨0, h⟩) := rfl
theorem accAt1_succ (c : Dev nD) (n : ℕ) (h : n + 1 < cfg1.N) :
    accAt1 V c (n + 1) h = accStep (accAt1 V c n (Nat.lt_of_succ_lt h)) (iblk1 V c 0 ⟨n + 1, h⟩) (iblk1 V c 1 ⟨n + 1, h⟩) (iblk1 V c 2 ⟨n + 1, h⟩) (iblk1 V c 3 ⟨n + 1, h⟩) := rfl

/-! ## The invariant -/

/-- The scratch operand: a whole scoped buffer of the kernel's own, passed beside the windows. -/
abbrev scM1 : Memref sig .tc .vmem S256x128 .f32 := Memref.whole cc1_scratch0

/-- The core's scoped buffers that this region stages nothing in, with the scratch described by `P`: the other
    region's staging buffers at some contents each, then the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region invariant before position `n`: before the first point the class's (every scoped buffer at anything);
    afterwards the scoped rest with the scratch at what the point before left, and the generator register at some state. -/
def PhiS1 (c : Dev nD) : (n : ℕ) → n ≤ cfg1.N → sProp 𝕄
  | 0, _ => Pipeline.ΦA spec1 c
  | n + 1, hn => iprop(scoped1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(scoped1 c (owns (c : Thread nD τ) scM1 fullShare (accAt1 V c n hn)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(scoped1 c (owns (c : Thread nD τ) scM1 fullShare (accAt1 V c (n - 1) (by omega))) ∗ (∃ r, prngReg c r)) := by
  cases n with
  | zero => exact absurd rfl hz
  | succ n => rfl

/-- The class's invariant with the scratch as a memref owned at some contents. -/
theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

/-! ## The proof data -/

/-- The proof data of the region on core `c`: the arrays as the region finds them; after the body each input's buffer
    at its block, the result's at the classifier over the scratch of that point (read at the last point only); the
    scratch-carrying invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outFin (accAt1 V c t.val t.isLt) (iblk1 V c 4 t) (iblk1 V c 5 t) (iblk1 V c 6 t) (iblk1 V c 7 t) (iblk1 V c 8 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) :
    (dat1 V c).after 9 t = outFin (accAt1 V c t.val t.isLt) (iblk1 V c 4 t) (iblk1 V c 5 t) (iblk1 V c 6 t) (iblk1 V c 7 t) (iblk1 V c 8 t) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves in the inputs' buffers: their blocks. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at every point, fetched there or not: unfetched, the block index
    has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl

/-! ## The body's run, case by case

The printed body is its skeleton of memory operations over the payloads; on whole memrefs, each at stated contents,
it runs to the continuation holding every buffer it touched at what the case leaves there. The two conditionals are
decided by the case's hypotheses. A load through the whole-buffer rectangle reads the buffer's contents; one store
through it leaves its payload whatever was there; a load after such a store reads the payload stored. -/

set_option maxHeartbeats 1000000 in
/-- The body at the first point: the first conditional taken, the second not; the scratch, at anything, is zeroed, then
    read back and stored with this block's product added. -/
theorem runA (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : cond1_0 i) (hc1 : ¬cond1_1 i)
    (x0 : Vec F S5000x128 .f32) (x1 : Vec F S5000x1 .f32) (x2 : Vec F S1x128 .f32) (x3 : Vec F S5000x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg11 fullShare (accStep accInit x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  sl_unfold_words
  rw [View.read_writes_eq_canon _ _ _ (fun y => ⟨_, List.mem_cons_self, View.mem_set_unit_zero hz2 inb_S256x128_S256x128_0_0 y⟩),
    View.canon_cons_unit_zero (S := S256x128) hz2]
  simp only [View.readAt_eq_ld, harg1.read_unread, harg2.read_unread, harg3.read_unread, harg4.read_unread,
    View.ld_unit_zero (S := S5000x128) hz2, View.ld_unit_zero (S := S5000x1) hz2, View.ld_unit_zero (S := S1x128) hz2,
    View.readCov_unit_zero (S := S256x128) _ hz2]
  rfl

set_option maxHeartbeats 1000000 in
/-- The body at a point that is neither the first nor the last: neither conditional taken; the four blocks are
    loaded, the scratch is loaded at what the point before left and stored back with this block's product added. -/
theorem runB (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : ¬cond1_0 i) (hc1 : ¬cond1_1 i)
    (x0 : Vec F S5000x128 .f32) (x1 : Vec F S5000x1 .f32) (x2 : Vec F S1x128 .f32) (x3 : Vec F S5000x1 .i32) (xs : Vec F S256x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg11 fullShare (accStep xs x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2; obtain rfl := harg4.eq_unread hf3
  obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS
  ipureintro
  rw [View.read_writes_eq_canon _ _ _ (fun y => ⟨_, List.mem_singleton_self _, View.mem_set_unit_zero hz2 inb_S256x128_S256x128_0_0 y⟩),
    View.canon_unit_zero (S := S256x128) hz2]
  simp only [View.readAt_eq_ld, harg1.read_unread, harg2.read_unread, harg3.read_unread, harg4.read_unread, harg11.read_unread,
    View.ld_unit_zero (S := S5000x128) hz2, View.ld_unit_zero (S := S5000x1) hz2, View.ld_unit_zero (S := S1x128) hz2,
    View.ld_unit_zero (S := S256x128) hz2]
  rfl

set_option maxHeartbeats 1000000 in
/-- The body at the last point: the first conditional not taken, the second taken; after the accumulating store the
    scratch is read back, the five small operands are loaded, and the classifier's value is stored over the result's
    buffer, which held anything. -/
theorem runC (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S256x1 .f32) (harg5 : arg5.IsWhole) (arg6 : Memref sig .tc .vmem S128x32 .f32) (harg6 : arg6.IsWhole) (arg7 : Memref sig .tc .vmem S1x32 .f32) (harg7 : arg7.IsWhole) (arg8 : Memref sig .tc .vmem S32x2 .f32) (harg8 : arg8.IsWhole) (arg9 : Memref sig .tc .vmem S1x2 .f32) (harg9 : arg9.IsWhole) (arg10 : Memref sig .tc .vmem S256x2 .f32) (harg10 : arg10.IsWhole) (arg11 : Memref sig .tc .vmem S256x128 .f32) (harg11 : arg11.IsWhole) (hc0 : ¬cond1_0 i) (hc1 : cond1_1 i)
    (x0 : Vec F S5000x128 .f32) (x1 : Vec F S5000x1 .f32) (x2 : Vec F S1x128 .f32) (x3 : Vec F S5000x1 .i32) (xs : Vec F S256x128 .f32)
    (x4 : Vec F S256x1 .f32) (x5 : Vec F S128x32 .f32) (x6 : Vec F S1x32 .f32) (x7 : Vec F S32x2 .f32) (x8 : Vec F S1x2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outFin (accStep xs x0 x1 x2 x3) x4 x5 x6 x7 x8)
            ∗ owns (c : Thread nD τ) arg11 fullShare (accStep xs x0 x1 x2 x3)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7; obtain rfl := harg9.eq_unread hf8
  obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    sl_unfold_words
    rw [View.read_writes_eq_canon _ _ _ (fun y => ⟨_, List.mem_singleton_self _, View.mem_set_unit_zero hz2 inb_S256x2_S256x2_0_0 y⟩),
      View.canon_unit_zero (S := S256x2) hz2]
    simp only [View.readAt_eq_ld, harg1.read_unread, harg2.read_unread, harg3.read_unread, harg4.read_unread, harg5.read_unread,
      harg6.read_unread, harg7.read_unread, harg8.read_unread, harg9.read_unread, harg11.read_unread,
      View.ld_unit_zero (S := S5000x128) hz2, View.ld_unit_zero (S := S5000x1) hz2, View.ld_unit_zero (S := S1x128) hz2,
      View.ld_unit_zero (S := S256x128) hz2, View.ld_unit_zero (S := S256x1) hz2, View.ld_unit_zero (S := S128x32) hz2,
      View.ld_unit_zero (S := S1x32) hz2, View.ld_unit_zero (S := S32x2) hz2, View.ld_unit_zero (S := S1x2) hz2,
      View.readCov_unit_zero (S := S256x128) _ hz2]
    rfl
  iexists _; isplitr
  swap; · iexact HS
  ipureintro
  sl_unfold_words
  rw [View.read_writes_eq_canon _ _ _ (fun y => ⟨_, List.mem_singleton_self _, View.mem_set_unit_zero hz2 inb_S256x128_S256x128_0_0 y⟩),
    View.canon_unit_zero (S := S256x128) hz2]
  simp only [View.readAt_eq_ld, harg1.read_unread, harg2.read_unread, harg3.read_unread, harg4.read_unread, harg5.read_unread,
      harg6.read_unread, harg7.read_unread, harg8.read_unread, harg9.read_unread, harg11.read_unread,
      View.ld_unit_zero (S := S5000x128) hz2, View.ld_unit_zero (S := S5000x1) hz2, View.ld_unit_zero (S := S1x128) hz2,
      View.ld_unit_zero (S := S256x128) hz2, View.ld_unit_zero (S := S256x1) hz2, View.ld_unit_zero (S := S128x32) hz2,
      View.ld_unit_zero (S := S1x32) hz2, View.ld_unit_zero (S := S32x2) hz2, View.ld_unit_zero (S := S1x2) hz2,
      View.readCov_unit_zero (S := S256x128) _ hz2]
  rfl

/-! ## The body obligation, at a generic point -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x2 .f32 := win1_9.stage (cfg1.slots t 9)
abbrev hs1_9 (t : Fin cfg1.N) : (ms1_9 t).IsWhole := hstage1_9 ((cfg1.slots t 9).cast nbuf1_9)

/-- The scratch after the body at the first point. -/
theorem accAt1_first (c : Dev nD) (t : Fin cfg1.N) (h0 : t.val = 0) :
    accAt1 V c t.val t.isLt = accStep accInit (iblk1 V c 0 t) (iblk1 V c 1 t) (iblk1 V c 2 t) (iblk1 V c 3 t) := by
  obtain ⟨n, hn⟩ := t
  cases n with
  | zero => rfl
  | succ n => exact absurd h0 (Nat.succ_ne_zero n)

/-- The scratch after the body at a later point, over what the point before left. -/
theorem accAt1_later (c : Dev nD) (t : Fin cfg1.N) (h0 : ¬t.val = 0) :
    accAt1 V c t.val t.isLt = accStep (accAt1 V c (t.val - 1) (Nat.lt_of_le_of_lt (Nat.sub_le _ _) t.isLt)) (iblk1 V c 0 t) (iblk1 V c 1 t) (iblk1 V c 2 t) (iblk1 V c 3 t) := by
  obtain ⟨n, hn⟩ := t
  cases n with
  | zero => exact absurd rfl h0
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point. The inputs' memrefs hold their blocks; the closed forms of the two conditions say which of the
    three cases the point is in, and that case's run applies; the invariant hands the body the scratch at what the point
    before left (at anything at the first point) and takes it back at this point's contents; the result window is handed
    back untouched where the body stores nothing into it, and at the last point holds the classifier's value; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : ¬t.val = 19 := by omega
    rw [Dat.leavesExact_idle (dat1 V c) 9 t (idleAt1_9 t (fun h => h1 ((hcond1_1 t).mp h))) (noFlush1_9 t (fun h => h1 ((hcond1_1 t).mp h)))]
    rw [accAt1_first V c t h0]
    rw [PhiS1_castSucc V c t, PhiS1_zero V c _ _ h0, PhiA1_eq]
    unfold scoped1
    iintro ⟨⟨⟨G0, G1, G2, G3, G4, G5, G6, G7, G8, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid1.coords t) _ _ _ _ _ _ _ _ _ _ _ _ _ _ _ _ _ _ _ _ _ _ ((hcond1_0 t).mpr h0) (fun h => h1 ((hcond1_1 t).mp h))
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [G0 G1 G2 G3 G4 G5 G6 G7 G8 HS Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 19
    · rw [show (dat1 V c).leavesExact 9 t = owns (c : Thread nD τ) (ms1_9 t) fullShare ((dat1 V c).after 9 t) from by
        unfold Dat.leavesExact; rw [liveAt1_9 t ((hcond1_1 t).mpr h1)], after1_9]
      rw [accAt1_later V c t h0]
      rw [PhiS1_castSucc V c t, PhiS1_pos V c _ _ h0]
      unfold scoped1
      iintro ⟨⟨⟨G0, G1, G2, G3, G4, G5, G6, G7, G8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c (grid1.coords t) _ _ _ _ _ _ _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (accAt1 V c (t.val - 1) (Nat.lt_of_le_of_lt (Nat.sub_le _ _) t.isLt))
        (iblk1 V c 4 t) (iblk1 V c 5 t) (iblk1 V c 6 t) (iblk1 V c 7 t) (iblk1 V c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [G0 G1 G2 G3 G4 G5 G6 G7 G8 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat1 V c) 9 t (idleAt1_9 t (fun h => h1 ((hcond1_1 t).mp h))) (noFlush1_9 t (fun h => h1 ((hcond1_1 t).mp h)))]
      rw [accAt1_later V c t h0]
      rw [PhiS1_castSucc V c t, PhiS1_pos V c _ _ h0]
      unfold scoped1
      iintro ⟨⟨⟨G0, G1, G2, G3, G4, G5, G6, G7, G8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid1.coords t) _ _ _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 G7 G8 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨G0, G1, G2, G3, G4, G5, G6, G7, G8, HS⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.Run.lean ====
import proofs.«409842_j28716151341663_3_alg».proof.Proof.KI.R0
import proofs.«409842_j28716151341663_3_alg».proof.Proof.KI.R1
import proofs.«409842_j28716151341663_3_alg».proof.Proof.Gen.KernelIdeal.Regions
import proofs.«409842_j28716151341663_3_alg».proof.Proof.Gen.KernelIdeal.Launch
import proofs.«409842_j28716151341663_3_alg».proof.Proof.Gen.KernelIdeal.Skeleton
import proofs.«409842_j28716151341663_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main, from the launch to the return

@main is three stretches of host operations, the first kernel region (twenty grid points, six windows), one more
stretch of host operations, and the second kernel region (twenty grid points, ten windows, an accumulator carried
from point to point). This module follows the TensorCore's unscoped buffers through those six items: what each
buffer holds at every boundary is a fold from the launch memory, a host stretch acting by its operations' results
and a region by what its write-backs leave in its windows' arrays. Every argument array is read back through the
fold to its launch contents, and the result array `main_v53` is read at what the second region's write-backs leave.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- Core `c`'s buffers at the launch. -/
abbrev W0 (c : Dev nD) : Valuation τ sig (Elt F) := fun b => m (c, b)
/-- After the first host stretch. -/
abbrev W1 (c : Dev nD) : Valuation τ sig (Elt F) := StableHlo.after hostOps0 (W0 m c)
/-- After the second host stretch (the body of the module-local selection function). -/
abbrev W2 (c : Dev nD) : Valuation τ sig (Elt F) := StableHlo.after hostOps0_1 (W1 m c)
/-- After the third host stretch: what the first region is entered from. -/
abbrev W3 (c : Dev nD) : Valuation τ sig (Elt F) := StableHlo.after hostOps0_2 (W2 m c)
/-- The same, read at the TensorCore's references: the parameter of the first region's proof data. -/
abbrev V3 : (c : Dev nD) → (b : Ref sig .tc) → Buf (Elt F) ((c : Thread nD τ).loc b) := fun c b => W3 m c b
/-- At the first region's exit: each of its six arrays at what the write-backs of all twenty points leave in it (an
    input array as entered), every other buffer as entered. -/
def W4 (c : Dev nD) : Valuation τ sig (Elt F) :=
  Pipeline.withArrays spec0 c (W3 m c) fun w => (dat0 (V3 m) c).arrAt w cfg0.N
/-- After the fourth host stretch: what the second region is entered from. -/
abbrev W5 (c : Dev nD) : Valuation τ sig (Elt F) := StableHlo.after hostOps1 (W4 m c)
/-- The same, read at the TensorCore's references: the parameter of the second region's proof data. -/
abbrev V5 : (c : Dev nD) → (b : Ref sig .tc) → Buf (Elt F) ((c : Thread nD τ).loc b) := fun c b => W5 m c b
/-- At the second region's exit, likewise over its ten arrays: what the program returns from. -/
def W6 (c : Dev nD) : Valuation τ sig (Elt F) :=
  Pipeline.withArrays spec1 c (W5 m c) fun w => (dat1 (V5 m) c).arrAt w cfg1.N

/-! ## Reading the fold -/

/-- A region's array holds, at the region's exit, what the write-backs leave. -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
/-- A buffer that is none of the first region's arrays passes the region unchanged. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is never written back: it leaves the first region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))

/-- The first region's output array `main_v30` (window 5) at the region's exit. -/
theorem W4_main_v30 (c : Dev nD) : W4 m c (Proc.devRef .tc main_v30) = (dat0 (V3 m) c).arrAt 5 cfg0.N :=
  W4_arr m c 5
/-- The second region's output array `main_v53` (window 9) at the region's exit: the program's result. -/
theorem W6_main_v53 (c : Dev nD) : W6 m c (Proc.devRef .tc main_v53) = (dat1 (V5 m) c).arrAt 9 cfg1.N :=
  W6_arr m c 9

/-- A buffer no operation of a host stretch writes keeps its contents through the stretch. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h

/-! ### The arguments end as launched

No host operation writes an argument, and a region meets one only as an input window's array (the first region
`main_arg3` and `main_arg5`, the second `main_arg7` and `main_arg9`) or not at all: the fold at an argument's
buffer walks back to the launch memory. -/

theorem W6_main_arg0 (c : Dev nD) : W6 m c (Proc.devRef .tc main_arg0) = m ((c : Thread nD τ).loc main_arg0) :=
  (W6_of_ne m c main_arg0 (by decide)).trans <| (W5_of m c main_arg0 (by decide)).trans <| (W4_of_ne m c main_arg0 (by decide)).trans <|
    (W3_of m c main_arg0 (by decide)).trans <| (W2_of m c main_arg0 (by decide)).trans <| (W1_of m c main_arg0 (by decide)).trans rfl
theorem W6_main_arg1 (c : Dev nD) : W6 m c (Proc.devRef .tc main_arg1) = m ((c : Thread nD τ).loc main_arg1) :=
  (W6_of_ne m c main_arg1 (by decide)).trans <| (W5_of m c main_arg1 (by decide)).trans <| (W4_of_ne m c main_arg1 (by decide)).trans <|
    (W3_of m c main_arg1 (by decide)).trans <| (W2_of m c main_arg1 (by decide)).trans <| (W1_of m c main_arg1 (by decide)).trans rfl
theorem W6_main_arg2 (c : Dev nD) : W6 m c (Proc.devRef .tc main_arg2) = m ((c : Thread nD τ).loc main_arg2) :=
  (W6_of_ne m c main_arg2 (by decide)).trans <| (W5_of m c main_arg2 (by decide)).trans <| (W4_of_ne m c main_arg2 (by decide)).trans <|
    (W3_of m c main_arg2 (by decide)).trans <| (W2_of m c main_arg2 (by decide)).trans <| (W1_of m c main_arg2 (by decide)).trans rfl
theorem W6_main_arg3 (c : Dev nD) : W6 m c (Proc.devRef .tc main_arg3) = m ((c : Thread nD τ).loc main_arg3) :=
  (W6_of_ne m c main_arg3 (by decide)).trans <| (W5_of m c main_arg3 (by decide)).trans <| (W4_in m c 1 rfl).trans <|
    (W3_of m c main_arg3 (by decide)).trans <| (W2_of m c main_arg3 (by decide)).trans <| (W1_of m c main_arg3 (by decide)).trans rfl
theorem W6_main_arg4 (c : Dev nD) : W6 m c (Proc.devRef .tc main_arg4) = m ((c : Thread nD τ).loc main_arg4) :=
  (W6_of_ne m c main_arg4 (by decide)).trans <| (W5_of m c main_arg4 (by decide)).trans <| (W4_of_ne m c main_arg4 (by decide)).trans <|
    (W3_of m c main_arg4 (by decide)).trans <| (W2_of m c main_arg4 (by decide)).trans <| (W1_of m c main_arg4 (by decide)).trans rfl
theorem W6_main_arg5 (c : Dev nD) : W6 m c (Proc.devRef .tc main_arg5) = m ((c : Thread nD τ).loc main_arg5) :=
  (W6_of_ne m c main_arg5 (by decide)).trans <| (W5_of m c main_arg5 (by decide)).trans <| (W4_in m c 4 rfl).trans <|
    (W3_of m c main_arg5 (by decide)).trans <| (W2_of m c main_arg5 (by decide)).trans <| (W1_of m c main_arg5 (by decide)).trans rfl
theorem W6_main_arg6 (c : Dev nD) : W6 m c (Proc.devRef .tc main_arg6) = m ((c : Thread nD τ).loc main_arg6) :=
  (W6_of_ne m c main_arg6 (by decide)).trans <| (W5_of m c main_arg6 (by decide)).trans <| (W4_of_ne m c main_arg6 (by decide)).trans <|
    (W3_of m c main_arg6 (by decide)).trans <| (W2_of m c main_arg6 (by decide)).trans <| (W1_of m c main_arg6 (by decide)).trans rfl
theorem W6_main_arg7 (c : Dev nD) : W6 m c (Proc.devRef .tc main_arg7) = m ((c : Thread nD τ).loc main_arg7) :=
  (W6_in m c 5 rfl).trans <| (W5_of m c main_arg7 (by decide)).trans <| (W4_of_ne m c main_arg7 (by decide)).trans <|
    (W3_of m c main_arg7 (by decide)).trans <| (W2_of m c main_arg7 (by decide)).trans <| (W1_of m c main_arg7 (by decide)).trans rfl
theorem W6_main_arg8 (c : Dev nD) : W6 m c (Proc.devRef .tc main_arg8) = m ((c : Thread nD τ).loc main_arg8) :=
  (W6_of_ne m c main_arg8 (by decide)).trans <| (W5_of m c main_arg8 (by decide)).trans <| (W4_of_ne m c main_arg8 (by decide)).trans <|
    (W3_of m c main_arg8 (by decide)).trans <| (W2_of m c main_arg8 (by decide)).trans <| (W1_of m c main_arg8 (by decide)).trans rfl
theorem W6_main_arg9 (c : Dev nD) : W6 m c (Proc.devRef .tc main_arg9) = m ((c : Thread nD τ).loc main_arg9) :=
  (W6_in m c 7 rfl).trans <| (W5_of m c main_arg9 (by decide)).trans <| (W4_of_ne m c main_arg9 (by decide)).trans <|
    (W3_of m c main_arg9 (by decide)).trans <| (W2_of m c main_arg9 (by decide)).trans <| (W1_of m c main_arg9 (by decide)).trans rfl
theorem W6_main_arg10 (c : Dev nD) : W6 m c (Proc.devRef .tc main_arg10) = m ((c : Thread nD τ).loc main_arg10) :=
  (W6_of_ne m c main_arg10 (by decide)).trans <| (W5_of m c main_arg10 (by decide)).trans <| (W4_of_ne m c main_arg10 (by decide)).trans <|
    (W3_of m c main_arg10 (by decide)).trans <| (W2_of m c main_arg10 (by decide)).trans <| (W1_of m c main_arg10 (by decide)).trans rfl

/-! ## The proof data of both pipelines and the thread state -/

/-- The two pipelines' proof data, each at the contents its region is entered from. A literal case split, so that
    the pinned configuration at a numeral reduces to the printed one. -/
def runPdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state, and its dues, at
    nothing. -/
abbrev runR (c : Dev nD) : sProp 𝕄 := iprop((∃ r, prngReg c r) ∗ ∃ Wd, owes (c : Thread nD τ) (0 : CellTallies nD τ sig Unit) Wd)
/-- A host stretch as an item of the run: over the unscoped references from the contents `W`, `runR` riding along;
    it ends with those references at `StableHlo.after ops (W c)`, the next boundary's contents by name. -/
abbrev runHost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev runTn (c : Dev nD) : sProp 𝕄 := iprop(StableHlo.held (c : Thread nD τ) (Pipeline.ucRefs τ sig) (W6 m c) ∗ ∃ r, prngReg c r)

/-- At a region's exit each of its arrays holds what the pipeline leaves, and every other buffer what it held at
    the entry: the two hypotheses under which the arrays and the bypassing rest make the unscoped buffers again. -/
theorem W4_hF (c : Dev nD) (w : Fin cfg0.W) : (dat0 (V3 m) c).arrAt w cfg0.N = W4 m c (Proc.devRef .tc (Pipeline.arrRef spec0 w)) :=
  (W4_arr m c w).symm
theorem W4_hrest (c : Dev nD) : ∀ b : Ref sig .tc, b ∉ Finset.univ.image (Pipeline.arrRef spec0) → W4 m c (Proc.devRef .tc b) = W3 m c (Proc.devRef .tc b) :=
  fun b hb => W4_of_ne m c b fun w e => hb (Finset.mem_image.mpr ⟨w, Finset.mem_univ _, e⟩)
theorem W6_hF (c : Dev nD) (w : Fin cfg1.W) : (dat1 (V5 m) c).arrAt w cfg1.N = W6 m c (Proc.devRef .tc (Pipeline.arrRef spec1 w)) :=
  (W6_arr m c w).symm
theorem W6_hrest (c : Dev nD) : ∀ b : Ref sig .tc, b ∉ Finset.univ.image (Pipeline.arrRef spec1) → W6 m c (Proc.devRef .tc b) = W5 m c (Proc.devRef .tc b) :=
  fun b hb => W6_of_ne m c b fun w e => hb (Finset.mem_image.mpr ⟨w, Finset.mem_univ _, e⟩)

/-! ## The regions as items of the run -/

set_option backward.isDefEq.respectTransparency.types false in
/-- THE FIRST REGION over the thread state: entered from every unscoped buffer at `W3`, left at `W4`. Its six arrays
    are split out of the unscoped buffers at the entry and put back at the exit contents; the generator register goes
    into the region's invariant (the scratch buffers no window stages, and the register) and comes out; nothing is
    owed; the kernel has no semaphore of its own. -/
def runReg0 : Pipeline.RegionSeg (pcfgs (F := F)) adm (runPdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ runL runLv 0 fun _ _ => rfl
  pre c := iprop(StableHlo.held (c : Thread nD τ) (Pipeline.ucRefs τ sig) (W3 m c) ∗ runR c)
  post c := iprop(StableHlo.held (c : Thread nD τ) (Pipeline.ucRefs τ sig) (W4 m c) ∗ runR c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (runPdats m) launch0.win launch0.arr_whole c
      ((runPdats m 0 c).share_full fun _ => rfl) (V3 m c) (A_eq0 (V3 m) c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wd, Howes⟩; iexists Wd; isplitr; · ipureintro; exact fun _ _ => Or.inl trivial
      iexact Howes
    isplitl [Hprng]; · iexact Hprng
    iexact Hrest
  hin c := by
    rw [show (runPdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (runPdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (runPdats m) ((runPdats m 0 c).share_full fun _ => rfl)
      (V3 m c) (fun b => W4 m c b) ((runPdats m 0 c).arrAt · cfg0.N) (W4_hF m c) (W4_hrest m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%Wd, -, Howes⟩; iexists Wd; iexact Howes

set_option backward.isDefEq.respectTransparency.types false in
/-- THE SECOND REGION over the thread state: entered from every unscoped buffer at `W5`, left at `W6`, which the return
    reads. As the first, but for its invariant: at the first point it is made from the scratch buffers and the
    generator register (`hin1`), and at the last point it gives them back (`hout1`), the accumulator among the
    scratch buffers. -/
def runReg1 : Pipeline.RegionSeg (pcfgs (F := F)) adm (runPdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ runL runLv 1 fun _ _ => rfl
  pre c := iprop(StableHlo.held (c : Thread nD τ) (Pipeline.ucRefs τ sig) (W5 m c) ∗ runR c)
  post c := iprop(runTn m c ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (runPdats m) launch1.win launch1.arr_whole c
      ((runPdats m 1 c).share_full fun _ => rfl) (V5 m c) (A_eq1 (V5 m) c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wd, Howes⟩; iexists Wd; isplitr; · ipureintro; exact fun _ _ => Or.inl trivial
      iexact Howes
    isplitl [Hprng]; · iexact Hprng
    iexact Hrest
  hin c := by
    refine BI.Entails.trans ?_ (show Pipeline.ΦA spec1 c ⊢ (runPdats m 1 c).Φ 0 from hin1 (V5 m) c)
    show (_ : sProp 𝕄) ⊢ _
    unfold Pipeline.ΦA
    iintro ⟨Hprng, -, Hsc⟩
    isplitl [Hsc]; · iexact Hsc
    iexact Hprng
  hout c := by
    rw [Pipeline.ownSems0_none]
    refine BI.Entails.trans (show (runPdats m 1 c).Φ (Fin.last _) ⊢ Pipeline.ΦA spec1 c from hout1 (V5 m) c) ?_
    show (_ : sProp 𝕄) ⊢ _
    unfold Pipeline.ΦA
    iintro ⟨Hsc, Hprng⟩
    isplitl [Hprng]; · iexact Hprng
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (runPdats m) ((runPdats m 1 c).share_full fun _ => rfl)
      (V5 m c) (fun b => W6 m c b) ((runPdats m 1 c).arrAt · cfg1.N) (W6_hF m c) (W6_hrest m c)
    rw [Pipeline.unscopedBufs_held] at hjoin
    iintro ⟨Harr, Howes, Hprng, Hrest⟩
    imodintro
    isplitl [Harr Hrest Hprng]
    · isplitl [Harr Hrest]
      · iapply hjoin; isplitl [Harr] <;> iassumption
      iexact Hprng
    unfold Pipeline.Dat.owesAt Pipeline.owesWithin
    icases Howes with ⟨%Wd, -, Howes⟩; iexists Wd; iexact Howes

/-! ## @main as the six items, and the launch -/

/-- @main's six items in order: a host item per stretch from its boundary's contents, a region per kernel call. -/
abbrev runSegs : List (Pipeline.Seg (pcfgs (F := F)) adm (runPdats m) () defs₀ run𝒱 runL runLv) :=
  [ .host (runHost hostOps0 hostOps0_sub hostOps0_fresh (W0 m)),
    .host (runHost hostOps0_1 hostOps0_1_sub hostOps0_1_fresh (W1 m)),
    .host (runHost hostOps0_2 hostOps0_2_sub hostOps0_2_fresh (W2 m)),
    .region (runReg0 m),
    .host (runHost hostOps1 hostOps1_sub hostOps1_fresh (W4 m)),
    .region (runReg1 m) ]

/-- @main is the run of the six items: @main is the chain of its items, and so is the items' run. -/
theorem run_main_eq (c : Dev nD) : main (F := F) c = Pipeline.Seg.run (runSegs m) := by
  rw [main_chain c, Pipeline.Seg.run_eq_chain]
  rfl

set_option backward.isDefEq.respectTransparency.types false in
/-- THE RUN. At the compiled mesh, from any memory with zero counters, every weakly fair execution of @main on the
    TensorCores terminates, nothing faulting, and in every final state each unscoped buffer of each core holds the
    last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (runPdats m) () cellOf_inj emb₁ defs₀ run𝒱 runL runLv m ρ main (runSegs m)
    (fun c Q => by rw [run_main_eq m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m)
    (hch := ⟨fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_main m ρ).mono fun r h c =>
    ⟨(h c _ (run_mem_uc main_arg0 (by decide))).trans (W6_main_arg0 m c),
      (h c _ (run_mem_uc main_arg1 (by decide))).trans (W6_main_arg1 m c),
      (h c _ (run_mem_uc main_arg2 (by decide))).trans (W6_main_arg2 m c),
      (h c _ (run_mem_uc main_arg3 (by decide))).trans (W6_main_arg3 m c),
      (h c _ (run_mem_uc main_arg4 (by decide))).trans (W6_main_arg4 m c),
      (h c _ (run_mem_uc main_arg5 (by decide))).trans (W6_main_arg5 m c),
      (h c _ (run_mem_uc main_arg6 (by decide))).trans (W6_main_arg6 m c),
      (h c _ (run_mem_uc main_arg7 (by decide))).trans (W6_main_arg7 m c),
      (h c _ (run_mem_uc main_arg8 (by decide))).trans (W6_main_arg8 m c),
      (h c _ (run_mem_uc main_arg9 (by decide))).trans (W6_main_arg9 m c),
      (h c _ (run_mem_uc main_arg10 (by decide))).trans (W6_main_arg10 m c)⟩

/-- THE RUN WITH ITS VALUE: the result array ends at what the second region's write-backs leave in it, and every
    argument array at its launch contents. -/
theorem run_value : θ_run defs (onTc (τ := τ) (main (F := F))) ⟨m, fun _ => 0, ρ⟩ (fun r => ∀ c : Dev nD,
      r.2.mem ((c.tc : Thread nD τ).loc main_v53) = (dat1 (V5 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (run_main m ρ).mono fun r h c =>
    ⟨(h c _ (run_mem_uc main_v53 (by decide))).trans (W6_main_v53 m c),
      (h c _ (run_mem_uc main_arg0 (by decide))).trans (W6_main_arg0 m c),
      (h c _ (run_mem_uc main_arg1 (by decide))).trans (W6_main_arg1 m c),
      (h c _ (run_mem_uc main_arg2 (by decide))).trans (W6_main_arg2 m c),
      (h c _ (run_mem_uc main_arg3 (by decide))).trans (W6_main_arg3 m c),
      (h c _ (run_mem_uc main_arg4 (by decide))).trans (W6_main_arg4 m c),
      (h c _ (run_mem_uc main_arg5 (by decide))).trans (W6_main_arg5 m c),
      (h c _ (run_mem_uc main_arg6 (by decide))).trans (W6_main_arg6 m c),
      (h c _ (run_mem_uc main_arg7 (by decide))).trans (W6_main_arg7 m c),
      (h c _ (run_mem_uc main_arg8 (by decide))).trans (W6_main_arg8 m c),
      (h c _ (run_mem_uc main_arg9 (by decide))).trans (W6_main_arg9 m c),
      (h c _ (run_mem_uc main_arg10 (by decide))).trans (W6_main_arg10 m c)⟩

end Cert.KernelIdeal.Hand

end
-- ==== Proof.Val.Spec.lean ====
/-
  The mathematics both programs compute, on extended reals indexed by plain coordinates.

  A graph of 100000 nodes carries one feature per node. Two rounds of normalised neighbourhood sums
  are followed by a mean over each of 256 graphs and a two-layer classifier. The functions below name
  the three stretches the kernel fuses: the layer-1 transform with the layer-2 product (`hs2`), the
  per-graph sum of the rectified layer-2 rows (`poolSum`) and the classifier on the pooled means (`head`).
-/
import Idealize.ShloMosaic.PureOps.Ideal
import Idealize.ShloMosaic.Lib.ValueIdx

noncomputable section

open scoped BigOperators

namespace Cert.Gcn

open Idealize.ShloMosaic

/-- Row `n`, column `j` of the rectified layer-1 transform of the aggregated feature `a`, multiplied into the
    layer-2 weights and scaled by the node's normaliser:
    `(∑ₖ max((a n · w1 k) · dv n + b1 k, 0) · w2 k j) · dv n`. -/
def hs2 (a : Fin 100000 → EReal) (w1 : Fin 128 → EReal) (dv : Fin 100000 → EReal) (b1 : Fin 128 → EReal)
    (w2 : Fin 128 → Fin 128 → EReal) (n : Fin 100000) (j : Fin 128) : EReal :=
  (∑ k : Fin 128, max ((a n * w1 k) * dv n + b1 k) 0 * w2 k j) * dv n

/-- The sum over the nodes of graph `g` of the rectified layer-2 value `max(a2 n j · dv n + b2 j, 0)`, the
    membership written as the 0/1 factor `[bt n = g]`. -/
def poolSum (a2 : Fin 100000 → Fin 128 → EReal) (dv : Fin 100000 → EReal) (b2 : Fin 128 → EReal)
    (bt : Fin 100000 → BitVec 32) (g : Fin 256) (j : Fin 128) : EReal :=
  ∑ n : Fin 100000, (if bt n = BitVec.ofNat 32 g.val then (1 : EReal) else 0) * max (a2 n j * dv n + b2 j) 0

/-- The classifier on the pooled sums `s` divided by the graph sizes `cnt`: a rectified affine layer of width 32,
    an affine layer of width 2, the logistic function. -/
def head (s : Fin 256 → Fin 128 → EReal) (cnt : Fin 256 → EReal) (wc1 : Fin 128 → Fin 32 → EReal)
    (bc1 : Fin 32 → EReal) (wc2 : Fin 32 → Fin 2 → EReal) (bc2 : Fin 2 → EReal) (g : Fin 256) (o : Fin 2) : EReal :=
  Ideal.logistic (∑ q : Fin 32, max (∑ k : Fin 128, Ideal.div (s g k) (cnt g) * wc1 k q + bc1 q) 0 * wc2 q o + bc2 o)

end Cert.Gcn

end
-- ==== Proof.Val.R0Val.lean ====
/-
  What the first fused stretch leaves in its result array, index by index, at the ideal values.

  The stretch works on blocks of 5000 rows. A block of the result is, at row `p` and column `q`,
  `(∑ₖ max((a p · w1 k) · dv p + b1 k, 0) · w2 k q) · dv p` of the blocks it loads; the twenty blocks
  tile the 100000 rows, so the whole array is that function of the whole input arrays.
-/
import proofs.«409842_j28716151341663_3_alg».proof.Proof.KI.R0
import proofs.«409842_j28716151341663_3_alg».proof.Proof.Val.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators
open Idealize.ShloMosaic Idealize.ShloMosaic.TcCoe Idealize.ShloMosaic.ValueIdx
namespace Cert.KernelIdeal.Val
open Cert.KernelIdeal Cert.KernelIdeal.Gen Cert.KernelIdeal.Hand

/-! ## The payload of the first fused stretch, read at an index

At the ideal values the format changes are the identity, the broadcasts read a column or a row, and the
matrix product into the zero splat is the plain sum over the contracted axis. -/

/-- A `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the product at output `i` and contraction index `q`: row `i 0` … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contracted coordinate. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contracted coordinate … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The `[5000,128] × [128,128]` product into the zero splat, at `(p, q)`: `∑ₖ l (p, k) · r (k, q)`. -/
theorem matmul_mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The stored block of the first fused stretch at row `p`, column `q`:
    `(∑ₖ max((v0 p · v2 k) · v6 p + v10 k, 0) · v17 k q) · v20 p`. -/
theorem k0_pay1_apply (v0 : Vec Ideal S5000x1 .f32) (v2 : Vec Ideal S1x128 .f32) (v6 : Vec Ideal S5000x1 .f32) (v10 : Vec Ideal S1x128 .f32) (v17 : Vec Ideal S128x128 .f32) (v20 : Vec Ideal S5000x1 .f32) (p : Fin 5000) (q : Fin 128) :
    k0_pay1 (F := Ideal) v0 v2 v6 v10 v17 v20 (ix2 p q) = (∑ k : Fin 128, max ((v0 (ix2 p 0) * v2 (ix2 0 k)) * v6 (ix2 p 0) + v10 (ix2 0 k)) 0 * v17 (ix2 k q)) * v20 (ix2 p 0) := by
  unfold k0_pay1
  simp only [truncf_apply, mulf_apply, matmul_mm_apply, maximumf_apply, addf_apply, broadcast_apply, shapeCast_self,
    broadcastTo_a1_ab_apply, broadcastTo_1b_ab_apply]
  -- the rectifier's zero word is the extended real `0`
  have hz : (FloatOps.ofBits FTy.f32 0x00000000#32 : Ideal .f32) = 0 := Ideal.ofBits_zero_f32
  rw [hz]

/-! ## From the blocks to the array -/

/-- The whole result array as a function of the five whole input arrays: `hs2` at the index's two coordinates,
    the one-column and one-row arrays read along their long axis. -/
abbrev Garr (a : S100000x1.Idx → EReal) (w1 : S1x128.Idx → EReal) (dv : S100000x1.Idx → EReal) (b1 : S1x128.Idx → EReal)
    (w2 : S128x128.Idx → EReal) : S100000x128.Idx → EReal := fun i =>
  Cert.Gcn.hs2 (fun n => a (ix2 n 0)) (fun k => w1 (ix2 0 k)) (fun n => dv (ix2 n 0)) (fun k => b1 (ix2 0 k))
    (fun k j => w2 (ix2 k j)) (i 0) (i 1)

/-- One element of a block: if the loaded blocks read the arrays at row `r` (the node blocks) and everywhere
    (the weight and bias blocks), the payload at `(p, q)` is `Garr` at `(r, q)`. -/
theorem block_apply (x0 : Vec Ideal S5000x1 .f32) (x1 : Vec Ideal S1x128 .f32) (x2 : Vec Ideal S5000x1 .f32)
    (x3 : Vec Ideal S1x128 .f32) (x4 : Vec Ideal S128x128 .f32)
    (a : S100000x1.Idx → EReal) (w1 : S1x128.Idx → EReal) (dv : S100000x1.Idx → EReal) (b1 : S1x128.Idx → EReal)
    (w2 : S128x128.Idx → EReal) (r : Fin 100000) (p : Fin 5000) (q : Fin 128)
    (h0 : x0 (ix2 p 0) = a (ix2 r 0)) (h1 : ∀ k : Fin 128, x1 (ix2 0 k) = w1 (ix2 0 k)) (h2 : x2 (ix2 p 0) = dv (ix2 r 0))
    (h3 : ∀ k : Fin 128, x3 (ix2 0 k) = b1 (ix2 0 k)) (h4 : ∀ k : Fin 128, x4 (ix2 k q) = w2 (ix2 k q)) :
    k0_pay1 (F := Ideal) x0 x1 x2 x3 x4 x2 (ix2 p q) = Garr a w1 dv b1 w2 (ix2 r q) := by
  rw [k0_pay1_apply, h0, h2]
  simp only [h1, h3, h4]
  rfl

/-- The block index maps over the grid: the three node windows and the result window sit at row block `t`,
    the weight and bias windows at block 0; every column block is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of `Garr` of the input arrays. -/
theorem flushed0_5_eq (c : Dev nD) (t : Fin cfg0.N) :
    (dat0 (F := Ideal) V c).flushed 5 t
      = ((cfg0.win 5).blk t).view.read (Elt Ideal) (Garr (V c main_v28) (V c main_arg3) (V c main_v17) (V c main_v29) (V c main_arg5)) := by
  show (cfg0.win 5).cut (grid0.coords t) ((dat0 (F := Ideal) V c).after 5 t) = _
  rw [after0_5, out0_5_eq]
  obtain ⟨e00, e01, e10, e11, e20, e21, e30, e31, e40, e41, e50, e51⟩ := idx_facts0 t
  funext y
  obtain ⟨p, q, rfl⟩ : ∃ (p : Fin 5000) (q : Fin 128), y = ix2 p q := ⟨y 0, y 1, eq_ix2 y⟩
  have ht : t.val < 20 := t.isLt
  have hp : p.val < 5000 := p.isLt
  have hr : t.val * 5000 + p.val < 100000 := by omega
  -- where the result block's element (p, q) sits in the array: row t·5000 + p, column q
  have e5 : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (iblk0 V c 2 t) (ix2 p q)
      = Garr (V c main_v28) (V c main_arg3) (V c main_v17) (V c main_v29) (V c main_arg5) (((cfg0.win 5).blk t).view.emb (ix2 p q))
  rw [e5]
  -- each loaded block reads its array where the result's rectangle says
  refine block_apply _ _ _ _ _ _ _ _ _ _ ⟨t.val * 5000 + p.val, hr⟩ p q ?_ ?_ ?_ ?_ ?_
  · show V c main_v28 (((cfg0.win 0).blk t).view.emb (ix2 p (0 : Fin 1))) = V c main_v28 (ix2 (⟨t.val * 5000 + p.val, hr⟩ : Fin 100000) (0 : Fin 1))
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 1 + 1 * 0 = 0; omega
  · intro k
    show V c main_arg3 (((cfg0.win 1).blk t).view.emb (ix2 (0 : Fin 1) k)) = V c main_arg3 (ix2 (0 : Fin 1) k)
    refine congrArg _ (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · show V c main_v17 (((cfg0.win 2).blk t).view.emb (ix2 p (0 : Fin 1))) = V c main_v17 (ix2 (⟨t.val * 5000 + p.val, hr⟩ : Fin 100000) (0 : Fin 1))
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · intro k
    show V c main_v29 (((cfg0.win 3).blk t).view.emb (ix2 (0 : Fin 1) k)) = V c main_v29 (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · intro k
    show V c main_arg5 (((cfg0.win 4).blk t).view.emb (ix2 k q)) = V c main_arg5 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega

/-- An index of the array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- The twenty blocks tile the array: row `r` is in the block of point `r / 5000`. -/
theorem cover0_5_arr (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 5000 < 20 := by omega
  obtain ⟨e00, e01, e10, e11, e20, e21, e30, e31, e40, e41, e50, e51⟩ := idx_facts0 ⟨(i 0).val / 5000, hq⟩
  refine ⟨⟨(i 0).val / 5000, hq⟩, flush0_5 _, ?_⟩
  rw [mem_blk0_5]
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hq⟩ (1 : Fin 2) * 128 ≤ (i 1).val ∧ (i 1).val < win0_5.index ⟨(i 0).val / 5000, hq⟩ (1 : Fin 2) * 128 + 128
    rw [e51]; omega

/-- The result array after the last point is `Garr` of the input arrays. -/
theorem final0_5 (c : Dev nD) :
    (dat0 (F := Ideal) V c).arrAt 5 cfg0.N = Garr (V c main_v28) (V c main_arg3) (V c main_v17) (V c main_v29) (V c main_arg5) :=
  (dat0 (F := Ideal) V c).arrAt_eq_of_cover 5 (Garr (V c main_v28) (V c main_arg3) (V c main_v17) (V c main_v29) (V c main_arg5))
    (fun t _ => flushed0_5_eq V c t) cover0_5_arr

/-- The result array of the first fused stretch after its last point: `hs2` of the five input arrays. -/
theorem arrAt0_5_apply (c : Dev nD) (n : Fin 100000) (j : Fin 128) :
    ((dat0 (F := Ideal) V c).arrAt 5 cfg0.N : S100000x128.Idx → EReal) (ix2 n j)
      = Cert.Gcn.hs2 (fun n => (V c main_v28 : S100000x1.Idx → EReal) (ix2 n 0)) (fun k => (V c main_arg3 : S1x128.Idx → EReal) (ix2 0 k))
          (fun n => (V c main_v17 : S100000x1.Idx → EReal) (ix2 n 0)) (fun k => (V c main_v29 : S1x128.Idx → EReal) (ix2 0 k))
          (fun k j => (V c main_arg5 : S128x128.Idx → EReal) (ix2 k j)) n j :=
  congrFun (final0_5 V c) (ix2 n j)

end Cert.KernelIdeal.Val

end
-- ==== Proof.Val.R1Val.lean ====
/-
  What the second fused call leaves in its result array, at the extended reals, index by index.

  The carried 256x128 scratch starts at zero and, block after block of 5000 node rows, gains the block's
  one-hot-transposed product: entry (g, j) gains the sum over the block's rows r whose graph word is g of the
  rectified layer-2 value of row r, column j. After the twentieth block it holds the per-graph sums over all
  100000 rows; the last point divides them by the graph sizes and applies the classifier.
-/
import proofs.«409842_j28716151341663_3_alg».proof.Proof.KI.R1
import proofs.«409842_j28716151341663_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Val

open Cert.KernelIdeal Cert.KernelIdeal.Gen Cert.KernelIdeal.Hand

/-! ## The accumulating product: the operand indices of the contraction over the rows -/

theorem lhsPool_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
theorem lhsPool_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem rhsPool_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
theorem rhsPool_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- The product contracted over the FIRST axis of both operands, into zeros: entry (g, j) is the sum over the rows r
    of the left operand at (r, g) times the right operand at (r, j). -/
theorem matmulPool_apply (A : FVec Ideal S5000x256 .bf16) (B : FVec Ideal S5000x128 .bf16) (g : Fin 256) (j : Fin 128) :
    matmul dot_S5000x256_S5000x128_S256x128_0_0_1_1_n_n none A B (constant (F := Ideal) S256x128 .f32 0x00000000#32) (ix2 g j)
      = ∑ r : Fin 5000, A (ix2 r g) * B (ix2 r j) := by
  simp only [matmul]
  rw [Ideal.matmul_constant_zero_apply, ← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g j) ((ValueIdx.contrEquiv1 dot_S5000x256_S5000x128_S256x128_0_0_1_1_n_n 5000 rfl rfl).symm k) = ix2 k g := funext fun a => Fin.ext (by
    match a with
    | ⟨0, _⟩ => exact (lhsPool_0 _ _).trans hk
    | ⟨1, _⟩ => exact lhsPool_1 _ _)
  have er : dot_S5000x256_S5000x128_S256x128_0_0_1_1_n_n.rhsIdx (ix2 g j) ((ValueIdx.contrEquiv1 dot_S5000x256_S5000x128_S256x128_0_0_1_1_n_n 5000 rfl rfl).symm k) = ix2 k j := funext fun a => Fin.ext (by
    match a with
    | ⟨0, _⟩ => exact (rhsPool_0 _ _).trans hk
    | ⟨1, _⟩ => exact rhsPool_1 _ _)
  rw [el, er]

/-- A comparison bit widened to a word and read signed, as a real: one where the words are equal, else zero. -/
theorem oneHot_word (a b : BitVec 32) :
    (((((IntOp.cmpi .eq a b).setWidth 32).toInt : ℤ) : ℝ) : EReal) = if a = b then (1 : EReal) else 0 := by
  by_cases h : a = b
  · subst h; rw [if_pos rfl]; simp [IntOp.cmpi]
  · have hb : (a == b) = false := by simpa using h
    rw [if_neg h]; simp [IntOp.cmpi, hb]

/-- A [5000,1] column broadcast along the lanes reads, at (r, g), the column's row r. -/
theorem bcastCol {α : Type} {b : ℕ} (v : (⟨2, ![5000, 1]⟩ : Shape).Idx → α) (h : (⟨2, ![5000, 1]⟩ : Shape).Broadcasts ⟨2, ![5000, b]⟩)
    (r : Fin 5000) (c : Fin b) : broadcastTo ⟨2, ![5000, b]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

theorem k1_pay2_apply (v3 : Vec Ideal S5000x128 .f32) (v5 : Vec Ideal S5000x1 .f32) (v9 : Vec Ideal S1x128 .f32)
    (v15 : Vec Ideal S5000x1 .i32) (v25 : Vec Ideal S256x128 .f32) (g : Fin 256) (j : Fin 128) :
    k1_pay2 (F := Ideal) v3 v5 v9 v15 v25 (ix2 g j)
      = v25 (ix2 g j) + ∑ r : Fin 5000, (if v15 (ix2 r 0) = BitVec.ofNat 32 g.val then (1 : EReal) else 0)
          * max (v3 (ix2 r j) * v5 (ix2 r 0) + v9 (ix2 0 j)) 0 := by
  unfold k1_pay2
  simp only [shapeCast_self]
  rw [addf_apply]
  refine congrArg (v25 (ix2 g j) + ·) ?_
  refine (matmulPool_apply _ _ g j).trans ?_
  refine Finset.sum_congr rfl fun r _ => ?_
  rw [truncf_apply, truncf_apply, maximumf_apply, addf_apply, mulf_apply, broadcast_apply]
  refine congrArg₂ (· * ·) ?_ (congrArg₂ max (congrArg₂ (· + ·) (congrArg (v3 (ix2 r j) * ·) (bcastCol v5 _ r j))
    (broadcastTo_1b_ab_apply v9 _ r j)) Ideal.ofBits_zero_f32)
  show (((((IntOp.cmpi .eq (broadcastTo S5000x256 v15 broadcasts_S5000x1_S5000x256 (ix2 r g))
    (iota Kind.tc S5000x256 32 [1] iota_S5000x256_d1_w32 (ix2 r g))).setWidth 32).toInt : ℤ) : ℝ) : EReal) = _
  rw [bcastCol v15 _ r g, iota_single_apply, oneHot_word]

/-! ## The classifier's two products: rows times columns -/

theorem lhsHid_0 (i : S256x32.Idx) (q : dot_S256x128_S128x32_S256x32_1_0_0_1_n_n.contr.Idx) :
    (dot_S256x128_S128x32_S256x32_1_0_0_1_n_n.lhsIdx i q 0).val = (i 0).val := by
  unfold DotDims.lhsIdx
  rw [dif_neg (show ¬(0 : Fin S256x128.rank) ∈ dot_S256x128_S128x32_S256x32_1_0_0_1_n_n.lhsBatch by decide), dif_pos (show (0 : Fin S256x128.rank) ∈ dot_S256x128_S128x32_S256x32_1_0_0_1_n_n.lhsNonContracting by decide)]
  rfl
theorem lhsHid_1 (i : S256x32.Idx) (q : dot_S256x128_S128x32_S256x32_1_0_0_1_n_n.contr.Idx) :
    (dot_S256x128_S128x32_S256x32_1_0_0_1_n_n.lhsIdx i q 1).val = (q ⟨0, by decide⟩).val :=
  dot_S256x128_S128x32_S256x32_1_0_0_1_n_n.lhsIdx_val_of_single rfl i q
theorem rhsHid_0 (i : S256x32.Idx) (q : dot_S256x128_S128x32_S256x32_1_0_0_1_n_n.contr.Idx) :
    (dot_S256x128_S128x32_S256x32_1_0_0_1_n_n.rhsIdx i q 0).val = (q ⟨0, by decide⟩).val :=
  dot_S256x128_S128x32_S256x32_1_0_0_1_n_n.rhsIdx_val_of_single rfl i q
theorem rhsHid_1 (i : S256x32.Idx) (q : dot_S256x128_S128x32_S256x32_1_0_0_1_n_n.contr.Idx) :
    (dot_S256x128_S128x32_S256x32_1_0_0_1_n_n.rhsIdx i q 1).val = (i 1).val := by
  unfold DotDims.rhsIdx
  rw [dif_neg (show ¬(1 : Fin S128x32.rank) ∈ dot_S256x128_S128x32_S256x32_1_0_0_1_n_n.rhsBatch by decide), dif_pos (show (1 : Fin S128x32.rank) ∈ dot_S256x128_S128x32_S256x32_1_0_0_1_n_n.rhsNonContracting by decide)]
  rfl

/-- The first classifier product into zeros: entry (g, q) is the sum over k of the left operand at (g, k) times the
    right operand at (k, q). -/
theorem matmulHid_apply (A : FVec Ideal S256x128 .bf16) (B : FVec Ideal S128x32 .bf16) (g : Fin 256) (q : Fin 32) :
    matmul dot_S256x128_S128x32_S256x32_1_0_0_1_n_n none A B (constant (F := Ideal) S256x32 .f32 0x00000000#32) (ix2 g q)
      = ∑ k : Fin 128, A (ix2 g k) * B (ix2 k q) := by
  simp only [matmul]
  rw [Ideal.matmul_constant_zero_apply, ← Equiv.sum_comp (ValueIdx.contrEquiv1 dot_S256x128_S128x32_S256x32_1_0_0_1_n_n 128 rfl rfl).symm]
  refine Finset.sum_congr rfl fun k _ => ?_
  have hk := ValueIdx.contrEquiv1_symm_val dot_S256x128_S128x32_S256x32_1_0_0_1_n_n 128 rfl rfl k
  have el : dot_S256x128_S128x32_S256x32_1_0_0_1_n_n.lhsIdx (ix2 g q) ((ValueIdx.contrEquiv1 dot_S256x128_S128x32_S256x32_1_0_0_1_n_n 128 rfl rfl).symm k) = ix2 g k := funext fun a => Fin.ext (by
    match a with
    | ⟨0, _⟩ => exact lhsHid_0 _ _
    | ⟨1, _⟩ => exact (lhsHid_1 _ _).trans hk)
  have er : dot_S256x128_S128x32_S256x32_1_0_0_1_n_n.rhsIdx (ix2 g q) ((ValueIdx.contrEquiv1 dot_S256x128_S128x32_S256x32_1_0_0_1_n_n 128 rfl rfl).symm k) = ix2 k q := funext fun a => Fin.ext (by
    match a with
    | ⟨0, _⟩ => exact (rhsHid_0 _ _).trans hk
    | ⟨1, _⟩ => exact rhsHid_1 _ _)
  rw [el, er]

theorem lhsOut_0 (i : S256x2.Idx) (q : dot_S256x32_S32x2_S256x2_1_0_0_1_n_n.contr.Idx) :
    (dot_S256x32_S32x2_S256x2_1_0_0_1_n_n.lhsIdx i q 0).val = (i 0).val := by
  unfold DotDims.lhsIdx
  rw [dif_neg (show ¬(0 : Fin S256x32.rank) ∈ dot_S256x32_S32x2_S256x2_1_0_0_1_n_n.lhsBatch by decide), dif_pos (show (0 : Fin S256x32.rank) ∈ dot_S256x32_S32x2_S256x2_1_0_0_1_n_n.lhsNonContracting by decide)]
  rfl
theorem lhsOut_1 (i : S256x2.Idx) (q : dot_S256x32_S32x2_S256x2_1_0_0_1_n_n.contr.Idx) :
    (dot_S256x32_S32x2_S256x2_1_0_0_1_n_n.lhsIdx i q 1).val = (q ⟨0, by decide⟩).val :=
  dot_S256x32_S32x2_S256x2_1_0_0_1_n_n.lhsIdx_val_of_single rfl i q
theorem rhsOut_0 (i : S256x2.Idx) (q : dot_S256x32_S32x2_S256x2_1_0_0_1_n_n.contr.Idx) :
    (dot_S256x32_S32x2_S256x2_1_0_0_1_n_n.rhsIdx i q 0).val = (q ⟨0, by decide⟩).val :=
  dot_S256x32_S32x2_S256x2_1_0_0_1_n_n.rhsIdx_val_of_single rfl i q
theorem rhsOut_1 (i : S256x2.Idx) (q : dot_S256x32_S32x2_S256x2_1_0_0_1_n_n.contr.Idx) :
    (dot_S256x32_S32x2_S256x2_1_0_0_1_n_n.rhsIdx i q 1).val = (i 1).val := by
  unfold DotDims.rhsIdx
  rw [dif_neg (show ¬(1 : Fin S32x2.rank) ∈ dot_S256x32_S32x2_S256x2_1_0_0_1_n_n.rhsBatch by decide), dif_pos (show (1 : Fin S32x2.rank) ∈ dot_S256x32_S32x2_S256x2_1_0_0_1_n_n.rhsNonContracting by decide)]
  rfl

/-- The second classifier product into zeros: entry (g, o) is the sum over q of the left operand at (g, q) times the
    right operand at (q, o). -/
theorem matmulOut_apply (A : FVec Ideal S256x32 .bf16) (B : FVec Ideal S32x2 .bf16) (g : Fin 256) (o : Fin 2) :
    matmul dot_S256x32_S32x2_S256x2_1_0_0_1_n_n none A B (constant (F := Ideal) S256x2 .f32 0x00000000#32) (ix2 g o)
      = ∑ q : Fin 32, A (ix2 g q) * B (ix2 q o) := by
  simp only [matmul]
  rw [Ideal.matmul_constant_zero_apply, ← Equiv.sum_comp (ValueIdx.contrEquiv1 dot_S256x32_S32x2_S256x2_1_0_0_1_n_n 32 rfl rfl).symm]
  refine Finset.sum_congr rfl fun k _ => ?_
  have hk := ValueIdx.contrEquiv1_symm_val dot_S256x32_S32x2_S256x2_1_0_0_1_n_n 32 rfl rfl k
  have el : dot_S256x32_S32x2_S256x2_1_0_0_1_n_n.lhsIdx (ix2 g o) ((ValueIdx.contrEquiv1 dot_S256x32_S32x2_S256x2_1_0_0_1_n_n 32 rfl rfl).symm k) = ix2 g k := funext fun a => Fin.ext (by
    match a with
    | ⟨0, _⟩ => exact lhsOut_0 _ _
    | ⟨1, _⟩ => exact (lhsOut_1 _ _).trans hk)
  have er : dot_S256x32_S32x2_S256x2_1_0_0_1_n_n.rhsIdx (ix2 g o) ((ValueIdx.contrEquiv1 dot_S256x32_S32x2_S256x2_1_0_0_1_n_n 32 rfl rfl).symm k) = ix2 k o := funext fun a => Fin.ext (by
    match a with
    | ⟨0, _⟩ => exact (rhsOut_0 _ _).trans hk
    | ⟨1, _⟩ => exact rhsOut_1 _ _)
  rw [el, er]

/-- The [256,1] column of graph sizes broadcast along the lanes reads, at (g, k), the column's row g. -/
theorem bcastCnt {α : Type} (v : (⟨2, ![256, 1]⟩ : Shape).Idx → α) (h : (⟨2, ![256, 1]⟩ : Shape).Broadcasts ⟨2, ![256, 128]⟩)
    (g : Fin 256) (k : Fin 128) : broadcastTo ⟨2, ![256, 128]⟩ v h (ix2 g k) = v (ix2 g (0 : Fin 1)) := by
  refine broadcastTo_apply v h (ix2 g k) (ix2 g (0 : Fin 1)) fun ax => ?_
  match ax with
  | ⟨0, _⟩ => rfl
  | ⟨1, _⟩ => rfl

theorem k1_pay3_apply (v33 : Vec Ideal S256x128 .f32) (v34 : Vec Ideal S256x1 .f32) (v39 : Vec Ideal S128x32 .f32)
    (v42 : Vec Ideal S1x32 .f32) (v49 : Vec Ideal S32x2 .f32) (v52 : Vec Ideal S1x2 .f32) (g : Fin 256) (o : Fin 2) :
    k1_pay3 (F := Ideal) v33 v34 v39 v42 v49 v52 (ix2 g o)
      = Cert.Gcn.head (fun g k => v33 (ix2 g k)) (fun g => v34 (ix2 g 0)) (fun k q => v39 (ix2 k q))
          (fun q => v42 (ix2 0 q)) (fun q o => v49 (ix2 q o)) (fun o => v52 (ix2 0 o)) g o := by
  unfold k1_pay3 Cert.Gcn.head
  simp only [shapeCast_self]
  show Ideal.logistic _ = _
  refine congrArg Ideal.logistic ?_
  rw [addf_apply]
  refine congrArg₂ (· + ·) ((matmulOut_apply _ _ g o).trans ?_) (broadcastTo_1b_ab_apply v52 _ g o)
  refine Finset.sum_congr rfl fun q _ => ?_
  rw [truncf_apply, truncf_apply, maximumf_apply, addf_apply, broadcast_apply]
  refine congrArg (· * v49 (ix2 q o)) (congrArg₂ max (congrArg₂ (· + ·) ((matmulHid_apply _ _ g q).trans ?_)
    (broadcastTo_1b_ab_apply v42 _ g q)) Ideal.ofBits_zero_f32)
  refine Finset.sum_congr rfl fun k _ => ?_
  rw [truncf_apply, truncf_apply, divf_apply, bcastCnt v34 _ g k]

/-! ## The windows' blocks read at an index

  Windows 0, 1 and 3 move down the node rows, 5000 at a point: block `t` holds rows `5000 t .. 5000 t + 4999`.
  The other input windows hold their whole arrays at every point. -/

section Blocks
variable (V : (c : Dev nD) → (b : Ref sig .tc) → Buf (Elt Ideal) ((c : Thread nD τ).loc b))

/-- Row `r` of block `t` of the node rows. -/
def rowAt (t : ℕ) (ht : t < 20) (r : Fin 5000) : Fin 100000 := ⟨5000 * t + r.val, by have := r.isLt; omega⟩

theorem lt20 (t : Fin cfg1.N) : t.val < 20 := by have := t.isLt; have : cfg1.N = 20 := N_1; omega

theorem iblk1_0_apply (c : Dev nD) (t : Fin cfg1.N) (r : Fin 5000) (j : Fin 128) :
    (iblk1 V c 0 t : S5000x128.Idx → EReal) (ix2 r j)
      = (V c main_v41 : S100000x128.Idx → EReal) (ix2 (rowAt t.val (lt20 t) r) j) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v41 _ = V c main_v41 _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * j.val = j.val; rw [hi.2]; omega

theorem iblk1_1_apply (c : Dev nD) (t : Fin cfg1.N) (r : Fin 5000) :
    (iblk1 V c 1 t : S5000x1.Idx → EReal) (ix2 r 0)
      = (V c main_v17 : S100000x1.Idx → EReal) (ix2 (rowAt t.val (lt20 t) r) 0) := by
  have hi : win1_1.index t 0 = t.val ∧ win1_1.index t 1 = 0 :=
    (by decide +kernel : ∀ t : Fin grid1.N, win1_1.index t 0 = t.val ∧ win1_1.index t 1 = 0) t
  unfold iblk1
  rw [View.read_apply]
  show V c main_v17 _ = V c main_v17 _
  congr 1
  funext a
  apply Fin.ext
  match a with
  | ⟨0, _⟩ => show win1_1.index t 0 * 5000 + 1 * r.val = 5000 * t.val + r.val; rw [hi.1]; omega
  | ⟨1, _⟩ => show win1_1.index t 1 * 1 + 1 * 0 = 0; rw [hi.2]

theorem iblk1_3_apply (c : Dev nD) (t : Fin cfg1.N) (r : Fin 5000) :
    (iblk1 V c 3 t : S5000x1.Idx → BitVec 32) (ix2 r 0)
      = (V c main_v49 : S100000x1.Idx → BitVec 32) (ix2 (rowAt t.val (lt20 t) r) 0) := by
  have hi : win1_3.index t 0 = t.val ∧ win1_3.index t 1 = 0 :=
    (by decide +kernel : ∀ t : Fin grid1.N, win1_3.index t 0 = t.val ∧ win1_3.index t 1 = 0) t
  unfold iblk1
  rw [View.read_apply]
  show V c main_v49 _ = V c main_v49 _
  congr 1
  funext a
  apply Fin.ext
  match a with
  | ⟨0, _⟩ => show win1_3.index t 0 * 5000 + 1 * r.val = 5000 * t.val + r.val; rw [hi.1]; omega
  | ⟨1, _⟩ => show win1_3.index t 1 * 1 + 1 * 0 = 0; rw [hi.2]

/-- A window whose block is its whole array reads the array: the five below. -/
theorem iblk1_2_apply (c : Dev nD) (t : Fin cfg1.N) (p : Fin 1) (j : Fin 128) :
    (iblk1 V c 2 t : S1x128.Idx → EReal) (ix2 p j) = (V c main_v50 : S1x128.Idx → EReal) (ix2 p j) := by
  have hi : win1_2.index t 0 = 0 ∧ win1_2.index t 1 = 0 :=
    (by decide +kernel : ∀ t : Fin grid1.N, win1_2.index t 0 = 0 ∧ win1_2.index t 1 = 0) t
  unfold iblk1
  rw [View.read_apply]
  show V c main_v50 _ = V c main_v50 _
  congr 1
  funext a
  apply Fin.ext
  match a with
  | ⟨0, _⟩ => show win1_2.index t 0 * 1 + 1 * p.val = p.val; rw [hi.1]; omega
  | ⟨1, _⟩ => show win1_2.index t 1 * 128 + 1 * j.val = j.val; rw [hi.2]; omega

theorem iblk1_4_apply (c : Dev nD) (t : Fin cfg1.N) (g : Fin 256) (p : Fin 1) :
    (iblk1 V c 4 t : S256x1.Idx → EReal) (ix2 g p) = (V c main_v48 : S256x1.Idx → EReal) (ix2 g p) := by
  have hi : win1_4.index t 0 = 0 ∧ win1_4.index t 1 = 0 :=
    (by decide +kernel : ∀ t : Fin grid1.N, win1_4.index t 0 = 0 ∧ win1_4.index t 1 = 0) t
  unfold iblk1
  rw [View.read_apply]
  show V c main_v48 _ = V c main_v48 _
  congr 1
  funext a
  apply Fin.ext
  match a with
  | ⟨0, _⟩ => show win1_4.index t 0 * 256 + 1 * g.val = g.val; rw [hi.1]; omega
  | ⟨1, _⟩ => show win1_4.index t 1 * 1 + 1 * p.val = p.val; rw [hi.2]; omega

theorem iblk1_5_apply (c : Dev nD) (t : Fin cfg1.N) (k : Fin 128) (q : Fin 32) :
    (iblk1 V c 5 t : S128x32.Idx → EReal) (ix2 k q) = (V c main_arg7 : S128x32.Idx → EReal) (ix2 k q) := by
  have hi : win1_5.index t 0 = 0 ∧ win1_5.index t 1 = 0 :=
    (by decide +kernel : ∀ t : Fin grid1.N, win1_5.index t 0 = 0 ∧ win1_5.index t 1 = 0) t
  unfold iblk1
  rw [View.read_apply]
  show V c main_arg7 _ = V c main_arg7 _
  congr 1
  funext a
  apply Fin.ext
  match a with
  | ⟨0, _⟩ => show win1_5.index t 0 * 128 + 1 * k.val = k.val; rw [hi.1]; omega
  | ⟨1, _⟩ => show win1_5.index t 1 * 32 + 1 * q.val = q.val; rw [hi.2]; omega

theorem iblk1_6_apply (c : Dev nD) (t : Fin cfg1.N) (p : Fin 1) (q : Fin 32) :
    (iblk1 V c 6 t : S1x32.Idx → EReal) (ix2 p q) = (V c main_v51 : S1x32.Idx → EReal) (ix2 p q) := by
  have hi : win1_6.index t 0 = 0 ∧ win1_6.index t 1 = 0 :=
    (by decide +kernel : ∀ t : Fin grid1.N, win1_6.index t 0 = 0 ∧ win1_6.index t 1 = 0) t
  unfold iblk1
  rw [View.read_apply]
  show V c main_v51 _ = V c main_v51 _
  congr 1
  funext a
  apply Fin.ext
  match a with
  | ⟨0, _⟩ => show win1_6.index t 0 * 1 + 1 * p.val = p.val; rw [hi.1]; omega
  | ⟨1, _⟩ => show win1_6.index t 1 * 32 + 1 * q.val = q.val; rw [hi.2]; omega

theorem iblk1_7_apply (c : Dev nD) (t : Fin cfg1.N) (q : Fin 32) (o : Fin 2) :
    (iblk1 V c 7 t : S32x2.Idx → EReal) (ix2 q o) = (V c main_arg9 : S32x2.Idx → EReal) (ix2 q o) := by
  have hi : win1_7.index t 0 = 0 ∧ win1_7.index t 1 = 0 :=
    (by decide +kernel : ∀ t : Fin grid1.N, win1_7.index t 0 = 0 ∧ win1_7.index t 1 = 0) t
  unfold iblk1
  rw [View.read_apply]
  show V c main_arg9 _ = V c main_arg9 _
  congr 1
  funext a
  apply Fin.ext
  match a with
  | ⟨0, _⟩ => show win1_7.index t 0 * 32 + 1 * q.val = q.val; rw [hi.1]; omega
  | ⟨1, _⟩ => show win1_7.index t 1 * 2 + 1 * o.val = o.val; rw [hi.2]; omega

theorem iblk1_8_apply (c : Dev nD) (t : Fin cfg1.N) (p : Fin 1) (o : Fin 2) :
    (iblk1 V c 8 t : S1x2.Idx → EReal) (ix2 p o) = (V c main_v52 : S1x2.Idx → EReal) (ix2 p o) := by
  have hi : win1_8.index t 0 = 0 ∧ win1_8.index t 1 = 0 :=
    (by decide +kernel : ∀ t : Fin grid1.N, win1_8.index t 0 = 0 ∧ win1_8.index t 1 = 0) t
  unfold iblk1
  rw [View.read_apply]
  show V c main_v52 _ = V c main_v52 _
  congr 1
  funext a
  apply Fin.ext
  match a with
  | ⟨0, _⟩ => show win1_8.index t 0 * 1 + 1 * p.val = p.val; rw [hi.1]; omega
  | ⟨1, _⟩ => show win1_8.index t 1 * 2 + 1 * o.val = o.val; rw [hi.2]; omega

end Blocks

/-! ## Twenty blocks of 5000 rows are the 100000 rows -/

/-- (block, row in the block) ↔ node row: `n = 5000 t + r`. -/
def rowEquiv : Fin 20 × Fin 5000 ≃ Fin 100000 where
  toFun p := rowAt p.1.val p.1.isLt p.2
  invFun n := (⟨n.val / 5000, by have := n.isLt; omega⟩, ⟨n.val % 5000, Nat.mod_lt _ (by decide)⟩)
  left_inv p := by
    rcases p with ⟨t, r⟩
    have := r.isLt
    refine Prod.ext (Fin.ext ?_) (Fin.ext ?_)
    · show (5000 * t.val + r.val) / 5000 = t.val
      omega
    · show (5000 * t.val + r.val) % 5000 = r.val
      omega
  right_inv n := Fin.ext (by show 5000 * (n.val / 5000) + n.val % 5000 = n.val; omega)

/-- A sum over the node rows, block by block. -/
theorem sum_rows_eq_blocks (f : Fin 100000 → EReal) :
    ∑ n : Fin 100000, f n = ∑ t : Fin 20, ∑ r : Fin 5000, f (rowAt t.val t.isLt r) := by
  rw [← Equiv.sum_comp rowEquiv f, Fintype.sum_prod_type]
  rfl

section Accumulation
variable (a2 : Fin 100000 → Fin 128 → EReal) (dv : Fin 100000 → EReal) (b2 : Fin 128 → EReal) (bt : Fin 100000 → BitVec 32)

/-- What block `t` adds to entry (g, j) of the scratch: the rectified layer-2 values of its rows of graph `g`. -/
def blockSum (t : ℕ) (ht : t < 20) (g : Fin 256) (j : Fin 128) : EReal :=
  ∑ r : Fin 5000, (if bt (rowAt t ht r) = BitVec.ofNat 32 g.val then (1 : EReal) else 0)
    * max (a2 (rowAt t ht r) j * dv (rowAt t ht r) + b2 j) 0

/-- The per-graph sum over all rows is the sum of the twenty blocks' contributions. -/
theorem poolSum_eq_blocks (g : Fin 256) (j : Fin 128) :
    Cert.Gcn.poolSum a2 dv b2 bt g j = ∑ t : Fin 20, blockSum a2 dv b2 bt t.val t.isLt g j := by
  unfold Cert.Gcn.poolSum blockSum
  exact sum_rows_eq_blocks fun n => (if bt n = BitVec.ofNat 32 g.val then (1 : EReal) else 0) * max (a2 n j * dv n + b2 j) 0

end Accumulation

/-! ## The scratch after every point, and the result array -/

section Result
variable (V : (c : Dev nD) → (b : Ref sig .tc) → Buf (Elt Ideal) ((c : Thread nD τ).loc b))

/-- The four node-side arrays the accumulation reads, as functions of plain coordinates: the aggregated layer-2 rows,
    the normaliser column, the layer-2 bias row, the graph words. -/
abbrev A2 (c : Dev nD) : Fin 100000 → Fin 128 → EReal := fun n j => (V c main_v41 : S100000x128.Idx → EReal) (ix2 n j)
abbrev DV (c : Dev nD) : Fin 100000 → EReal := fun n => (V c main_v17 : S100000x1.Idx → EReal) (ix2 n 0)
abbrev B2 (c : Dev nD) : Fin 128 → EReal := fun j => (V c main_v50 : S1x128.Idx → EReal) (ix2 0 j)
abbrev BT (c : Dev nD) : Fin 100000 → BitVec 32 := fun n => (V c main_v49 : S100000x1.Idx → BitVec 32) (ix2 n 0)

/-- One point's accumulating store, over the blocks the point reads: entry (g, j) gains block `t`'s contribution. -/
theorem accStep_blk (c : Dev nD) (t : Fin cfg1.N) (prev : Vec Ideal S256x128 .f32) (g : Fin 256) (j : Fin 128) :
    accStep prev (iblk1 V c 0 t) (iblk1 V c 1 t) (iblk1 V c 2 t) (iblk1 V c 3 t) (ix2 g j)
      = prev (ix2 g j) + blockSum (A2 V c) (DV V c) (B2 V c) (BT V c) t.val (lt20 t) g j := by
  unfold blockSum
  refine (k1_pay2_apply (iblk1 V c 0 t) (iblk1 V c 1 t) (iblk1 V c 2 t) (iblk1 V c 3 t) prev g j).trans
    (congrArg (prev (ix2 g j) + ·) (Finset.sum_congr rfl fun r _ => ?_))
  rw [iblk1_0_apply V c t r j, iblk1_1_apply V c t r, iblk1_2_apply V c t 0 j, iblk1_3_apply V c t r]

/-- The zeroed scratch reads zero. -/
theorem accInit_apply (g : Fin 256) (j : Fin 128) : (accInit : Vec Ideal S256x128 .f32) (ix2 g j) = 0 := by
  rw [accInit_eq]
  unfold k1_pay1
  rw [shapeCast_self]
  exact Ideal.ofBits_zero_f32

/-- THE INVARIANT: after point `n` entry (g, j) of the scratch is the sum of the contributions of blocks `0 .. n`. By
    induction on the point. -/
theorem accAt1_apply (c : Dev nD) (g : Fin 256) (j : Fin 128) : ∀ (n : ℕ) (h : n < cfg1.N),
    (accAt1 V c n h : S256x128.Idx → EReal) (ix2 g j)
      = ∑ t : Fin (n + 1), blockSum (A2 V c) (DV V c) (B2 V c) (BT V c) t.val
          (Nat.lt_of_lt_of_le t.isLt (lt20 ⟨n, h⟩)) g j
  | 0, h => by
    rw [accAt1_zero]
    refine (accStep_blk V c ⟨0, h⟩ accInit g j).trans ?_
    rw [accInit_apply, zero_add, Fin.sum_univ_one]
    rfl
  | n + 1, h => by
    rw [accAt1_succ]
    refine (accStep_blk V c ⟨n + 1, h⟩ (accAt1 V c n (Nat.lt_of_succ_lt h)) g j).trans ?_
    rw [accAt1_apply c g j n (Nat.lt_of_succ_lt h)]
    exact (Fin.sum_univ_castSucc (fun t : Fin (n + 1 + 1) => blockSum (A2 V c) (DV V c) (B2 V c) (BT V c) t.val
      (Nat.lt_of_lt_of_le t.isLt (lt20 ⟨n + 1, h⟩)) g j)).symm

/-- The grid's last point. -/
def tLast : Fin cfg1.N := ⟨19, by have : cfg1.N = 20 := N_1; omega⟩

/-- What the last point stores into the result window: the classifier over the scratch after all twenty blocks. -/
def result (c : Dev nD) : Buf (Elt Ideal) ((c : Thread nD τ).loc main_v53) :=
  outFin (accAt1 V c 19 tLast.isLt) (iblk1 V c 4 tLast) (iblk1 V c 5 tLast) (iblk1 V c 6 tLast) (iblk1 V c 7 tLast)
    (iblk1 V c 8 tLast)

/-- It is the classifier on the per-graph sums over all rows. -/
theorem result_apply (c : Dev nD) (g : Fin 256) (o : Fin 2) :
    (result V c : S256x2.Idx → EReal) (ix2 g o)
      = Cert.Gcn.head (Cert.Gcn.poolSum (A2 V c) (DV V c) (B2 V c) (BT V c))
          (fun g => (V c main_v48 : S256x1.Idx → EReal) (ix2 g 0))
          (fun k q => (V c main_arg7 : S128x32.Idx → EReal) (ix2 k q))
          (fun q => (V c main_v51 : S1x32.Idx → EReal) (ix2 0 q))
          (fun q o => (V c main_arg9 : S32x2.Idx → EReal) (ix2 q o))
          (fun o => (V c main_v52 : S1x2.Idx → EReal) (ix2 0 o)) g o := by
  have e1 : (fun g k => (accAt1 V c 19 tLast.isLt : S256x128.Idx → EReal) (ix2 g k))
      = Cert.Gcn.poolSum (A2 V c) (DV V c) (B2 V c) (BT V c) :=
    funext fun g => funext fun k =>
      (accAt1_apply V c g k 19 tLast.isLt).trans (poolSum_eq_blocks (A2 V c) (DV V c) (B2 V c) (BT V c) g k).symm
  have e2 : (fun g => (iblk1 V c 4 tLast : S256x1.Idx → EReal) (ix2 g 0))
      = fun g => (V c main_v48 : S256x1.Idx → EReal) (ix2 g 0) := funext fun g => iblk1_4_apply V c tLast g 0
  have e3 : (fun k q => (iblk1 V c 5 tLast : S128x32.Idx → EReal) (ix2 k q))
      = fun k q => (V c main_arg7 : S128x32.Idx → EReal) (ix2 k q) := funext fun k => funext fun q => iblk1_5_apply V c tLast k q
  have e4 : (fun q => (iblk1 V c 6 tLast : S1x32.Idx → EReal) (ix2 0 q))
      = fun q => (V c main_v51 : S1x32.Idx → EReal) (ix2 0 q) := funext fun q => iblk1_6_apply V c tLast 0 q
  have e5 : (fun q o => (iblk1 V c 7 tLast : S32x2.Idx → EReal) (ix2 q o))
      = fun q o => (V c main_arg9 : S32x2.Idx → EReal) (ix2 q o) := funext fun q => funext fun o => iblk1_7_apply V c tLast q o
  have e6 : (fun o => (iblk1 V c 8 tLast : S1x2.Idx → EReal) (ix2 0 o))
      = fun o => (V c main_v52 : S1x2.Idx → EReal) (ix2 0 o) := funext fun o => iblk1_8_apply V c tLast 0 o
  unfold result
  refine (k1_pay3_apply (accAt1 V c 19 tLast.isLt) (iblk1 V c 4 tLast) (iblk1 V c 5 tLast) (iblk1 V c 6 tLast)
    (iblk1 V c 7 tLast) (iblk1 V c 8 tLast) g o).trans ?_
  rw [e1, e2, e3, e4, e5, e6]

/-- At the last point the result window's rectangle starts at the array's origin, -/
theorem outRect_origin : (fun a => win1_9.index tLast a * main_v53.ty.shape.size a) = fun _ => 0 :=
  funext fun a => by fin_cases a <;> decide

/-- so its block there is the whole array: any contents read through it are those contents, -/
theorem outBlk_read (c : Dev nD) (G : Buf (Elt Ideal) ((c : Thread nD τ).loc main_v53)) :
    ((cfg1.win 9).blk tLast).view.read (Elt Ideal) G = G :=
  Memref.read_access_unit_zero (Elt Ideal) main_v53 outRect_origin
    (fun a => Nat.le_of_eq (by rw [show win1_9.index tLast a * main_v53.ty.shape.size a = 0 from congrFun outRect_origin a, Nat.zero_add])) G

/-- and every index of the array lies under it. -/
theorem outBlk_mem (i : S256x2.Idx) : i ∈ ((cfg1.win 9).blk tLast).view.set := by
  show i ∈ ((View.whole main_v53).slice (win1_9.rect tLast)).set
  rw [View.set_slice_whole]
  exact View.mem_set_unit_zero outRect_origin _ i

/-- THE RESULT ARRAY. Only the last point writes the window back, its block is the whole array, and what the body left
    there is `result`: so the array ends holding `result`. -/
theorem final1_9 (c : Dev nD) : (dat1 V c).arrAt 9 cfg1.N = result V c :=
  (dat1 V c).arrAt_eq_of_cover 9 (result V c)
    (fun t hf => by
      obtain rfl : t = tLast := Fin.ext (by
        have h1 := (flush1_9 t).mp hf
        have h2 := lt20 t
        show t.val = 19
        omega)
      rw [outBlk_read]
      show (cfg1.win 9).cut (grid1.coords tLast) ((dat1 V c).after 9 tLast) = _
      rw [after1_9]
      rfl)
    (fun i => ⟨tLast, (flush1_9 tLast).mpr rfl, outBlk_mem i⟩)

end Result

theorem arrAt1_9_apply (V : (c : Dev nD) → (b : Ref sig .tc) → Buf (Elt Ideal) ((c : Thread nD τ).loc b))
    (c : Dev nD) (g : Fin 256) (o : Fin 2) :
    ((dat1 (F := Ideal) V c).arrAt 9 cfg1.N : S256x2.Idx → EReal) (ix2 g o)
      = Cert.Gcn.head
          (Cert.Gcn.poolSum (fun n j => (V c main_v41 : S100000x128.Idx → EReal) (ix2 n j))
            (fun n => (V c main_v17 : S100000x1.Idx → EReal) (ix2 n 0))
            (fun j => (V c main_v50 : S1x128.Idx → EReal) (ix2 0 j))
            (fun n => (V c main_v49 : S100000x1.Idx → BitVec 32) (ix2 n 0)))
          (fun g => (V c main_v48 : S256x1.Idx → EReal) (ix2 g 0))
          (fun k q => (V c main_arg7 : S128x32.Idx → EReal) (ix2 k q))
          (fun q => (V c main_v51 : S1x32.Idx → EReal) (ix2 0 q))
          (fun q o => (V c main_arg9 : S32x2.Idx → EReal) (ix2 q o))
          (fun o => (V c main_v52 : S1x2.Idx → EReal) (ix2 0 o)) g o := by
  exact (congrFun (final1_9 V c) (ix2 g o)).trans (result_apply V c g o)

end Cert.KernelIdeal.Val

end
-- ==== Proof.Val.SG.lean ====
/-
  The host scatter-add and the host gather of the two programs, READ AT ONE INDEX, at the ideal instance
  (a float is an extended real, the scatter's accumulation the exact sum).

  Every scatter here has one index word per update row: update row `e` is added to operand row `idx[e]`, the word
  read as a signed integer, and a row whose word is outside the operand is dropped. Read at row `n`, the result is
  the operand's element plus the sum over ALL update rows of the row's element where the word is `n`, zero elsewhere.
  Every gather reads operand row `idx[e]`, the word read signed and clamped into the operand's rows.
  Each fact is proved once for dimension numbers with the sizes as parameters and then read at the programs' records.
-/
import proofs.«409842_j28716151341663_3_alg».proof.KernelIdeal
import proofs.«409842_j28716151341663_3_alg».proof.ReferenceIdeal
import Idealize.ShloMosaic.PureOps.Ideal
import Idealize.ShloMosaic.Lib.ValueIdx

noncomputable section

open scoped BigOperators

namespace Cert.Gcn.SG

open Idealize.ShloMosaic Idealize.ShloMosaic.ValueIdx

/-! ## The clamp at a word that names a row -/

/-- A word whose signed value is the row number `n` of an operand of `R` rows clamps to `n`. -/
theorem clamp_of_hit {R : ℕ} (w : BitVec 32) (n : ℕ) (hn : n < R) (h : w.toInt = (n : ℤ)) :
    min w.toInt.toNat (R - 1) = n := by
  rw [h, Int.toNat_natCast]; omega

/-! ## The dimension numbers with the sizes as parameters, and the two operations read at an index -/

/-- Scatter of update rows `[E, C]` into operand rows `[R, C]` at one index word per update row. -/
abbrev rowsScatter (R E C : Nat) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- An axis is kept exactly when it is not one of the dropped ones. -/
theorem mem_kept_iff {s : Shape} (l : List (Fin s.rank)) (a : Fin s.rank) : a ∈ s.kept l ↔ a ∉ l := by
  simp [Shape.kept, List.mem_filter, List.mem_finRange]

section RowsScatter
variable {R E C : Nat} (wf : ScatterDims.WF ⟨2, ![R, C]⟩ ⟨2, ![E, 1]⟩ ⟨2, ![E, C]⟩ [1] [0] [0] 1)

/-- On the row axis the window of update element `y` starts at its row's index word, read signed … -/
theorem rows_start0 (idx : IVec ⟨2, ![E, 1]⟩ 32) (y : (⟨2, ![E, C]⟩ : Shape).Idx) :
    (rowsScatter R E C wf).start y idx 0 = (idx (ix2 (y 0) 0)).toInt := by
  unfold ScatterDims.start
  rw [dif_pos (show (0 : Fin 2) ∈ (rowsScatter R E C wf).scatterDimsToOperandDims from List.mem_singleton.mpr rfl)]
  have hsi : (rowsScatter R E C wf).siIdx y ⟨List.idxOf (0 : Fin 2) (rowsScatter R E C wf).scatterDimsToOperandDims,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- … and on the column axis, which no index word names, at `0`. -/
theorem rows_start1 (idx : IVec ⟨2, ![E, 1]⟩ 32) (y : (⟨2, ![E, C]⟩ : Shape).Idx) :
    (rowsScatter R E C wf).start y idx 1 = 0 := by
  unfold ScatterDims.start
  rw [dif_neg (fun h => Nat.one_ne_zero (congrArg Fin.val (List.mem_singleton.mp h)))]

/-- The row axis is inserted: no window coordinate there … -/
theorem rows_window0 (y : (⟨2, ![E, C]⟩ : Shape).Idx) : (rowsScatter R E C wf).window y 0 = 0 := by
  unfold ScatterDims.window
  rw [dif_neg (fun h => ((mem_kept_iff _ _).1 h) (List.mem_singleton.mpr rfl))]

/-- … and on the column axis the window coordinate is the update's column. -/
theorem rows_window1 (y : (⟨2, ![E, C]⟩ : Shape).Idx) : (rowsScatter R E C wf).window y 1 = (y 1).val := by
  unfold ScatterDims.window
  rw [dif_pos ((mem_kept_iff _ _).2 (fun h => Nat.one_ne_zero (congrArg Fin.val (List.mem_singleton.mp h))))]
  rfl

/-- THE CHARACTERISATION: update element `(e, c)` lands on operand element `(n, j)` exactly when it is in column `j`
    and row `e`'s index word, read signed, is `n`. -/
theorem rows_resultIdx?_iff (idx : IVec ⟨2, ![E, 1]⟩ 32) (e : Fin E) (c : Fin C) (n : Fin R) (j : Fin C) :
    (rowsScatter R E C wf).resultIdx? (ix2 e c) idx = some (ix2 n j)
      ↔ c = j ∧ (idx (ix2 e 0)).toInt = (n.val : ℤ) := by
  have hs0 : (rowsScatter R E C wf).start (ix2 e c) idx 0 = (idx (ix2 e 0)).toInt := rows_start0 wf idx (ix2 e c)
  have hs1 := rows_start1 wf idx (ix2 e c)
  have hw0 := rows_window0 wf (ix2 e c)
  have hw1 : (rowsScatter R E C wf).window (ix2 e c) 1 = c.val := rows_window1 wf (ix2 e c)
  have hn := n.isLt
  have hc := c.isLt
  unfold ScatterDims.resultIdx?
  split
  · rename_i h
    rw [Option.some.injEq]
    have hh : 0 ≤ (idx (ix2 e 0)).toInt + ((0 : ℕ) : ℤ) ∧ (idx (ix2 e 0)).toInt + ((0 : ℕ) : ℤ) < (R : ℤ) := by
      have := h 0; rwa [hs0, hw0] at this
    constructor
    · intro hf
      have h0 : ((rowsScatter R E C wf).start (ix2 e c) idx 0 + ((rowsScatter R E C wf).window (ix2 e c) 0 : ℕ)).toNat = n.val :=
        congrArg (fun f => (f 0).val) hf
      have h1 : ((rowsScatter R E C wf).start (ix2 e c) idx 1 + ((rowsScatter R E C wf).window (ix2 e c) 1 : ℕ)).toNat = j.val :=
        congrArg (fun f => (f 1).val) hf
      rw [hs0, hw0] at h0
      rw [hs1, hw1] at h1
      exact ⟨Fin.ext (by omega), by omega⟩
    · rintro ⟨rfl, ht⟩
      funext a
      refine Fin.ext ?_
      match a with
      | ⟨0, _⟩ =>
        show ((rowsScatter R E C wf).start (ix2 e c) idx 0 + ((rowsScatter R E C wf).window (ix2 e c) 0 : ℕ)).toNat = n.val
        rw [hs0, hw0]; omega
      | ⟨1, _⟩ =>
        show ((rowsScatter R E C wf).start (ix2 e c) idx 1 + ((rowsScatter R E C wf).window (ix2 e c) 1 : ℕ)).toNat = c.val
        rw [hs1, hw1]; omega
  · rename_i h
    constructor
    · intro hf; cases hf
    · rintro ⟨rfl, ht⟩
      exfalso; apply h
      intro a
      match a with
      | ⟨0, _⟩ =>
        show 0 ≤ (rowsScatter R E C wf).start (ix2 e c) idx 0 + ((rowsScatter R E C wf).window (ix2 e c) 0 : ℕ) ∧
          (rowsScatter R E C wf).start (ix2 e c) idx 0 + ((rowsScatter R E C wf).window (ix2 e c) 0 : ℕ) < (R : ℤ)
        rw [hs0, hw0]; omega
      | ⟨1, _⟩ =>
        show 0 ≤ (rowsScatter R E C wf).start (ix2 e c) idx 1 + ((rowsScatter R E C wf).window (ix2 e c) 1 : ℕ) ∧
          (rowsScatter R E C wf).start (ix2 e c) idx 1 + ((rowsScatter R E C wf).window (ix2 e c) 1 : ℕ) < (C : ℤ)
        rw [hs1, hw1]; omega

/-- THE ROW SCATTER-ADD READ AT `(n, j)`. -/
theorem scatterAdd_rows {φ : FTy}
    (x : FVec Ideal ⟨2, ![R, C]⟩ φ) (idx : IVec ⟨2, ![E, 1]⟩ 32) (u : FVec Ideal ⟨2, ![E, C]⟩ φ) (n : Fin R) (j : Fin C) :
    Host.scatterAdd (F := Ideal) (rowsScatter R E C wf) x idx u (ix2 n j)
      = x (ix2 n j) + ∑ e : Fin E, if (idx (ix2 e 0)).toInt = (n.val : ℤ) then u (ix2 e j) else 0 := by
  show x (ix2 n j) + ∑ y ∈ Finset.univ.filter (fun y => (rowsScatter R E C wf).resultIdx? y idx = some (ix2 n j)), u y = _
  congr 1
  rw [Finset.sum_filter, sum_idx2]
  refine Finset.sum_congr rfl fun e _ => ?_
  simp only [rows_resultIdx?_iff wf idx e _ n j]
  by_cases ht : (idx (ix2 e 0)).toInt = (n.val : ℤ)
  · simp only [ht, and_true, if_true]
    rw [Finset.sum_ite_eq' Finset.univ j (fun c => u (ix2 e c)), if_pos (Finset.mem_univ j)]
  · simp only [ht, and_false, if_false]
    exact Finset.sum_const_zero

end RowsScatter
/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Fintype.sum_equiv ⟨fun a => ix1 a, fun i => i 0, fun _ => rfl, fun i => (eq_ix1 i).symm⟩ _ _ (fun _ => rfl)).symm

/-- Scatter of update elements `[E]` into a flat operand `[R]` at one index word per update. -/
abbrev vecScatter (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

section VecScatter
variable {R E : Nat} (wf : ScatterDims.WF ⟨1, ![R]⟩ ⟨2, ![E, 1]⟩ ⟨1, ![E]⟩ [] [0] [0] 1)

/-- The window of update element `y` starts at its index word, read signed … -/
theorem vec_start0 (idx : IVec ⟨2, ![E, 1]⟩ 32) (y : (⟨1, ![E]⟩ : Shape).Idx) :
    (vecScatter R E wf).start y idx 0 = (idx (ix2 (y 0) 0)).toInt := by
  unfold ScatterDims.start
  rw [dif_pos (show (0 : Fin 1) ∈ (vecScatter R E wf).scatterDimsToOperandDims from List.mem_singleton.mpr rfl)]
  have hsi : (vecScatter R E wf).siIdx y ⟨List.idxOf (0 : Fin 1) (vecScatter R E wf).scatterDimsToOperandDims,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- … and the operand's one axis is inserted: no window coordinate. -/
theorem vec_window0 (y : (⟨1, ![E]⟩ : Shape).Idx) : (vecScatter R E wf).window y 0 = 0 := by
  unfold ScatterDims.window
  rw [dif_neg (fun h => ((mem_kept_iff _ _).1 h) (List.mem_singleton.mpr rfl))]

/-- THE CHARACTERISATION: update element `e` lands on operand element `n` exactly when its index word, read signed, is `n`. -/
theorem vec_resultIdx?_iff (idx : IVec ⟨2, ![E, 1]⟩ 32) (e : Fin E) (n : Fin R) :
    (vecScatter R E wf).resultIdx? (ix1 e) idx = some (ix1 n) ↔ (idx (ix2 e 0)).toInt = (n.val : ℤ) := by
  have hs0 : (vecScatter R E wf).start (ix1 e) idx 0 = (idx (ix2 e 0)).toInt := vec_start0 wf idx (ix1 e)
  have hw0 := vec_window0 wf (ix1 e)
  have hn := n.isLt
  unfold ScatterDims.resultIdx?
  split
  · rename_i h
    rw [Option.some.injEq]
    have hh : 0 ≤ (idx (ix2 e 0)).toInt + ((0 : ℕ) : ℤ) ∧ (idx (ix2 e 0)).toInt + ((0 : ℕ) : ℤ) < (R : ℤ) := by
      have := h 0; rwa [hs0, hw0] at this
    constructor
    · intro hf
      have h0 : ((vecScatter R E wf).start (ix1 e) idx 0 + ((vecScatter R E wf).window (ix1 e) 0 : ℕ)).toNat = n.val :=
        congrArg (fun f => (f 0).val) hf
      rw [hs0, hw0] at h0
      omega
    · intro ht
      funext a
      refine Fin.ext ?_
      match a with
      | ⟨0, _⟩ =>
        show ((vecScatter R E wf).start (ix1 e) idx 0 + ((vecScatter R E wf).window (ix1 e) 0 : ℕ)).toNat = n.val
        rw [hs0, hw0]; omega
  · rename_i h
    constructor
    · intro hf; cases hf
    · intro ht
      exfalso; apply h
      intro a
      match a with
      | ⟨0, _⟩ =>
        show 0 ≤ (vecScatter R E wf).start (ix1 e) idx 0 + ((vecScatter R E wf).window (ix1 e) 0 : ℕ) ∧
          (vecScatter R E wf).start (ix1 e) idx 0 + ((vecScatter R E wf).window (ix1 e) 0 : ℕ) < (R : ℤ)
        rw [hs0, hw0]; omega

/-- THE FLAT SCATTER-ADD READ AT `n`. -/
theorem scatterAdd_vec {φ : FTy}
    (x : FVec Ideal ⟨1, ![R]⟩ φ) (idx : IVec ⟨2, ![E, 1]⟩ 32) (u : FVec Ideal ⟨1, ![E]⟩ φ) (n : Fin R) :
    Host.scatterAdd (F := Ideal) (vecScatter R E wf) x idx u (ix1 n)
      = x (ix1 n) + ∑ e : Fin E, if (idx (ix2 e 0)).toInt = (n.val : ℤ) then u (ix1 e) else 0 := by
  show x (ix1 n) + ∑ y ∈ Finset.univ.filter (fun y => (vecScatter R E wf).resultIdx? y idx = some (ix1 n)), u y = _
  congr 1
  rw [Finset.sum_filter, sum_idx1]
  refine Finset.sum_congr rfl fun e _ => ?_
  simp only [vec_resultIdx?_iff wf idx e n]

end VecScatter

section Gathers
variable {α : Type}

/-- Gather of whole operand rows `[R, C]` into result rows `[E, C]` at one index word per result row. -/
abbrev rowsGather (R E C : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of elements of a flat operand `[R]` into a flat result `[E]` at one index word per result element. -/
abbrev vecGather (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER READ AT `(e, j)`. -/
theorem gather_rows {R E C : Nat} (hR : 0 < R)
    (wf : GatherDims.WF ⟨2, ![R, C]⟩ ⟨2, ![E, 1]⟩ ⟨2, ![E, C]⟩ [1] [0] [] [0] [] 1 ![1, C])
    (x : (⟨2, ![R, C]⟩ : Shape).Idx → α) (idx : IVec ⟨2, ![E, 1]⟩ 32) (e : Fin E) (j : Fin C) :
    Host.gather (rowsGather R E C wf) x idx (ix2 e j)
      = x (ix2 ⟨min (idx (ix2 e 0)).toInt.toNat (R - 1), by omega⟩ j) := by
  unfold Host.gather
  congr 1
  funext a
  refine Fin.ext ?_
  have hnb : ∀ a, a ∉ (rowsGather R E C wf).operandBatchingDims := fun _ => List.not_mem_nil
  match a with
  | ⟨0, _⟩ =>
    show (rowsGather R E C wf).start (ix2 e j) idx 0 + (rowsGather R E C wf).batchCoord (ix2 e j) 0
      + (rowsGather R E C wf).offCoord (ix2 e j) 0 = min (idx (ix2 e 0)).toInt.toNat (R - 1)
    rw [GatherDims.batchCoord_eq_zero _ _ _ (hnb _),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather R E C wf).startIndexMap from List.mem_singleton.mpr rfl)]
    have hsi : (rowsGather R E C wf).siIdx (ix2 e j) ⟨List.idxOf (0 : Fin 2) (rowsGather R E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather R E C wf).start (ix2 e j) idx 1 + (rowsGather R E C wf).batchCoord (ix2 e j) 1
      + (rowsGather R E C wf).offCoord (ix2 e j) 1 = j.val
    rw [GatherDims.batchCoord_eq_zero _ _ _ (hnb _)]
    have hst : (rowsGather R E C wf).start (ix2 e j) idx 1 = 0 := by
      unfold GatherDims.start
      rw [dif_neg (fun h => Nat.one_ne_zero (congrArg Fin.val (List.mem_singleton.mp h)))]
    have hoff : (rowsGather R E C wf).offCoord (ix2 e j) 1 = j.val := by
      unfold GatherDims.offCoord
      rw [dif_pos ((GatherDims.mem_sKept _ _).mpr ⟨fun h => Nat.one_ne_zero (congrArg Fin.val (List.mem_singleton.mp h)), hnb _⟩)]
      rfl
    rw [hst, hoff]
    omega

/-- THE FLAT GATHER READ AT `e`. -/
theorem gather_vec {R E : Nat} (hR : 0 < R)
    (wf : GatherDims.WF ⟨1, ![R]⟩ ⟨2, ![E, 1]⟩ ⟨1, ![E]⟩ [] [0] [] [0] [] 1 ![1])
    (x : (⟨1, ![R]⟩ : Shape).Idx → α) (idx : IVec ⟨2, ![E, 1]⟩ 32) (e : Fin E) :
    Host.gather (vecGather R E wf) x idx (ix1 e)
      = x (ix1 ⟨min (idx (ix2 e 0)).toInt.toNat (R - 1), by omega⟩) := by
  unfold Host.gather
  congr 1
  funext a
  refine Fin.ext ?_
  match a with
  | ⟨0, _⟩ =>
    show (vecGather R E wf).start (ix1 e) idx 0 + (vecGather R E wf).batchCoord (ix1 e) 0
      + (vecGather R E wf).offCoord (ix1 e) 0 = min (idx (ix2 e 0)).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather R E wf).startIndexMap from List.mem_singleton.mpr rfl)]
    have hsi : (vecGather R E wf).siIdx (ix1 e) ⟨List.idxOf (0 : Fin 1) (vecGather R E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Gathers

/-! ## At the programs' records

Each record of the two printed programs has the fields of one of the four parametrised records above at literal
sizes, so each fact below is the parametrised one read at those sizes. -/

section Kernel
variable [Cert.KernelIdeal.Facts₀]
open Cert.KernelIdeal.Facts₀

theorem scatterAdd_rows128_k {φ : FTy} (x : FVec Ideal ⟨2, ![100000, 128]⟩ φ) (idx : IVec ⟨2, ![1700000, 1]⟩ 32)
    (u : FVec Ideal ⟨2, ![1700000, 128]⟩ φ) (n : Fin 100000) (j : Fin 128) :
    Host.scatterAdd (F := Ideal) Cert.KernelIdeal.scatter_S100000x128_S1700000x1_S1700000x128_1_0_0_1 x idx u (ix2 n j)
      = x (ix2 n j) + ∑ e : Fin 1700000, if (idx (ix2 e 0)).toInt = (n.val : ℤ) then u (ix2 e j) else 0 :=
  scatterAdd_rows (R := 100000) (E := 1700000) (C := 128) scatter_S100000x128_S1700000x1_S1700000x128_1_0_0_1_wf x idx u n j

theorem scatterAdd_rows1_k {φ : FTy} (x : FVec Ideal ⟨2, ![100000, 1]⟩ φ) (idx : IVec ⟨2, ![1700000, 1]⟩ 32)
    (u : FVec Ideal ⟨2, ![1700000, 1]⟩ φ) (n : Fin 100000) (j : Fin 1) :
    Host.scatterAdd (F := Ideal) Cert.KernelIdeal.scatter_S100000x1_S1700000x1_S1700000x1_1_0_0_1 x idx u (ix2 n j)
      = x (ix2 n j) + ∑ e : Fin 1700000, if (idx (ix2 e 0)).toInt = (n.val : ℤ) then u (ix2 e j) else 0 :=
  scatterAdd_rows (R := 100000) (E := 1700000) (C := 1) scatter_S100000x1_S1700000x1_S1700000x1_1_0_0_1_wf x idx u n j

theorem scatterAdd_deg_k {φ : FTy} (x : FVec Ideal ⟨1, ![100000]⟩ φ) (idx : IVec ⟨2, ![1700000, 1]⟩ 32)
    (u : FVec Ideal ⟨1, ![1700000]⟩ φ) (n : Fin 100000) :
    Host.scatterAdd (F := Ideal) Cert.KernelIdeal.scatter_S100000_S1700000x1_S1700000_n_0_0_1 x idx u (ix1 n)
      = x (ix1 n) + ∑ e : Fin 1700000, if (idx (ix2 e 0)).toInt = (n.val : ℤ) then u (ix1 e) else 0 :=
  scatterAdd_vec (R := 100000) (E := 1700000) scatter_S100000_S1700000x1_S1700000_n_0_0_1_wf x idx u n

theorem scatterAdd_cnt_k {φ : FTy} (x : FVec Ideal ⟨1, ![256]⟩ φ) (idx : IVec ⟨2, ![100000, 1]⟩ 32)
    (u : FVec Ideal ⟨1, ![100000]⟩ φ) (n : Fin 256) :
    Host.scatterAdd (F := Ideal) Cert.KernelIdeal.scatter_S256_S100000x1_S100000_n_0_0_1 x idx u (ix1 n)
      = x (ix1 n) + ∑ e : Fin 100000, if (idx (ix2 e 0)).toInt = (n.val : ℤ) then u (ix1 e) else 0 :=
  scatterAdd_vec (R := 256) (E := 100000) scatter_S256_S100000x1_S100000_n_0_0_1_wf x idx u n

theorem gather_rows1_k {α : Type} (x : (⟨2, ![100000, 1]⟩ : Shape).Idx → α) (idx : IVec ⟨2, ![1700000, 1]⟩ 32)
    (e : Fin 1700000) (j : Fin 1) :
    Host.gather Cert.KernelIdeal.gather_S100000x1_S1700000x1_S1700000x1_1_0_n_n_0_1_11 x idx (ix2 e j)
      = x (ix2 ⟨min (idx (ix2 e 0)).toInt.toNat (100000 - 1), by omega⟩ j) :=
  gather_rows (R := 100000) (E := 1700000) (C := 1) (by omega) gather_S100000x1_S1700000x1_S1700000x1_1_0_n_n_0_1_11_wf x idx e j

theorem gather_rows128_k {α : Type} (x : (⟨2, ![100000, 128]⟩ : Shape).Idx → α) (idx : IVec ⟨2, ![1700000, 1]⟩ 32)
    (e : Fin 1700000) (j : Fin 128) :
    Host.gather Cert.KernelIdeal.gather_S100000x128_S1700000x1_S1700000x128_1_0_n_n_0_1_1128 x idx (ix2 e j)
      = x (ix2 ⟨min (idx (ix2 e 0)).toInt.toNat (100000 - 1), by omega⟩ j) :=
  gather_rows (R := 100000) (E := 1700000) (C := 128) (by omega) gather_S100000x128_S1700000x1_S1700000x128_1_0_n_n_0_1_1128_wf x idx e j

end Kernel

section Reference
variable [Cert.ReferenceIdeal.Facts₀]
open Cert.ReferenceIdeal.Facts₀

theorem scatterAdd_rows128_r {φ : FTy} (x : FVec Ideal ⟨2, ![100000, 128]⟩ φ) (idx : IVec ⟨2, ![1700000, 1]⟩ 32)
    (u : FVec Ideal ⟨2, ![1700000, 128]⟩ φ) (n : Fin 100000) (j : Fin 128) :
    Host.scatterAdd (F := Ideal) Cert.ReferenceIdeal.scatter_S100000x128_S1700000x1_S1700000x128_1_0_0_1 x idx u (ix2 n j)
      = x (ix2 n j) + ∑ e : Fin 1700000, if (idx (ix2 e 0)).toInt = (n.val : ℤ) then u (ix2 e j) else 0 :=
  scatterAdd_rows (R := 100000) (E := 1700000) (C := 128) scatter_S100000x128_S1700000x1_S1700000x128_1_0_0_1_wf x idx u n j

theorem scatterAdd_seg128_r {φ : FTy} (x : FVec Ideal ⟨2, ![256, 128]⟩ φ) (idx : IVec ⟨2, ![100000, 1]⟩ 32)
    (u : FVec Ideal ⟨2, ![100000, 128]⟩ φ) (n : Fin 256) (j : Fin 128) :
    Host.scatterAdd (F := Ideal) Cert.ReferenceIdeal.scatter_S256x128_S100000x1_S100000x128_1_0_0_1 x idx u (ix2 n j)
      = x (ix2 n j) + ∑ e : Fin 100000, if (idx (ix2 e 0)).toInt = (n.val : ℤ) then u (ix2 e j) else 0 :=
  scatterAdd_rows (R := 256) (E := 100000) (C := 128) scatter_S256x128_S100000x1_S100000x128_1_0_0_1_wf x idx u n j

theorem scatterAdd_deg_r {φ : FTy} (x : FVec Ideal ⟨1, ![100000]⟩ φ) (idx : IVec ⟨2, ![1700000, 1]⟩ 32)
    (u : FVec Ideal ⟨1, ![1700000]⟩ φ) (n : Fin 100000) :
    Host.scatterAdd (F := Ideal) Cert.ReferenceIdeal.scatter_S100000_S1700000x1_S1700000_n_0_0_1 x idx u (ix1 n)
      = x (ix1 n) + ∑ e : Fin 1700000, if (idx (ix2 e 0)).toInt = (n.val : ℤ) then u (ix1 e) else 0 :=
  scatterAdd_vec (R := 100000) (E := 1700000) scatter_S100000_S1700000x1_S1700000_n_0_0_1_wf x idx u n

theorem scatterAdd_cnt_r {φ : FTy} (x : FVec Ideal ⟨1, ![256]⟩ φ) (idx : IVec ⟨2, ![100000, 1]⟩ 32)
    (u : FVec Ideal ⟨1, ![100000]⟩ φ) (n : Fin 256) :
    Host.scatterAdd (F := Ideal) Cert.ReferenceIdeal.scatter_S256_S100000x1_S100000_n_0_0_1 x idx u (ix1 n)
      = x (ix1 n) + ∑ e : Fin 100000, if (idx (ix2 e 0)).toInt = (n.val : ℤ) then u (ix1 e) else 0 :=
  scatterAdd_vec (R := 256) (E := 100000) scatter_S256_S100000x1_S100000_n_0_0_1_wf x idx u n

theorem gather_rows128_r {α : Type} (x : (⟨2, ![100000, 128]⟩ : Shape).Idx → α) (idx : IVec ⟨2, ![1700000, 1]⟩ 32)
    (e : Fin 1700000) (j : Fin 128) :
    Host.gather Cert.ReferenceIdeal.gather_S100000x128_S1700000x1_S1700000x128_1_0_n_n_0_1_1128 x idx (ix2 e j)
      = x (ix2 ⟨min (idx (ix2 e 0)).toInt.toNat (100000 - 1), by omega⟩ j) :=
  gather_rows (R := 100000) (E := 1700000) (C := 128) (by omega) gather_S100000x128_S1700000x1_S1700000x128_1_0_n_n_0_1_1128_wf x idx e j

theorem gather_vec_r {α : Type} (x : (⟨1, ![100000]⟩ : Shape).Idx → α) (idx : IVec ⟨2, ![1700000, 1]⟩ 32)
    (e : Fin 1700000) :
    Host.gather Cert.ReferenceIdeal.gather_S100000_S1700000x1_S1700000_n_0_n_n_0_1_1 x idx (ix1 e)
      = x (ix1 ⟨min (idx (ix2 e 0)).toInt.toNat (100000 - 1), by omega⟩) :=
  gather_vec (R := 100000) (E := 1700000) (by omega) gather_S100000_S1700000x1_S1700000_n_0_n_n_0_1_1_wf x idx e

end Reference

end Cert.Gcn.SG

end
-- ==== Proof.Val.Forms.lean ====
/-
  The two programs' results as functions of plain coordinates, over the extended reals.

  Edges are numbered `e : Fin 1700000` (the 1600000 given edges, then one self loop per node); `rw e` and `cw e` are
  the 32-bit index words of an edge's source and target. A scatter-add adds update row `e` to the row whose number
  the target word, read signed, IS (`hit`); a row gather reads the row whose number is the source word, first moved up
  by the number of nodes when negative (`normW`), then read signed and clamped (`clampN`).
  `K` is the kernel's arrangement (the per-node normaliser applied before the gather and after the scatter, the
  one-column feature aggregated before the layer-1 weights); `R` is the reference's (a per-edge weight
  `dinv(source) · dinv(target)` on full rows). They are equal when every float input is a real number.
-/
import proofs.«409842_j28716151341663_3_alg».proof.Proof.Val.Spec

noncomputable section

open scoped BigOperators

namespace Cert.Gcn

open Idealize.ShloMosaic Idealize.ShloMosaic.ValueIdx

/-- The index word `w`, read signed, is the row number `n`. -/
def hit (w : BitVec 32) (n : ℕ) : Prop := w.toInt = (n : ℤ)

instance (w : BitVec 32) (n : ℕ) : Decidable (hit w n) := by unfold hit; infer_instance

/-- A negative index word moved up by the number of nodes (NumPy's wrap of negative indices). -/
def normW (w : BitVec 32) : BitVec 32 := if w.slt 0#32 then w + 100000#32 else w

/-- An index word read signed and clamped into the node range. -/
def clampN (w : BitVec 32) : Fin 100000 := ⟨min w.toInt.toNat 99999, by omega⟩

/-- The row a gather reads for an edge whose index word is `w`. -/
def rowOf (w : BitVec 32) : Fin 100000 := clampN (normW w)

/-- The source words of all edges: row 0 of the edge list, then the self loops. -/
def rowW (ei : (⟨2, ![2, 1600000]⟩ : Shape).Idx → BitVec 32) (e : Fin 1700000) : BitVec 32 :=
  if h : e.val < 1600000 then ei (ix2 (0 : Fin 2) ⟨e.val, h⟩) else BitVec.ofNat 32 (e.val - 1600000)

/-- The target words of all edges: row 1 of the edge list, then the self loops. -/
def colW (ei : (⟨2, ![2, 1600000]⟩ : Shape).Idx → BitVec 32) (e : Fin 1700000) : BitVec 32 :=
  if h : e.val < 1600000 then ei (ix2 (1 : Fin 2) ⟨e.val, h⟩) else BitVec.ofNat 32 (e.val - 1600000)

section
variable (x : Fin 100000 → EReal) (rw cw : Fin 1700000 → BitVec 32) (bt : Fin 100000 → BitVec 32)
  (w1 b1 : Fin 128 → EReal) (w2 : Fin 128 → Fin 128 → EReal) (b2 : Fin 128 → EReal)
  (wc1 : Fin 128 → Fin 32 → EReal) (bc1 : Fin 32 → EReal) (wc2 : Fin 32 → Fin 2 → EReal) (bc2 : Fin 2 → EReal)

/-- The in-degree of node `n`, self loop included: a scatter-add of ones into zeros. -/
def deg (n : Fin 100000) : EReal := 0 + ∑ e : Fin 1700000, if hit (cw e) n.val then (1 : EReal) else 0

/-- The node's normaliser `deg^(-1/2)` (zero where the degree is not positive). -/
def dinv (n : Fin 100000) : EReal := if 0 < deg cw n then Ideal.rsqrt (max (deg cw n) 1) else 0

/-- The number of nodes of graph `g`, at least one. -/
def cnt (g : Fin 256) : EReal := max (0 + ∑ n : Fin 100000, if hit (bt n) g.val then (1 : EReal) else 0) 1

/-! ### The kernel's arrangement -/

/-- Layer 1's aggregate of the one-column scaled feature. -/
def a1 (n : Fin 100000) : EReal :=
  0 + ∑ e : Fin 1700000, if hit (cw e) n.val then x (rowOf (rw e)) * dinv cw (rowOf (rw e)) else 0

/-- Layer 2's aggregate of the pre-scaled rows `hs2`. -/
def a2 (n : Fin 100000) (j : Fin 128) : EReal :=
  0 + ∑ e : Fin 1700000, if hit (cw e) n.val then hs2 (a1 x rw cw) w1 (dinv cw) b1 w2 (rowOf (rw e)) j else 0

/-- The kernel's result. -/
def K (g : Fin 256) (o : Fin 2) : EReal :=
  head (poolSum (a2 x rw cw w1 b1 w2) (dinv cw) b2 bt) (cnt bt) wc1 bc1 wc2 bc2 g o

/-! ### The reference's arrangement -/

/-- The per-edge weight. -/
def nrm (e : Fin 1700000) : EReal := dinv cw (rowOf (rw e)) * dinv cw (rowOf (cw e))

/-- Layer 1: the transformed feature gathered, weighted, summed per target, plus the bias, rectified. -/
def h1 (n : Fin 100000) (j : Fin 128) : EReal :=
  max ((0 + ∑ e : Fin 1700000, if hit (cw e) n.val then (∑ _k : Fin 1, x (rowOf (rw e)) * w1 j) * nrm rw cw e else 0) + b1 j) 0

/-- Layer 2 likewise, on the product of layer 1's rows with the layer-2 weights. -/
def h2 (n : Fin 100000) (j : Fin 128) : EReal :=
  max ((0 + ∑ e : Fin 1700000, if hit (cw e) n.val then (∑ k : Fin 128, h1 x rw cw w1 b1 (rowOf (rw e)) k * w2 k j) * nrm rw cw e else 0) + b2 j) 0

/-- The per-graph sums of layer 2's rows: a scatter-add into zeros. -/
def sums (g : Fin 256) (j : Fin 128) : EReal :=
  0 + ∑ n : Fin 100000, if hit (bt n) g.val then h2 x rw cw w1 b1 w2 b2 n j else 0

/-- The reference's result. -/
def R (g : Fin 256) (o : Fin 2) : EReal :=
  head (sums x rw cw bt w1 b1 w2 b2) (cnt bt) wc1 bc1 wc2 bc2 g o

end

end Cert.Gcn

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Val.KHostA.lean ====
import proofs.«409842_j28716151341663_3_alg».proof.Proof.Gen.KernelIdeal.Regions
import proofs.«409842_j28716151341663_3_alg».proof.Proof.Val.SG
import proofs.«409842_j28716151341663_3_alg».proof.Proof.Val.Forms
import proofs.«409842_j28716151341663_3_alg».proof.Proof.LibERealBatchNorm
import Idealize.ShloMosaic.Lib.StableHlo.Run
import Idealize.ShloMosaic.Lib.Pipeline.Value
import Idealize.ShloMosaic.Lib.ValueIdx
import Idealize.ShloMosaic.Lib.ValueLayout

/-!
# The kernel program's first two host stretches, read at an index

Before the first kernel call the host computes, from the edge list `main_arg1` alone, the source words of all
1700000 edges (`main_v3`: row 0 of the edge list, then one self loop per node), their target words (`main_v6`: row 1,
then the self loops), and each node's normaliser `main_v16`: the in-degree as a scatter-add of ones into zeros at the
target words, its reciprocal square root where the degree is positive and zero elsewhere. This module reads those
three buffers, after the stretches have run from ANY buffer contents `W`, at one index, as the closed forms `rowW`,
`colW` and `dinv`.
-/

set_option maxRecDepth 16384

noncomputable section

open scoped BigOperators

namespace Cert.KernelIdeal.Val

open Cert.KernelIdeal Cert.KernelIdeal.Gen Cert.Gcn
open Idealize.ShloMosaic Idealize.ShloMosaic.TcCoe Idealize.ShloMosaic.ValueIdx
open Idealize.SL.Sem
open Idealize.ShloMosaic.StableHlo (after_cons after_nil)

variable (W : Valuation τ sig (Elt Ideal))

/-! ## The three buffers as terms over the edge list -/

section Terms
variable (x1 : S2x1600000.Idx → BitVec 32)

/-- Row 0 of the edge list flattened, then the node numbers. -/
def srcWords : S1700000.Idx → BitVec 32 :=
  concatenate S1700000 0 [⟨S1600000, shapeCast S1600000 (extractStridedSlice S1x1600000 ![0, 0] x1 slices_S2x1600000_S1x1600000_0_0) shapeCasts_S1x1600000_S1600000⟩,
    ⟨S100000, iotaInDim S100000 32 0⟩] concatenates_S1600000_S100000_S1700000_d0

/-- Row 1 of the edge list flattened, then the node numbers. -/
def tgtWords : S1700000.Idx → BitVec 32 :=
  concatenate S1700000 0 [⟨S1600000, shapeCast S1600000 (extractStridedSlice S1x1600000 ![1, 0] x1 slices_S2x1600000_S1x1600000_1_0) shapeCasts_S1x1600000_S1600000⟩,
    ⟨S100000, iotaInDim S100000 32 0⟩] concatenates_S1600000_S100000_S1700000_d0

/-- The scatter-add of a one per edge into zeros, at the target words as a column of index vectors. -/
def degVec : S100000.Idx → EReal :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (tgtWords x1))
    (broadcastInDim S1700000 ![] bcast_S_S1700000 (constant (F := Ideal) S_ .f32 0x3F800000#32))

/-- Where the degree is positive the reciprocal square root of the degree raised to at least one, zero elsewhere. -/
def dinvVec : S100000.Idx → EReal :=
  select (cmpf (F := Ideal) .ogt (degVec x1) (broadcastInDim S100000 ![] bcast_S_S100000 (constant (F := Ideal) S_ .f32 0x00000000#32)))
    (Host.rsqrt (maximumf (degVec x1) (broadcastInDim S100000 ![] bcast_S_S100000 (constant (F := Ideal) S_ .f32 0x3F800000#32))))
    (broadcastInDim S100000 ![] bcast_S_S100000 (id (constant (F := Ideal) S_ .f32 0x00000000#32)))

end Terms

/-! ## The stretches compute those terms -/

theorem after_v3 : (StableHlo.after (hostOps0 (F := Ideal)) W (Proc.devRef .tc main_v3) : S1700000.Idx → BitVec 32)
    = srcWords (W (Proc.devRef .tc main_arg1)) := by
  show StableHlo.after (hostOps0 (F := Ideal)) W (Proc.devRef .tc main_v3) = _
  after_results
  rfl

theorem after_v6 : (StableHlo.after (hostOps0 (F := Ideal)) W (Proc.devRef .tc main_v6) : S1700000.Idx → BitVec 32)
    = tgtWords (W (Proc.devRef .tc main_arg1)) := by
  show StableHlo.after (hostOps0 (F := Ideal)) W (Proc.devRef .tc main_v6) = _
  after_results
  rfl

/-- The second stretch (the outlined selection function) over any contents: the selection between `main_v15` and
    the broadcast copy of `main_cst_3`, by the bits of `main_v12`. -/
theorem after1_v16 (W' : Valuation τ sig (Elt Ideal)) :
    (StableHlo.after (hostOps0_1 (F := Ideal)) W' (Proc.devRef .tc main_v16) : S100000.Idx → EReal)
      = select (W' (Proc.devRef .tc main_v12) : S100000.Idx → BitVec 1) (W' (Proc.devRef .tc main_v15) : S100000.Idx → EReal)
          (broadcastInDim S100000 ![] bcast_S_S100000 (id (W' (Proc.devRef .tc main_cst_3) : S_.Idx → EReal))) := by
  show StableHlo.after (hostOps0_1 (F := Ideal)) W' (Proc.devRef .tc main_v16) = _
  after_results
  simp only [StableHlo.TRef.ofBuf, StableHlo.TRef.toBuf, cast_eq]

theorem after_v12 : (StableHlo.after (hostOps0 (F := Ideal)) W (Proc.devRef .tc main_v12) : S100000.Idx → BitVec 1)
    = cmpf (F := Ideal) .ogt (degVec (W (Proc.devRef .tc main_arg1))) (broadcastInDim S100000 ![] bcast_S_S100000 (constant (F := Ideal) S_ .f32 0x00000000#32)) := by
  show StableHlo.after (hostOps0 (F := Ideal)) W (Proc.devRef .tc main_v12) = _
  after_results
  rfl

theorem after_v15 : (StableHlo.after (hostOps0 (F := Ideal)) W (Proc.devRef .tc main_v15) : S100000.Idx → EReal)
    = Host.rsqrt (maximumf (degVec (W (Proc.devRef .tc main_arg1))) (broadcastInDim S100000 ![] bcast_S_S100000 (constant (F := Ideal) S_ .f32 0x3F800000#32))) := by
  show StableHlo.after (hostOps0 (F := Ideal)) W (Proc.devRef .tc main_v15) = _
  after_results
  rfl

theorem after_cst3 : (StableHlo.after (hostOps0 (F := Ideal)) W (Proc.devRef .tc main_cst_3) : S_.Idx → EReal)
    = constant (F := Ideal) S_ .f32 0x00000000#32 := by
  show StableHlo.after (hostOps0 (F := Ideal)) W (Proc.devRef .tc main_cst_3) = _
  after_results

theorem after_v16 : (StableHlo.after (hostOps0_1 (F := Ideal)) (StableHlo.after (hostOps0 (F := Ideal)) W) (Proc.devRef .tc main_v16) : S100000.Idx → EReal)
    = dinvVec (W (Proc.devRef .tc main_arg1)) := by
  rw [after1_v16, after_v12, after_v15, after_cst3]
  rfl

/-! ## The terms at an index -/

/-- A row of the edge list flattened and followed by the node numbers, at edge `e`: below 1600000 the row's word,
    from there on the node number `e - 1600000`. The slice reads `(r, e)`, the reshape keeps the row-major position,
    the concatenation reads its first piece below the first extent and its second piece, the first extent less, above. -/
theorem edgeWords_apply (x1 : S2x1600000.Idx → BitVec 32) (r : Fin 2) (hs : S2x1600000.Slices ![r.val, 0] S1x1600000) (e : Fin 1700000) :
    concatenate S1700000 0 [⟨S1600000, shapeCast S1600000 (extractStridedSlice S1x1600000 ![r.val, 0] x1 hs) shapeCasts_S1x1600000_S1600000⟩,
      ⟨S100000, iotaInDim S100000 32 0⟩] concatenates_S1600000_S100000_S1700000_d0 (ix1 e)
      = if h : e.val < 1600000 then x1 (ix2 r ⟨e.val, h⟩) else BitVec.ofNat 32 (e.val - 1600000) := by
  by_cases h : e.val < 1600000
  · rw [dif_pos h]
    refine (concatenate_pair_apply_left (0 : Fin S1700000.rank) _ _ concatenates_S1600000_S100000_S1700000_d0 (ix1 e) rfl
      (ix1 ⟨e.val, h⟩) (fun b => match b with | ⟨0, _⟩ => rfl)).trans ?_
    refine (shapeCast_apply _ shapeCasts_S1x1600000_S1600000 (ix1 ⟨e.val, h⟩) (ix2 (0 : Fin 1) ⟨e.val, h⟩)
      (by rewrite [Shape.rowMajor_val_two, Shape.rowMajor_val_one]; show 0 * 1600000 + e.val = e.val; omega)).trans ?_
    exact extractStridedSlice_apply ![r.val, 0] x1 hs (ix2 (0 : Fin 1) ⟨e.val, h⟩) (ix2 r ⟨e.val, h⟩) (fun a => match a with
      | ⟨0, _⟩ => by show r.val = r.val + 0; omega
      | ⟨1, _⟩ => by show e.val = 0 + e.val; omega)
  · rw [dif_neg h]
    have h2 : e.val - 1600000 < 100000 := by have := e.isLt; omega
    refine (concatenate_pair_apply_right (0 : Fin S1700000.rank) _ _ concatenates_S1600000_S100000_S1700000_d0 (ix1 e) rfl rfl
      (ix1 ⟨e.val - 1600000, h2⟩) (fun b hb => absurd (Fin.ext (by show b.val = 0; have hb' : b.val < 1 := b.isLt; omega)) hb)
      (by show (e.val - 1600000) + 1600000 = e.val; omega)).trans ?_
    rfl

theorem srcWords_apply (x1 : S2x1600000.Idx → BitVec 32) (e : Fin 1700000) : srcWords x1 (ix1 e) = rowW x1 e :=
  edgeWords_apply x1 0 slices_S2x1600000_S1x1600000_0_0 e

theorem tgtWords_apply (x1 : S2x1600000.Idx → BitVec 32) (e : Fin 1700000) : tgtWords x1 (ix1 e) = colW x1 e :=
  edgeWords_apply x1 1 slices_S2x1600000_S1x1600000_1_0 e

/-- A constant broadcast to a flat vector, at any index: the constant. -/
theorem bcastConst_apply {t : Shape} (h : S_.BroadcastsInDim t (![] : Fin 0 → Fin t.rank)) (b : BitVec 32) (i : t.Idx) :
    broadcastInDim t ![] h (constant (F := Ideal) S_ .f32 b) i = Ideal.ofBits .f32 b :=
  broadcastInDim_apply _ h _ i ix0 (fun a => a.elim0)

/-- The degree vector at node `n`: the scatter-add read at `n` adds, to the zero it starts from, a one for every edge
    whose target word, read signed, is `n`. -/
theorem degVec_apply (x1 : S2x1600000.Idx → BitVec 32) (n : Fin 100000) : degVec x1 (ix1 n) = deg (colW x1) n := by
  unfold degVec deg
  rw [SG.scatterAdd_deg_k, bcastConst_apply, Cert.ERealBN.ofBits_zero]
  refine congrArg (fun s : EReal => 0 + s) (Finset.sum_congr rfl fun e _ => ?_)
  have hw : broadcastInDim S1700000x1 ![0] bcast_S1700000_S1700000x1_0 (tgtWords x1) (ix2 e 0) = colW x1 e :=
    (broadcastInDim_apply _ bcast_S1700000_S1700000x1_0 (tgtWords x1) (ix2 e 0) (ix1 e) (fun a => match a with
      | ⟨0, _⟩ => by show e.val = if (1700000 : Nat) = 1 then 0 else e.val; rw [if_neg (by decide)])).trans (tgtWords_apply x1 e)
  rw [hw, bcastConst_apply, Cert.ERealBN.ofBits_one, EReal.coe_one]
  by_cases hh : (colW x1 e).toInt = (n.val : ℤ)
  · rw [if_pos hh, if_pos (show hit (colW x1 e) n.val from hh)]
  · rw [if_neg hh, if_neg (show ¬ hit (colW x1 e) n.val from hh)]

/-- The selection, the comparison, the maximum and the host's reciprocal square root act element by element. -/
theorem dinvForm_apply (d z o zz : S100000.Idx → EReal) (i : S100000.Idx) :
    select (cmpf (F := Ideal) (φ := .f32) .ogt d z) (Host.rsqrt (F := Ideal) (φ := .f32) (maximumf (F := Ideal) (φ := .f32) d o)) zz i
      = Scalar.select (Ideal.cmp .ogt (d i) (z i)) (Ideal.rsqrt (max (d i) (o i))) (zz i) := rfl

/-- The normaliser vector at node `n`. The comparison against zero is the one-bit word of `0 < deg`; the selection
    keeps the reciprocal square root where that bit is set and the zero constant where it is clear. -/
theorem dinvVec_apply (x1 : S2x1600000.Idx → BitVec 32) (n : Fin 100000) : dinvVec x1 (ix1 n) = dinv (colW x1) n := by
  unfold dinvVec dinv
  rw [dinvForm_apply]
  show Scalar.select _ _ (broadcastInDim S100000 ![] bcast_S_S100000 (constant (F := Ideal) S_ .f32 0x00000000#32) (ix1 n)) = _
  rw [bcastConst_apply, bcastConst_apply, Cert.ERealBN.ofBits_zero, Cert.ERealBN.ofBits_one, EReal.coe_one, degVec_apply]
  by_cases hpos : 0 < deg (colW x1) n
  · rw [if_pos hpos, show Ideal.cmp .ogt (deg (colW x1) n) 0 = 1#1 from by simp [Ideal.cmp, hpos], select_one]
  · rw [if_neg hpos, show Ideal.cmp .ogt (deg (colW x1) n) 0 = 0#1 from by simp [Ideal.cmp, hpos], select_zero]

/-! ## The three buffers at an index -/

/-- The source words: `main_v3` after the first stretch, at edge `e`. -/
theorem hostA_v3 (e : Fin 1700000) :
    (StableHlo.after (hostOps0 (F := Ideal)) W (Proc.devRef .tc main_v3) : S1700000.Idx → BitVec 32) (ix1 e)
      = rowW (W (Proc.devRef .tc main_arg1)) e := by
  rw [after_v3]; exact srcWords_apply _ e

/-- The target words: `main_v6` after the first stretch, at edge `e`. -/
theorem hostA_v6 (e : Fin 1700000) :
    (StableHlo.after (hostOps0 (F := Ideal)) W (Proc.devRef .tc main_v6) : S1700000.Idx → BitVec 32) (ix1 e)
      = colW (W (Proc.devRef .tc main_arg1)) e := by
  rw [after_v6]; exact tgtWords_apply _ e

/-- The normaliser: `main_v16` after the first two stretches, at node `n`. -/
theorem hostA_v16 (n : Fin 100000) :
    (StableHlo.after (hostOps0_1 (F := Ideal)) (StableHlo.after (hostOps0 (F := Ideal)) W) (Proc.devRef .tc main_v16) : S100000.Idx → EReal) (ix1 n)
      = dinv (colW (W (Proc.devRef .tc main_arg1))) n := by
  rw [after_v16]; exact dinvVec_apply _ n

/-- A buffer no operation of the first stretch writes keeps its contents through it. -/
theorem hostA_keep1 (b : Ref sig .tc) (h : b ∉ hostOps0_W) :
    StableHlo.after (hostOps0 (F := Ideal)) W (Proc.devRef .tc b) = W (Proc.devRef .tc b) :=
  StableHlo.after_of_writes_sub hostOps0 W hostOps0_writes h

/-- A buffer no operation of the second stretch writes keeps its contents through it. -/
theorem hostA_keep2 (W' : Valuation τ sig (Elt Ideal)) (b : Ref sig .tc) (h : b ∉ hostOps0_1_W) :
    StableHlo.after (hostOps0_1 (F := Ideal)) W' (Proc.devRef .tc b) = W' (Proc.devRef .tc b) :=
  StableHlo.after_of_writes_sub hostOps0_1 W' hostOps0_1_writes h

end Cert.KernelIdeal.Val

end
-- ==== Proof.Val.KHostB.lean ====
/-
  What the kernel program's host operations between its two fused stretches leave in their result arrays,
  index by index, at the ideal values, from ANY contents `W` of the arrays before them.

  The stretch moves the negative source words up by the number of nodes, gathers the rows of the first fused
  stretch's result at those words, and scatter-adds them into zeros at the target words: layer 2's aggregate.
  An array the stretch does not write keeps its contents.
-/
import proofs.«409842_j28716151341663_3_alg».proof.Proof.Gen.KernelIdeal.Regions
import proofs.«409842_j28716151341663_3_alg».proof.Proof.Val.SG
import proofs.«409842_j28716151341663_3_alg».proof.Proof.Val.Forms
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
noncomputable section
open scoped BigOperators
open Idealize.ShloMosaic Idealize.ShloMosaic.TcCoe Idealize.ShloMosaic.ValueIdx
namespace Cert.KernelIdeal.Val
open Cert.KernelIdeal Cert.KernelIdeal.Gen Cert.Gcn

/-! ## The stages, each read at an index -/

/-- A vector laid out as a one-column matrix reads, at `(e, 0)`, its element `e`. -/
theorem bcastcol_apply {α : Type} {E : ℕ} (h : (⟨1, ![E]⟩ : Shape).BroadcastsInDim ⟨2, ![E, 1]⟩ ![0])
    (x : (⟨1, ![E]⟩ : Shape).Idx → α) (e : Fin E) (z : Fin 1) :
    broadcastInDim ⟨2, ![E, 1]⟩ ![0] h x (ix2 e z) = x (ix1 e) := by
  refine broadcastInDim_apply ![0] h x (ix2 e z) (ix1 e) fun a => ?_
  match a with
  | ⟨0, _⟩ =>
    show e.val = if E = 1 then 0 else e.val
    split
    · have := e.isLt; omega
    · rfl

/-- The index words with the negative ones moved up by the number of nodes, read at `i`: `normW` of the word. -/
theorem normW_stage (w : IVec S1700000 32) (h0 h1 : S_.BroadcastsInDim S1700000 ![]) (i : S1700000.Idx) :
    select (cmpi .slt w (broadcastInDim S1700000 ![] h0 (constantI S_ 32 0#32)))
        (addi w (broadcastInDim S1700000 ![] h1 (constantI S_ 32 100000#32))) w i = normW (w i) := by
  show (if BitVec.ofBool ((w i).slt 0#32) = 1#1 then w i + 100000#32 else w i) = normW (w i)
  unfold normW
  generalize (w i).slt 0#32 = b
  cases b <;> rfl

/-- Layer 2's aggregate as a function of the three arrays it reads: the source words `w3`, the target words `w6`
    and the rows `x`. Negative source words are moved up by the number of nodes, the rows at the source words are
    gathered and widened, and the gathered rows are scatter-added into zeros at the target words. -/
def agg2 (w3 w6 : (⟨S1700000, .i32⟩ : BufTy).Contents (Elt Ideal)) (x : (⟨S100000x128, .bf16⟩ : BufTy).Contents (Elt Ideal)) :
    (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 w6)
    (extf (F := Ideal) .f32
      (Host.gather gather_S100000x128_S1700000x1_S1700000x128_1_0_n_n_0_1_1128 x
        (broadcastInDim S1700000x1 ![0] bcast_S1700000_S1700000x1_0
          (select (cmpi .slt w3 (broadcastInDim S1700000 ![] bcast_S_S1700000 (constantI S_ 32 0#32)))
            (addi w3 (broadcastInDim S1700000 ![] bcast_S_S1700000 (constantI S_ 32 100000#32))) w3)))
      bitsLt_bf16_f32)

/-- `agg2` read at `(n, j)`. -/
theorem agg2_apply (w3 w6 : (⟨S1700000, .i32⟩ : BufTy).Contents (Elt Ideal)) (x : (⟨S100000x128, .bf16⟩ : BufTy).Contents (Elt Ideal))
    (n : Fin 100000) (j : Fin 128) :
    (agg2 w3 w6 x : S100000x128.Idx → EReal) (ix2 n j)
      = (0 : EReal) + ∑ e : Fin 1700000, ((if hit ((w6 : S1700000.Idx → BitVec 32) (ix1 e)) n.val
          then (x : S100000x128.Idx → EReal) (ix2 (rowOf ((w3 : S1700000.Idx → BitVec 32) (ix1 e))) j) else 0) : EReal) := by
  unfold agg2
  rw [Cert.Gcn.SG.scatterAdd_rows128_k]
  refine congrArg₂ (fun a s : EReal => a + s) Ideal.ofBits_zero_f32 (Finset.sum_congr rfl fun e _ => ?_)
  rw [bcastcol_apply]
  refine if_congr Iff.rfl ?_ rfl
  rw [extf_apply, Cert.Gcn.SG.gather_rows128_k]
  refine congrArg (fun r : Fin 100000 => (x : S100000x128.Idx → EReal) (ix2 r j)) (Fin.ext ?_)
  rw [Fin.val_mk, bcastcol_apply, normW_stage]
  rfl

variable (W : Valuation τ sig (Elt Ideal))

set_option maxHeartbeats 4000000 in
/-- The array after the stretch is `agg2` of the three arrays before it. -/
theorem after_v41 :
    (StableHlo.after (hostOps1 (F := Ideal)) W (Proc.devRef .tc main_v41) : S100000x128.Idx → EReal)
      = agg2 (W (Proc.devRef .tc main_v3)) (W (Proc.devRef .tc main_v6)) (W (Proc.devRef .tc main_v30)) := by
  show StableHlo.after (hostOps1 (F := Ideal)) W (Proc.devRef .tc main_v41) = _
  after_results; rfl

/-- Layer 2's aggregate: rows gathered at the moved-up source words, scatter-added into zeros at the target words. -/
theorem after1_v41 (n : Fin 100000) (j : Fin 128) :
    (StableHlo.after (hostOps1 (F := Ideal)) W (Proc.devRef .tc main_v41) : S100000x128.Idx → EReal) (ix2 n j)
      = (0 : EReal) + ∑ e : Fin 1700000, ((if hit ((W (Proc.devRef .tc main_v6) : S1700000.Idx → BitVec 32) (ix1 e)) n.val
          then (W (Proc.devRef .tc main_v30) : S100000x128.Idx → EReal)
            (ix2 (rowOf ((W (Proc.devRef .tc main_v3) : S1700000.Idx → BitVec 32) (ix1 e))) j) else 0) : EReal) := by
  rw [after_v41]; exact agg2_apply _ _ _ n j

/-- An array none of these operations writes keeps its contents. -/
theorem after1_keep (b : Ref sig .tc) (h : b ∉ hostOps1_W) :
    StableHlo.after (hostOps1 (F := Ideal)) W (Proc.devRef .tc b) = W (Proc.devRef .tc b) :=
  StableHlo.after_of_writes_sub hostOps1 _ hostOps1_writes h

end Cert.KernelIdeal.Val

end
-- ==== Proof.Val.KHostB2.lean ====
import proofs.«409842_j28716151341663_3_alg».proof.Proof.Gen.KernelIdeal.Regions
import proofs.«409842_j28716151341663_3_alg».proof.Proof.Val.SG
import proofs.«409842_j28716151341663_3_alg».proof.Proof.Val.Forms
import proofs.«409842_j28716151341663_3_alg».proof.Proof.LibERealBatchNorm
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# The kernel program's fourth host stretch: the five small buffers the second kernel call takes

Between the two kernel calls the host prepares, beside the large aggregate, five small operands of the second call:
the number of nodes of each of the 256 graphs, at least one (`main_v48`: a scatter-add of a one per node into zeros at
the node's graph word `main_arg2`, raised to at least one, as a column), the graph words as a column (`main_v49`), and
the three bias vectors `main_arg6`, `main_arg8`, `main_arg10` as rows (`main_v50`, `main_v51`, `main_v52`). This module
reads those five buffers, after the stretch has run from ANY buffer contents `W`, at one index.
-/

set_option maxRecDepth 16384

noncomputable section

open scoped BigOperators

namespace Cert.KernelIdeal.Val

open Cert.KernelIdeal Cert.KernelIdeal.Gen Cert.Gcn
open Idealize.ShloMosaic Idealize.ShloMosaic.TcCoe Idealize.ShloMosaic.ValueIdx
open Idealize.SL.Sem
open Idealize.ShloMosaic.StableHlo (after_cons after_nil)

variable (W : Valuation τ sig (Elt Ideal))

/-! ## The buffers as terms over the arguments -/

section Terms
variable (x2 : S100000.Idx → BitVec 32)

/-- The scatter-add of a one per node into zeros at the node's graph word, raised to at least one. -/
def cntVec : S256.Idx → EReal :=
  maximumf (F := Ideal) (φ := .f32)
    (Host.scatterAdd (F := Ideal) scatter_S256_S100000x1_S100000_n_0_0_1
      (broadcastInDim S256 ![] bcast_S_S256 (constant (F := Ideal) S_ .f32 0x00000000#32))
      (broadcastInDim S100000x1 ![0] bcast_S100000_S100000x1_0 x2)
      (broadcastInDim S100000 ![] bcast_S_S100000 (constant (F := Ideal) S_ .f32 0x3F800000#32)))
    (broadcastInDim S256 ![] bcast_S_S256 (constant (F := Ideal) S_ .f32 0x3F800000#32))

/-- The same as a column. -/
def cntCol : S256x1.Idx → EReal := shapeCast S256x1 (cntVec x2) shapeCasts_S256_S256x1

end Terms

/-! ## The stretch computes those terms -/

theorem afterB_v48 : (StableHlo.after (hostOps1 (F := Ideal)) W (Proc.devRef .tc main_v48) : S256x1.Idx → EReal)
    = cntCol (W (Proc.devRef .tc main_arg2)) := by
  show StableHlo.after (hostOps1 (F := Ideal)) W (Proc.devRef .tc main_v48) = _
  after_results
  rfl

theorem afterB_v49 : (StableHlo.after (hostOps1 (F := Ideal)) W (Proc.devRef .tc main_v49) : S100000x1.Idx → BitVec 32)
    = shapeCast S100000x1 (W (Proc.devRef .tc main_arg2) : S100000.Idx → BitVec 32) shapeCasts_S100000_S100000x1 := by
  show StableHlo.after (hostOps1 (F := Ideal)) W (Proc.devRef .tc main_v49) = _
  after_results
  rfl

theorem afterB_v50 : (StableHlo.after (hostOps1 (F := Ideal)) W (Proc.devRef .tc main_v50) : S1x128.Idx → EReal)
    = shapeCast S1x128 (W (Proc.devRef .tc main_arg6) : S128.Idx → EReal) shapeCasts_S128_S1x128 := by
  show StableHlo.after (hostOps1 (F := Ideal)) W (Proc.devRef .tc main_v50) = _
  after_results
  rfl

theorem afterB_v51 : (StableHlo.after (hostOps1 (F := Ideal)) W (Proc.devRef .tc main_v51) : S1x32.Idx → EReal)
    = shapeCast S1x32 (W (Proc.devRef .tc main_arg8) : S32.Idx → EReal) shapeCasts_S32_S1x32 := by
  show StableHlo.after (hostOps1 (F := Ideal)) W (Proc.devRef .tc main_v51) = _
  after_results
  rfl

theorem afterB_v52 : (StableHlo.after (hostOps1 (F := Ideal)) W (Proc.devRef .tc main_v52) : S1x2.Idx → EReal)
    = shapeCast S1x2 (W (Proc.devRef .tc main_arg10) : S2.Idx → EReal) shapeCasts_S2_S1x2 := by
  show StableHlo.after (hostOps1 (F := Ideal)) W (Proc.devRef .tc main_v52) = _
  after_results
  rfl

/-! ## The terms at an index -/

/-- A vector cast to a column reads, at `(i, u)`, the vector at `i`: the two row-major positions are `i` and `i · 1 + u`
    with `u = 0`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A constant broadcast to a flat vector, at any index: the constant. -/
theorem bcastConstB_apply {t : Shape} (h : S_.BroadcastsInDim t (![] : Fin 0 → Fin t.rank)) (b : BitVec 32) (i : t.Idx) :
    broadcastInDim t ![] h (constant (F := Ideal) S_ .f32 b) i = Ideal.ofBits .f32 b :=
  broadcastInDim_apply _ h _ i ix0 (fun a => a.elim0)

/-- The maximum acts element by element. -/
theorem maxForm_apply (d o : S256.Idx → EReal) (i : S256.Idx) :
    maximumf (F := Ideal) (φ := .f32) d o i = max (d i) (o i) := rfl

/-- The graph sizes at graph `g`: the scatter-add read at `g` adds, to the zero it starts from, a one for every node
    whose graph word, read signed, is `g`; the maximum with one follows. -/
theorem cntVec_apply (x2 : S100000.Idx → BitVec 32) (g : Fin 256) : cntVec x2 (ix1 g) = cnt (fun n => x2 (ix1 n)) g := by
  unfold cntVec cnt
  rw [maxForm_apply, SG.scatterAdd_cnt_k, bcastConstB_apply, bcastConstB_apply, Cert.ERealBN.ofBits_zero, Cert.ERealBN.ofBits_one,
    EReal.coe_one]
  refine congrArg (fun s : EReal => max (0 + s) 1) (Finset.sum_congr rfl fun n _ => ?_)
  have hw : broadcastInDim S100000x1 ![0] bcast_S100000_S100000x1_0 x2 (ix2 n 0) = x2 (ix1 n) :=
    broadcastInDim_apply _ bcast_S100000_S100000x1_0 x2 (ix2 n 0) (ix1 n) (fun a => match a with
      | ⟨0, _⟩ => by show n.val = if (100000 : Nat) = 1 then 0 else n.val; rw [if_neg (by decide)])
  rw [hw, bcastConstB_apply, Cert.ERealBN.ofBits_one, EReal.coe_one]
  by_cases hh : (x2 (ix1 n)).toInt = (g.val : ℤ)
  · rw [if_pos hh, if_pos (show hit (x2 (ix1 n)) g.val from hh)]
  · rw [if_neg hh, if_neg (show ¬ hit (x2 (ix1 n)) g.val from hh)]

theorem cntCol_apply (x2 : S100000.Idx → BitVec 32) (g : Fin 256) : cntCol x2 (ix2 g 0) = cnt (fun n => x2 (ix1 n)) g := by
  unfold cntCol
  exact (shapeCast_a_a1_apply (cntVec x2) shapeCasts_S256_S256x1 g 0).trans (cntVec_apply x2 g)

/-! ## The five buffers at an index -/

/-- The graph sizes: `main_v48` after the stretch, at graph `g`. -/
theorem after1_v48 (g : Fin 256) :
    (StableHlo.after (hostOps1 (F := Ideal)) W (Proc.devRef .tc main_v48) : S256x1.Idx → EReal) (ix2 g 0)
      = cnt (fun n => (W (Proc.devRef .tc main_arg2) : S100000.Idx → BitVec 32) (ix1 n)) g := by
  rw [afterB_v48]; exact cntCol_apply _ g

/-- The graph words as a column: `main_v49` after the stretch, at node `n`. -/
theorem after1_v49 (n : Fin 100000) :
    (StableHlo.after (hostOps1 (F := Ideal)) W (Proc.devRef .tc main_v49) : S100000x1.Idx → BitVec 32) (ix2 n 0)
      = (W (Proc.devRef .tc main_arg2) : S100000.Idx → BitVec 32) (ix1 n) := by
  rw [afterB_v49]; exact shapeCast_a_a1_apply _ shapeCasts_S100000_S100000x1 n 0

/-- The second layer's bias as a row: `main_v50` after the stretch, at column `j`. -/
theorem after1_v50 (j : Fin 128) :
    (StableHlo.after (hostOps1 (F := Ideal)) W (Proc.devRef .tc main_v50) : S1x128.Idx → EReal) (ix2 0 j)
      = (W (Proc.devRef .tc main_arg6) : S128.Idx → EReal) (ix1 j) := by
  rw [afterB_v50]; exact shapeCast_a_1a_apply _ shapeCasts_S128_S1x128 0 j

/-- The classifier's first bias as a row: `main_v51` after the stretch, at column `q`. -/
theorem after1_v51 (q : Fin 32) :
    (StableHlo.after (hostOps1 (F := Ideal)) W (Proc.devRef .tc main_v51) : S1x32.Idx → EReal) (ix2 0 q)
      = (W (Proc.devRef .tc main_arg8) : S32.Idx → EReal) (ix1 q) := by
  rw [afterB_v51]; exact shapeCast_a_1a_apply _ shapeCasts_S32_S1x32 0 q

/-- The classifier's second bias as a row: `main_v52` after the stretch, at column `o`. -/
theorem after1_v52 (o : Fin 2) :
    (StableHlo.after (hostOps1 (F := Ideal)) W (Proc.devRef .tc main_v52) : S1x2.Idx → EReal) (ix2 0 o)
      = (W (Proc.devRef .tc main_arg10) : S2.Idx → EReal) (ix1 o) := by
  rw [afterB_v52]; exact shapeCast_a_1a_apply _ shapeCasts_S2_S1x2 0 o

end Cert.KernelIdeal.Val

end
-- ==== Proof.Val.KHost.lean ====
import proofs.«409842_j28716151341663_3_alg».proof.Proof.KI.Run
import proofs.«409842_j28716151341663_3_alg».proof.Proof.Val.R0Val
import proofs.«409842_j28716151341663_3_alg».proof.Proof.Val.R1Val
import proofs.«409842_j28716151341663_3_alg».proof.Proof.Val.SG
import proofs.«409842_j28716151341663_3_alg».proof.Proof.Val.Forms
import proofs.«409842_j28716151341663_3_alg».proof.Proof.Val.KHostA
import proofs.«409842_j28716151341663_3_alg».proof.Proof.Val.KHostB
import proofs.«409842_j28716151341663_3_alg».proof.Proof.Val.KHostB2
import proofs.«409842_j28716151341663_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

/-!
# The kernel program's result as a function of its arguments

@main is three stretches of host operations, the first fused region, a fourth stretch of host operations and the
second fused region. This module reads the third stretch at an index (the normaliser as a column, the layer-1
aggregate as a scatter-add of gathered rows, the layer-1 bias as a row), and then joins the readings of all four
stretches with the two regions' results: the program's result array, at graph `g` and class `o`, is the value
`Cert.Gcn.K` of the argument arrays.
-/

noncomputable section

open scoped BigOperators
open Idealize.ShloMosaic Idealize.ShloMosaic.TcCoe Idealize.ShloMosaic.ValueIdx

namespace Cert.KernelIdeal.Val

open Cert.KernelIdeal Cert.KernelIdeal.Gen Cert.KernelIdeal.Hand
open Cert.Gcn (hit normW clampN rowOf rowW colW deg dinv cnt a1 a2 hs2)

variable [Cert.KernelIdeal.Facts]

variable (V : Valuation τ sig (Elt Ideal))

/-! ## Small readings at an index -/

/-- A vector broadcast along a new trailing unit axis reads, at row `e`, its element `e`. -/
theorem k3_bcastCol {N : ℕ} {α : Type} (h : (⟨1, ![N]⟩ : Shape).BroadcastsInDim ⟨2, ![N, 1]⟩ ![0])
    (v : (⟨1, ![N]⟩ : Shape).Idx → α) (e : Fin N) (j : Fin 1) :
    broadcastInDim ⟨2, ![N, 1]⟩ ![0] h v (ix2 e j) = v (ix1 e) := by
  refine broadcastInDim_apply _ h v (ix2 e j) (ix1 e) (fun a => ?_)
  match a with
  | ⟨0, _⟩ =>
    show e.val = if N = 1 then 0 else e.val
    have := e.isLt
    split <;> omega

/-- A vector cast to a one-column matrix reads, at row `n`, its element `n`. -/
theorem k3_shapeCast_a_a1 {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The index word moved up by the number of nodes when negative: the compare, the add and the select at one word. -/
theorem k3_normW_eq (w : BitVec 32) :
    Scalar.select (IntOp.cmpi .slt w 0#32) (IntOp.addi w 100000#32) w = normW w := by
  unfold normW Scalar.select IntOp.cmpi IntOp.addi
  cases h : w.slt 0#32 <;> simp [h]

/-! ## The third stretch of host operations, from any contents `V` -/

/-- The normaliser as a one-column matrix. -/
theorem host3_v17 (n : Fin 100000) :
    (StableHlo.after (hostOps0_2 (F := Ideal)) V (Proc.devRef .tc main_v17) : S100000x1.Idx → EReal) (ix2 n 0)
      = (V (Proc.devRef .tc main_v16) : S100000.Idx → EReal) (ix1 n) := by
  have h : (StableHlo.after (hostOps0_2 (F := Ideal)) V (Proc.devRef .tc main_v17) : S100000x1.Idx → EReal)
      = shapeCast S100000x1 (V (Proc.devRef .tc main_v16) : S100000.Idx → EReal) Gen.shapeCasts_S100000_S100000x1 := by
    after_results; rfl
  rw [h]
  exact k3_shapeCast_a_a1 _ _ n 0

/-- The layer-1 bias as a one-row matrix. -/
theorem host3_v29 (k : Fin 128) :
    (StableHlo.after (hostOps0_2 (F := Ideal)) V (Proc.devRef .tc main_v29) : S1x128.Idx → EReal) (ix2 0 k)
      = (V (Proc.devRef .tc main_arg4) : S128.Idx → EReal) (ix1 k) := by
  have h : (StableHlo.after (hostOps0_2 (F := Ideal)) V (Proc.devRef .tc main_v29) : S1x128.Idx → EReal)
      = shapeCast S1x128 (V (Proc.devRef .tc main_arg4) : S128.Idx → EReal) Gen.shapeCasts_S128_S1x128 := by
    after_results; rfl
  rw [h]
  exact shapeCast_a_1a_apply _ _ 0 k

/-- The index words after the wrap of negative ones: compare with zero, add the number of nodes, select. -/
def k3_normT (w : S1700000.Idx → BitVec 32) : S1700000.Idx → BitVec 32 :=
  select (cmpi .slt w (broadcastInDim S1700000 ![] Gen.bcast_S_S1700000 (constantI S_ 32 0#32)))
    (addi w (broadcastInDim S1700000 ![] Gen.bcast_S_S1700000 (constantI S_ 32 100000#32))) w

theorem k3_normT_apply (w : S1700000.Idx → BitVec 32) (e : Fin 1700000) : k3_normT w (ix1 e) = normW (w (ix1 e)) := by
  unfold k3_normT
  rw [select_apply]
  show Scalar.select (IntOp.cmpi .slt (w (ix1 e)) (broadcastInDim S1700000 ![] Gen.bcast_S_S1700000 (constantI S_ 32 0#32) (ix1 e)))
    (IntOp.addi (w (ix1 e)) (broadcastInDim S1700000 ![] Gen.bcast_S_S1700000 (constantI S_ 32 100000#32) (ix1 e))) (w (ix1 e)) = _
  rw [broadcastInDim_scalar_apply, broadcastInDim_scalar_apply, constantI_apply, constantI_apply]
  exact k3_normW_eq _

/-- The one-column gather at edge `e`, given the edge's index word: the row the word names, read signed and clamped. -/
theorem k3_gather1 {α : Type} (x : S100000x1.Idx → α) (idx : IVec S1700000x1 32) (e : Fin 1700000) (w : BitVec 32)
    (hw : idx (ix2 e 0) = w) :
    Host.gather gather_S100000x1_S1700000x1_S1700000x1_1_0_n_n_0_1_11 x idx (ix2 e 0) = x (ix2 (clampN w) 0) := by
  subst hw; exact Cert.Gcn.SG.gather_rows1_k x idx e 0

/-- A one-column array `x` scaled by `dv`, gathered at the rows the source words `rw` name and added up at the rows the
    target words `cw` name. -/
def k_agg1 (cw rw : Fin 1700000 → BitVec 32) (x dv : Fin 100000 → EReal) (n : Fin 100000) : EReal :=
  0 + ∑ e : Fin 1700000, if hit (cw e) n.val then x (rowOf (rw e)) * dv (rowOf (rw e)) else 0

theorem k_agg1_congr {cw cw' rw rw' : Fin 1700000 → BitVec 32} {x x' dv dv' : Fin 100000 → EReal}
    (h1 : cw = cw') (h2 : rw = rw') (h3 : x = x') (h4 : dv = dv') (n : Fin 100000) :
    k_agg1 cw rw x dv n = k_agg1 cw' rw' x' dv' n := by
  subst h1 h2 h3 h4; rfl

/-- The kernel's layer-1 aggregate is this sum at the normaliser `dinv`. -/
theorem k_a1_eq_agg1 (x : Fin 100000 → EReal) (rw cw : Fin 1700000 → BitVec 32) (n : Fin 100000) :
    a1 x rw cw n = k_agg1 cw rw x (dinv cw) n := rfl

/-- The scatter-add of the gathered, scaled column read at row `n`. -/
theorem k3_tail28 (v6 v3 : S1700000.Idx → BitVec 32) (a0 : S100000x1.Idx → EReal) (v16 : S100000.Idx → EReal) (n : Fin 100000) :
    Host.scatterAdd (F := Ideal) (φ := .f32) scatter_S100000x1_S1700000x1_S1700000x1_1_0_0_1
          (broadcastInDim S100000x1 ![] Gen.bcast_S_S100000x1 (constant (F := Ideal) S_ .f32 0x00000000#32))
          (broadcastInDim S1700000x1 ![0] Gen.bcast_S1700000_S1700000x1_0 v6)
          (Host.gather gather_S100000x1_S1700000x1_S1700000x1_1_0_n_n_0_1_11
            (mulf (F := Ideal) (φ := .f32) a0 (shapeCast S100000x1 v16 Gen.shapeCasts_S100000_S100000x1))
            (broadcastInDim S1700000x1 ![0] Gen.bcast_S1700000_S1700000x1_0 (k3_normT v3))) (ix2 n 0)
      = k_agg1 (fun e => v6 (ix1 e)) (fun e => v3 (ix1 e)) (fun r => a0 (ix2 r 0)) (fun r => v16 (ix1 r)) n := by
  have s1 := Cert.Gcn.SG.scatterAdd_rows1_k (φ := .f32) (broadcastInDim S100000x1 ![] Gen.bcast_S_S100000x1 (constant (F := Ideal) S_ .f32 0x00000000#32))
          (broadcastInDim S1700000x1 ![0] Gen.bcast_S1700000_S1700000x1_0 v6)
          (Host.gather gather_S100000x1_S1700000x1_S1700000x1_1_0_n_n_0_1_11
            (mulf (F := Ideal) (φ := .f32) a0 (shapeCast S100000x1 v16 Gen.shapeCasts_S100000_S100000x1))
            (broadcastInDim S1700000x1 ![0] Gen.bcast_S1700000_S1700000x1_0 (k3_normT v3))) n 0
  refine s1.trans ?_
  unfold k_agg1
  refine congrArg₂ (· + ·) ?_ ?_
  · rw [broadcastInDim_scalar_apply, constant_apply, Ideal.ofBits_zero_f32]
  · refine Finset.sum_congr rfl fun e _ => ?_
    rw [k3_bcastCol, k3_gather1 _ _ e (normW (v3 (ix1 e))) ((k3_bcastCol _ _ e 0).trans (k3_normT_apply v3 e)), mulf_apply,
      k3_shapeCast_a_a1]
    exact if_congr Iff.rfl rfl rfl

set_option maxHeartbeats 1600000 in
/-- Layer 1's aggregate: the scaled feature gathered at the source rows and added up at the target rows. -/
theorem host3_v28 (n : Fin 100000) :
    (StableHlo.after (hostOps0_2 (F := Ideal)) V (Proc.devRef .tc main_v28) : S100000x1.Idx → EReal) (ix2 n 0)
      = k_agg1 (fun e => (V (Proc.devRef .tc main_v6) : S1700000.Idx → BitVec 32) (ix1 e))
          (fun e => (V (Proc.devRef .tc main_v3) : S1700000.Idx → BitVec 32) (ix1 e))
          (fun r => (V (Proc.devRef .tc main_arg0) : S100000x1.Idx → EReal) (ix2 r 0))
          (fun r => (V (Proc.devRef .tc main_v16) : S100000.Idx → EReal) (ix1 r)) n := by
  have h : (StableHlo.after (hostOps0_2 (F := Ideal)) V (Proc.devRef .tc main_v28) : S100000x1.Idx → EReal)
      = Host.scatterAdd (F := Ideal) (φ := .f32) scatter_S100000x1_S1700000x1_S1700000x1_1_0_0_1
          (broadcastInDim S100000x1 ![] Gen.bcast_S_S100000x1 (constant (F := Ideal) S_ .f32 0x00000000#32))
          (broadcastInDim S1700000x1 ![0] Gen.bcast_S1700000_S1700000x1_0 (V (Proc.devRef .tc main_v6) : S1700000.Idx → BitVec 32))
          (Host.gather gather_S100000x1_S1700000x1_S1700000x1_1_0_n_n_0_1_11
            (mulf (F := Ideal) (φ := .f32) (V (Proc.devRef .tc main_arg0) : S100000x1.Idx → EReal)
              (shapeCast S100000x1 (V (Proc.devRef .tc main_v16) : S100000.Idx → EReal) Gen.shapeCasts_S100000_S100000x1))
            (broadcastInDim S1700000x1 ![0] Gen.bcast_S1700000_S1700000x1_0 (k3_normT (V (Proc.devRef .tc main_v3) : S1700000.Idx → BitVec 32)))) := by
    after_results; rfl
  exact (congrFun h (ix2 n 0)).trans (k3_tail28 _ _ _ _ n)

/-- A buffer the third stretch does not write keeps its contents. -/
theorem host3_keep (b : Ref sig .tc) (h : b ∉ hostOps0_2_W) :
    StableHlo.after (hostOps0_2 (F := Ideal)) V (Proc.devRef .tc b) = V (Proc.devRef .tc b) :=
  StableHlo.after_of_writes_sub hostOps0_2 _ hostOps0_2_writes h

/-! ## The fold read at the buffers the regions and the last stretch use -/

section Compose

variable (m : (ℓ : Loc nD τ sig) → Buf (Elt Ideal) ℓ) (c : Dev nD)

/-- A buffer none of the first two stretches writes holds its launch contents after them. -/
theorem W2_arg (b : Ref sig .tc) (h0 : b ∉ hostOps0_W) (h1 : b ∉ hostOps0_1_W) :
    W2 m c (Proc.devRef .tc b) = m ((c.tc : Thread nD τ).loc b) :=
  (W2_of m c b h1).trans <| (W1_of m c b h0).trans rfl

/-- A buffer none of the first three stretches writes holds its launch contents when the first region is entered. -/
theorem W3_arg (b : Ref sig .tc) (h0 : b ∉ hostOps0_W) (h1 : b ∉ hostOps0_1_W) (h2 : b ∉ hostOps0_2_W) :
    W3 m c (Proc.devRef .tc b) = m ((c.tc : Thread nD τ).loc b) :=
  (W3_of m c b h2).trans (W2_arg m c b h0 h1)

/-- And at the first region's exit, when it is none of the region's arrays. -/
theorem W4_arg (b : Ref sig .tc) (h0 : b ∉ hostOps0_W) (h1 : b ∉ hostOps0_1_W) (h2 : b ∉ hostOps0_2_W)
    (h3 : ∀ w, Pipeline.arrRef spec0 w ≠ b) :
    W4 m c (Proc.devRef .tc b) = m ((c.tc : Thread nD τ).loc b) :=
  (W4_of_ne m c b h3).trans (W3_arg m c b h0 h1 h2)

/-- And when the second region is entered, when the fourth stretch does not write it either. -/
theorem W5_arg (b : Ref sig .tc) (h0 : b ∉ hostOps0_W) (h1 : b ∉ hostOps0_1_W) (h2 : b ∉ hostOps0_2_W)
    (h3 : ∀ w, Pipeline.arrRef spec0 w ≠ b) (h4 : b ∉ hostOps1_W) :
    W5 m c (Proc.devRef .tc b) = m ((c.tc : Thread nD τ).loc b) :=
  (W5_of m c b h4).trans (W4_arg m c b h0 h1 h2 h3)

/-- The source words after the second stretch. -/
theorem W2_v3 (e : Fin 1700000) :
    (W2 m c (Proc.devRef .tc main_v3) : S1700000.Idx → BitVec 32) (ix1 e) = rowW (m ((c.tc : Thread nD τ).loc main_arg1)) e :=
  (congrFun (W2_of m c main_v3 (by decide)) (ix1 e)).trans (hostA_v3 (W0 m c) e)

/-- The target words after the second stretch. -/
theorem W2_v6 (e : Fin 1700000) :
    (W2 m c (Proc.devRef .tc main_v6) : S1700000.Idx → BitVec 32) (ix1 e) = colW (m ((c.tc : Thread nD τ).loc main_arg1)) e :=
  (congrFun (W2_of m c main_v6 (by decide)) (ix1 e)).trans (hostA_v6 (W0 m c) e)

/-- The normaliser after the second stretch. -/
theorem W2_v16 (n : Fin 100000) :
    (W2 m c (Proc.devRef .tc main_v16) : S100000.Idx → EReal) (ix1 n) = dinv (colW (m ((c.tc : Thread nD τ).loc main_arg1))) n :=
  hostA_v16 (W0 m c) n

/-- The words pass the third stretch and the first region unchanged. -/
theorem W4_v3 (e : Fin 1700000) :
    (W4 m c (Proc.devRef .tc main_v3) : S1700000.Idx → BitVec 32) (ix1 e) = rowW (m ((c.tc : Thread nD τ).loc main_arg1)) e :=
  (congrFun ((W4_of_ne m c main_v3 (by decide)).trans (W3_of m c main_v3 (by decide))) (ix1 e)).trans (W2_v3 m c e)

theorem W4_v6 (e : Fin 1700000) :
    (W4 m c (Proc.devRef .tc main_v6) : S1700000.Idx → BitVec 32) (ix1 e) = colW (m ((c.tc : Thread nD τ).loc main_arg1)) e :=
  (congrFun ((W4_of_ne m c main_v6 (by decide)).trans (W3_of m c main_v6 (by decide))) (ix1 e)).trans (W2_v6 m c e)

/-- The layer-1 aggregate the first region reads is `a1` of the arguments. -/
theorem W3_v28 (n : Fin 100000) :
    (W3 m c (Proc.devRef .tc main_v28) : S100000x1.Idx → EReal) (ix2 n 0)
      = a1 (fun n => (m ((c.tc : Thread nD τ).loc main_arg0) : S100000x1.Idx → EReal) (ix2 n 0))
          (rowW (m ((c.tc : Thread nD τ).loc main_arg1))) (colW (m ((c.tc : Thread nD τ).loc main_arg1))) n := by
  refine (host3_v28 (W2 m c) n).trans ?_
  refine (k_agg1_congr (funext (W2_v6 m c)) (funext (W2_v3 m c))
    (funext fun r => congrFun (W2_arg m c main_arg0 (by decide) (by decide)) (ix2 r 0)) (funext (W2_v16 m c)) n).trans ?_
  exact (k_a1_eq_agg1 _ _ _ n).symm

/-- The normaliser column the regions read. -/
theorem W3_v17 (n : Fin 100000) :
    (W3 m c (Proc.devRef .tc main_v17) : S100000x1.Idx → EReal) (ix2 n 0)
      = dinv (colW (m ((c.tc : Thread nD τ).loc main_arg1))) n :=
  (host3_v17 (W2 m c) n).trans (W2_v16 m c n)

/-- The layer-1 bias row the first region reads. -/
theorem W3_v29 (k : Fin 128) :
    (W3 m c (Proc.devRef .tc main_v29) : S1x128.Idx → EReal) (ix2 0 k)
      = (m ((c.tc : Thread nD τ).loc main_arg4) : S128.Idx → EReal) (ix1 k) :=
  (host3_v29 (W2 m c) k).trans (congrFun (W2_arg m c main_arg4 (by decide) (by decide)) (ix1 k))

theorem k_hs2_congr {a a' : Fin 100000 → EReal} {w1 w1' : Fin 128 → EReal} {dv dv' : Fin 100000 → EReal} {b1 b1' : Fin 128 → EReal}
    {w2 w2' : Fin 128 → Fin 128 → EReal} (h1 : a = a') (h2 : w1 = w1') (h3 : dv = dv') (h4 : b1 = b1') (h5 : w2 = w2')
    (n : Fin 100000) (j : Fin 128) : hs2 a w1 dv b1 w2 n j = hs2 a' w1' dv' b1' w2' n j := by
  subst h1 h2 h3 h4 h5; rfl

/-- The first region's result: `hs2` of the layer-1 aggregate, the layer-1 weights and bias, the normaliser and the
    layer-2 weights. -/
theorem W4_v30 (r : Fin 100000) (j : Fin 128) :
    (W4 m c (Proc.devRef .tc main_v30) : S100000x128.Idx → EReal) (ix2 r j)
      = hs2 (a1 (fun n => (m ((c.tc : Thread nD τ).loc main_arg0) : S100000x1.Idx → EReal) (ix2 n 0))
              (rowW (m ((c.tc : Thread nD τ).loc main_arg1))) (colW (m ((c.tc : Thread nD τ).loc main_arg1))))
          (fun k => (m ((c.tc : Thread nD τ).loc main_arg3) : S1x128.Idx → EReal) (ix2 0 k))
          (dinv (colW (m ((c.tc : Thread nD τ).loc main_arg1))))
          (fun k => (m ((c.tc : Thread nD τ).loc main_arg4) : S128.Idx → EReal) (ix1 k))
          (fun k j => (m ((c.tc : Thread nD τ).loc main_arg5) : S128x128.Idx → EReal) (ix2 k j)) r j := by
  refine (congrFun (W4_main_v30 m c) (ix2 r j)).trans ?_
  refine (arrAt0_5_apply (V3 m) c r j).trans ?_
  exact k_hs2_congr (funext (W3_v28 m c))
    (funext fun k => congrFun (W3_arg m c main_arg3 (by decide) (by decide) (by decide)) (ix2 0 k))
    (funext (W3_v17 m c)) (funext (W3_v29 m c))
    (funext fun k => funext fun j => congrFun (W3_arg m c main_arg5 (by decide) (by decide) (by decide)) (ix2 k j)) r j

/-- Rows `h` gathered at the rows the source words name and added up at the rows the target words name. -/
def k_agg2 (cw rw : Fin 1700000 → BitVec 32) (h : Fin 100000 → Fin 128 → EReal) (n : Fin 100000) (j : Fin 128) : EReal :=
  0 + ∑ e : Fin 1700000, if hit (cw e) n.val then h (rowOf (rw e)) j else 0

theorem k_agg2_congr {cw cw' rw rw' : Fin 1700000 → BitVec 32} {h h' : Fin 100000 → Fin 128 → EReal}
    (h1 : cw = cw') (h2 : rw = rw') (h3 : h = h') (n : Fin 100000) (j : Fin 128) :
    k_agg2 cw rw h n j = k_agg2 cw' rw' h' n j := by
  subst h1 h2 h3; rfl

/-- The kernel's layer-2 aggregate is this sum at the rows `hs2`. -/
theorem k_a2_eq_agg2 (x : Fin 100000 → EReal) (rw cw : Fin 1700000 → BitVec 32) (w1 b1 : Fin 128 → EReal)
    (w2 : Fin 128 → Fin 128 → EReal) (n : Fin 100000) (j : Fin 128) :
    a2 x rw cw w1 b1 w2 n j = k_agg2 cw rw (hs2 (a1 x rw cw) w1 (dinv cw) b1 w2) n j := rfl

/-- The layer-2 aggregate the second region reads is `a2` of the arguments. -/
theorem W5_v41 (n : Fin 100000) (j : Fin 128) :
    (W5 m c (Proc.devRef .tc main_v41) : S100000x128.Idx → EReal) (ix2 n j)
      = a2 (fun n => (m ((c.tc : Thread nD τ).loc main_arg0) : S100000x1.Idx → EReal) (ix2 n 0))
          (rowW (m ((c.tc : Thread nD τ).loc main_arg1))) (colW (m ((c.tc : Thread nD τ).loc main_arg1)))
          (fun k => (m ((c.tc : Thread nD τ).loc main_arg3) : S1x128.Idx → EReal) (ix2 0 k))
          (fun k => (m ((c.tc : Thread nD τ).loc main_arg4) : S128.Idx → EReal) (ix1 k))
          (fun k j => (m ((c.tc : Thread nD τ).loc main_arg5) : S128x128.Idx → EReal) (ix2 k j)) n j := by
  refine (after1_v41 (W4 m c) n j).trans ?_
  show k_agg2 (fun e => (W4 m c (Proc.devRef .tc main_v6) : S1700000.Idx → BitVec 32) (ix1 e))
      (fun e => (W4 m c (Proc.devRef .tc main_v3) : S1700000.Idx → BitVec 32) (ix1 e))
      (fun r j => (W4 m c (Proc.devRef .tc main_v30) : S100000x128.Idx → EReal) (ix2 r j)) n j = _
  refine (k_agg2_congr (funext (W4_v6 m c)) (funext (W4_v3 m c)) (funext fun r => funext fun j => W4_v30 m c r j) n j).trans ?_
  exact (k_a2_eq_agg2 _ _ _ _ _ _ n j).symm

/-- The normaliser column the second region reads: an input array of the first region, not written after it. -/
theorem W5_v17 (n : Fin 100000) :
    (W5 m c (Proc.devRef .tc main_v17) : S100000x1.Idx → EReal) (ix2 n 0)
      = dinv (colW (m ((c.tc : Thread nD τ).loc main_arg1))) n :=
  (congrFun ((W5_of m c main_v17 (by decide)).trans (W4_in m c 2 rfl)) (ix2 n 0)).trans (W3_v17 m c n)

theorem k_poolSum_congr {a a' : Fin 100000 → Fin 128 → EReal} {dv dv' : Fin 100000 → EReal} {b2 b2' : Fin 128 → EReal}
    {bt bt' : Fin 100000 → BitVec 32} (h1 : a = a') (h2 : dv = dv') (h3 : b2 = b2') (h4 : bt = bt') :
    Cert.Gcn.poolSum a dv b2 bt = Cert.Gcn.poolSum a' dv' b2' bt' := by
  subst h1 h2 h3 h4; rfl

theorem k_head_congr {s s' : Fin 256 → Fin 128 → EReal} {cn cn' : Fin 256 → EReal} {wc1 wc1' : Fin 128 → Fin 32 → EReal}
    {bc1 bc1' : Fin 32 → EReal} {wc2 wc2' : Fin 32 → Fin 2 → EReal} {bc2 bc2' : Fin 2 → EReal}
    (h1 : s = s') (h2 : cn = cn') (h3 : wc1 = wc1') (h4 : bc1 = bc1') (h5 : wc2 = wc2') (h6 : bc2 = bc2') (g : Fin 256) (o : Fin 2) :
    Cert.Gcn.head s cn wc1 bc1 wc2 bc2 g o = Cert.Gcn.head s' cn' wc1' bc1' wc2' bc2' g o := by
  subst h1 h2 h3 h4 h5 h6; rfl

/-- THE KERNEL PROGRAM'S RESULT: the result array at graph `g` and class `o` is `Cert.Gcn.K` of the argument arrays. -/
theorem kernel_value (m : (ℓ : Loc nD τ sig) → Buf (Elt Ideal) ℓ) (c : Dev nD) (g : Fin 256) (o : Fin 2) :
    ((dat1 (F := Ideal) (V5 m) c).arrAt 9 cfg1.N : S256x2.Idx → EReal) (ix2 g o)
      = Cert.Gcn.K (fun n => (m ((c.tc : Thread nD τ).loc main_arg0) : S100000x1.Idx → EReal) (ix2 n 0))
          (Cert.Gcn.rowW (m ((c.tc : Thread nD τ).loc main_arg1))) (Cert.Gcn.colW (m ((c.tc : Thread nD τ).loc main_arg1)))
          (fun n => (m ((c.tc : Thread nD τ).loc main_arg2) : S100000.Idx → BitVec 32) (ix1 n))
          (fun j => (m ((c.tc : Thread nD τ).loc main_arg3) : S1x128.Idx → EReal) (ix2 0 j))
          (fun j => (m ((c.tc : Thread nD τ).loc main_arg4) : S128.Idx → EReal) (ix1 j))
          (fun k j => (m ((c.tc : Thread nD τ).loc main_arg5) : S128x128.Idx → EReal) (ix2 k j))
          (fun j => (m ((c.tc : Thread nD τ).loc main_arg6) : S128.Idx → EReal) (ix1 j))
          (fun k q => (m ((c.tc : Thread nD τ).loc main_arg7) : S128x32.Idx → EReal) (ix2 k q))
          (fun q => (m ((c.tc : Thread nD τ).loc main_arg8) : S32.Idx → EReal) (ix1 q))
          (fun q o => (m ((c.tc : Thread nD τ).loc main_arg9) : S32x2.Idx → EReal) (ix2 q o))
          (fun o => (m ((c.tc : Thread nD τ).loc main_arg10) : S2.Idx → EReal) (ix1 o)) g o := by
  refine (arrAt1_9_apply (V5 m) c g o).trans ?_
  have hbt : ∀ n : Fin 100000, (W4 m c (Proc.devRef .tc main_arg2) : S100000.Idx → BitVec 32) (ix1 n)
      = (m ((c.tc : Thread nD τ).loc main_arg2) : S100000.Idx → BitVec 32) (ix1 n) := fun n =>
    congrFun (W4_arg m c main_arg2 (by decide) (by decide) (by decide) (by decide)) (ix1 n)
  exact k_head_congr
    (k_poolSum_congr (funext fun n => funext fun j => W5_v41 m c n j) (funext (W5_v17 m c))
      (funext fun j => (after1_v50 (W4 m c) j).trans
        (congrFun (W4_arg m c main_arg6 (by decide) (by decide) (by decide) (by decide)) (ix1 j)))
      (funext fun n => (after1_v49 (W4 m c) n).trans (hbt n)))
    (funext fun g => (after1_v48 (W4 m c) g).trans (congrArg (fun bt => cnt bt g) (funext hbt)))
    (funext fun k => funext fun q =>
      congrFun (W5_arg m c main_arg7 (by decide) (by decide) (by decide) (by decide) (by decide)) (ix2 k q))
    (funext fun q => (after1_v51 (W4 m c) q).trans
      (congrFun (W4_arg m c main_arg8 (by decide) (by decide) (by decide) (by decide)) (ix1 q)))
    (funext fun q => funext fun o =>
      congrFun (W5_arg m c main_arg9 (by decide) (by decide) (by decide) (by decide) (by decide)) (ix2 q o))
    (funext fun o => (after1_v52 (W4 m c) o).trans
      (congrFun (W4_arg m c main_arg10 (by decide) (by decide) (by decide) (by decide)) (ix1 o)))
    g o

end Compose

end Cert.KernelIdeal.Val

end
-- ==== Proof.Val.RefTail.lean ====
/-
  The reference's last stretch, read at one result coordinate: from the rectified layer-2 rows to the class scores.

  The rows are summed per graph (a scatter-add into zeros by the graph ids), divided by the graph's size (a scatter-add
  of ones, at least one), sent through a rectified affine layer of width 32 and an affine layer of width 2, and the
  logistic function is spelt `1 / (1 + e^(-x))`. Each operation is read at explicit coordinates; the composition is
  the specification's `head` applied to the per-graph sums.
-/
import proofs.«409842_j28716151341663_3_alg».proof.Proof.RefRead
import proofs.«409842_j28716151341663_3_alg».proof.Proof.Val.SG
import proofs.«409842_j28716151341663_3_alg».proof.Proof.Val.Forms
import proofs.«409842_j28716151341663_3_alg».proof.Proof.LibERealBatchNorm
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

/-! ## Index equations: the operations' composed index functions at explicit coordinates -/

theorem idx_ids (e : Fin 100000) : idx_main_v73 (ix2 e 0) = ix1 e :=
  funext fun a => Fin.ext (by match a with | ⟨0, _⟩ => rfl)

theorem idx_ids' (e : Fin 100000) : idx_main_v69 (ix2 e 0) = ix1 e :=
  funext fun a => Fin.ext (by match a with | ⟨0, _⟩ => rfl)

theorem idx_size (g : Fin 256) (k : Fin 128) : idx_main_v77 (idx_main_v78 (ix2 g k)) = ix1 g :=
  funext fun a => Fin.ext (by match a with | ⟨0, _⟩ => rfl)

theorem lidx_hidden (g : Fin 256) (q : Fin 32) (k : Fin 128) : lidx_main_v80 (ix2 g q) k = ix2 g k :=
  funext fun a => Fin.ext (by match a with | ⟨0, _⟩ => rfl | ⟨1, _⟩ => rfl)

theorem ridx_hidden (g : Fin 256) (q : Fin 32) (k : Fin 128) : ridx_main_v80 (ix2 g q) k = ix2 k q :=
  funext fun a => Fin.ext (by match a with | ⟨0, _⟩ => rfl | ⟨1, _⟩ => rfl)

theorem idx_bias1 (g : Fin 256) (q : Fin 32) : idx_main_v81 (idx_main_v82 (ix2 g q)) = ix1 q :=
  funext fun a => Fin.ext (by match a with | ⟨0, _⟩ => rfl)

theorem lidx_logit (g : Fin 256) (o : Fin 2) (q : Fin 32) : lidx_main_v85 (ix2 g o) q = ix2 g q :=
  funext fun a => Fin.ext (by match a with | ⟨0, _⟩ => rfl | ⟨1, _⟩ => rfl)

theorem ridx_logit (g : Fin 256) (o : Fin 2) (q : Fin 32) : ridx_main_v85 (ix2 g o) q = ix2 q o :=
  funext fun a => Fin.ext (by match a with | ⟨0, _⟩ => rfl | ⟨1, _⟩ => rfl)

theorem idx_bias2 (g : Fin 256) (o : Fin 2) : idx_main_v86 (idx_main_v87 (ix2 g o)) = ix1 o :=
  funext fun a => Fin.ext (by match a with | ⟨0, _⟩ => rfl)

/-- The pattern of the float one is the extended real one. -/
theorem one_word : Ideal.ofBits .f32 0x3F800000#32 = (1 : EReal) := by
  rw [Cert.ERealBN.ofBits_one, EReal.coe_one]

/-! ## The stages at explicit coordinates -/

/-- The graph's size: the scatter-add of ones into zeros by the graph ids, at least one. -/
theorem size_stage (x2 : (⟨S100000, .i32⟩ : BufTy).Contents (Elt Ideal)) (g : Fin 256) :
    val_main_v76 (F := Ideal) x2 (ix1 g) = cnt (fun n => (x2 : S100000.Idx → BitVec 32) (ix1 n)) g := by
  rw [val_main_v76_apply, val_main_v75_apply, val_main_cst_16_apply]
  unfold val_main_v74
  rw [SG.scatterAdd_cnt_r, val_main_v72_apply, val_main_cst_15_apply]
  simp only [Ideal.ofBits_def, Ideal.maximumf_def, Ideal.ofBits_zero_f32, one_word, val_main_v73_apply, idx_ids,
    val_main_v71_apply, val_main_cst_14_apply]
  rfl

/-- The per-graph sum of the rectified layer-2 rows: the scatter-add into zeros by the graph ids. -/
theorem pooled_stage (x0 : (⟨S100000x1, .f32⟩ : BufTy).Contents (Elt Ideal)) (x1 : (⟨S2x1600000, .i32⟩ : BufTy).Contents (Elt Ideal)) (x2 : (⟨S100000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (g : Fin 256) (k : Fin 128) :
    val_main_v70 (F := Ideal) x0 x1 x2 x3 x4 x5 x6 (ix2 g k)
      = 0 + ∑ n : Fin 100000, if hit ((x2 : S100000.Idx → BitVec 32) (ix1 n)) g.val
          then (val_main_v67 (F := Ideal) x0 x1 x3 x4 x5 x6 : S100000x128.Idx → EReal) (ix2 n k) else 0 := by
  unfold val_main_v70
  rw [SG.scatterAdd_seg128_r, val_main_v68_apply, val_main_cst_13_apply]
  simp only [Ideal.ofBits_def, Ideal.ofBits_zero_f32, val_main_v69_apply, idx_ids']
  rfl

/-- The per-graph mean: the sum divided by the size, the size broadcast along the row. -/
theorem mean_stage (x0 : (⟨S100000x1, .f32⟩ : BufTy).Contents (Elt Ideal)) (x1 : (⟨S2x1600000, .i32⟩ : BufTy).Contents (Elt Ideal)) (x2 : (⟨S100000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (g : Fin 256) (k : Fin 128) :
    val_main_v79 (F := Ideal) x0 x1 x2 x3 x4 x5 x6 (ix2 g k)
      = Ideal.div (val_main_v70 (F := Ideal) x0 x1 x2 x3 x4 x5 x6 (ix2 g k)) (val_main_v76 (F := Ideal) x2 (ix1 g)) := by
  rw [val_main_v79_apply, val_main_v78_apply, val_main_v77_apply, idx_size]
  rfl

/-- The classifier's hidden layer: the mean row times the weights, plus the bias, rectified. -/
theorem hidden_stage (x0 : (⟨S100000x1, .f32⟩ : BufTy).Contents (Elt Ideal)) (x1 : (⟨S2x1600000, .i32⟩ : BufTy).Contents (Elt Ideal)) (x2 : (⟨S100000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x32, .f32⟩ : BufTy).Contents (Elt Ideal)) (x8 : (⟨S32, .f32⟩ : BufTy).Contents (Elt Ideal)) (g : Fin 256) (q : Fin 32) :
    val_main_v84 (F := Ideal) x0 x1 x2 x3 x4 x5 x6 x7 x8 (ix2 g q)
      = max ((∑ k : Fin 128, val_main_v79 (F := Ideal) x0 x1 x2 x3 x4 x5 x6 (ix2 g k) * (x7 : S128x32.Idx → EReal) (ix2 k q))
              + (x8 : S32.Idx → EReal) (ix1 q)) 0 := by
  rw [val_main_v84_apply, val_main_v83_apply, val_main_v80_apply, val_main_v82_apply, val_main_v81_apply,
    val_main_call3_v0_apply, val_main_call3_cst_apply, idx_bias1]
  simp only [lidx_hidden, ridx_hidden, Ideal.ofBits_def, Ideal.ofBits_zero_f32, Ideal.maximumf_def, Ideal.addf_def]

/-- The classifier's output layer before the logistic function: the hidden row times the weights, plus the bias. -/
theorem logit_stage (x0 : (⟨S100000x1, .f32⟩ : BufTy).Contents (Elt Ideal)) (x1 : (⟨S2x1600000, .i32⟩ : BufTy).Contents (Elt Ideal)) (x2 : (⟨S100000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S32x2, .f32⟩ : BufTy).Contents (Elt Ideal)) (x10 : (⟨S2, .f32⟩ : BufTy).Contents (Elt Ideal)) (g : Fin 256) (o : Fin 2) :
    val_main_v88 (F := Ideal) x0 x1 x2 x3 x4 x5 x6 x7 x8 x9 x10 (ix2 g o)
      = (∑ q : Fin 32, val_main_v84 (F := Ideal) x0 x1 x2 x3 x4 x5 x6 x7 x8 (ix2 g q) * (x9 : S32x2.Idx → EReal) (ix2 q o))
          + (x10 : S2.Idx → EReal) (ix1 o) := by
  rw [val_main_v88_apply, val_main_v85_apply, val_main_v87_apply, val_main_v86_apply, idx_bias2]
  simp only [lidx_logit, ridx_logit, Ideal.addf_def]

/-- The result: one over one plus the exponential of the negated score is the logistic function. -/
theorem out_stage (x0 : (⟨S100000x1, .f32⟩ : BufTy).Contents (Elt Ideal)) (x1 : (⟨S2x1600000, .i32⟩ : BufTy).Contents (Elt Ideal)) (x2 : (⟨S100000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S32x2, .f32⟩ : BufTy).Contents (Elt Ideal)) (x10 : (⟨S2, .f32⟩ : BufTy).Contents (Elt Ideal)) (i : S256x2.Idx) :
    val_main_v94 (F := Ideal) x0 x1 x2 x3 x4 x5 x6 x7 x8 x9 x10 i = Ideal.logistic (val_main_v88 (F := Ideal) x0 x1 x2 x3 x4 x5 x6 x7 x8 x9 x10 i) := by
  rw [val_main_v94_apply, val_main_v93_apply, val_main_cst_18_apply, val_main_v92_apply, val_main_v91_apply,
    val_main_cst_17_apply, val_main_v90_apply, val_main_v89_apply]
  simp only [Ideal.ofBits_def, one_word, Ideal.hostDivf_def, Ideal.addf_def, Ideal.hostUnary_exp_def, Ideal.hostNegf_def,
    Ideal.negf_def]
  rfl

/-- The reference's result at graph `g`, class `o`: the classifier `head` on the per-graph sums of the rectified
    layer-2 rows and the graph sizes. -/
theorem ref_tail (m : (ℓ : Loc nD τ sig) → Buf (Elt Ideal) ℓ) (c : Dev nD) (g : Fin 256) (o : Fin 2) :
    (res_out0 (F := Ideal) m c : S256x2.Idx → EReal) (ix2 g o)
      = head (fun g j => 0 + ∑ n : Fin 100000, if hit (((m ((c.tc : Thread nD τ).loc main_arg2)) : S100000.Idx → BitVec 32) (ix1 n)) g.val
                  then (val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) : S100000x128.Idx → EReal) (ix2 n j) else 0)
             (cnt (fun n => ((m ((c.tc : Thread nD τ).loc main_arg2)) : S100000.Idx → BitVec 32) (ix1 n)))
             (fun k q => ((m ((c.tc : Thread nD τ).loc main_arg7)) : S128x32.Idx → EReal) (ix2 k q))
             (fun q => ((m ((c.tc : Thread nD τ).loc main_arg8)) : S32.Idx → EReal) (ix1 q))
             (fun q o => ((m ((c.tc : Thread nD τ).loc main_arg9)) : S32x2.Idx → EReal) (ix2 q o))
             (fun o => ((m ((c.tc : Thread nD τ).loc main_arg10)) : S2.Idx → EReal) (ix1 o)) g o := by
  refine (congrFun (val_main_v94_eq (F := Ideal) m c) (ix2 g o)).trans ?_
  rw [out_stage, logit_stage]
  unfold head
  simp only [hidden_stage, mean_stage, pooled_stage, size_stage]

end Cert.ReferenceIdeal.RefVal

end
-- ==== Proof.Val.RefVal.lean ====
/-
  The reference program's result, read at one coordinate, is the function `Cert.Gcn.R` of the argument arrays.

  The program is followed buffer by buffer: the edge words with the self loops appended, the in-degree as a scatter-add
  of ones, the normaliser, the wrapped and clamped index words, the per-edge weight, the two convolution layers
  (transform, gather by source, weight, scatter-add by target, bias, rectify), up to the rectified layer-2 rows; the last stretch
  (the per-graph sums and sizes, the mean and the classifier) is read in the module of the tail and composed here.
-/
import proofs.«409842_j28716151341663_3_alg».proof.Proof.RefRead
import proofs.«409842_j28716151341663_3_alg».proof.Proof.Val.SG
import proofs.«409842_j28716151341663_3_alg».proof.Proof.Val.Forms
import proofs.«409842_j28716151341663_3_alg».proof.Proof.Val.RefTail
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.ReferenceIdeal.RefVal

open Cert.ReferenceIdeal Cert.ReferenceIdeal.Gen Cert.ReferenceIdeal.Value Cert.ReferenceIdeal.Read

namespace Body

/-! ## Constants and small facts -/

/-- The word 0x3F800000 denotes one. -/
theorem one_f32 : Ideal.ofBits .f32 0x3F800000#32 = 1 := by
  simp [Ideal.ofBits, Ideal.ieee, -EReal.coe_mul]; norm_num

/-- A test on the signed value of a word is the relation `hit`. -/
theorem ite_hit {α : Type} (w : BitVec 32) (n : ℕ) (a b : α) :
    (if w.toInt = (n : ℤ) then a else b) = if Cert.Gcn.hit w n then a else b := by
  by_cases h : w.toInt = (n : ℤ)
  · rw [if_pos h, if_pos (show Cert.Gcn.hit w n from h)]
  · rw [if_neg h, if_neg (show ¬ Cert.Gcn.hit w n from h)]

/-- The wrap of a negative index word: compare with zero, add the number of nodes, select. -/
theorem wrap_word (w : BitVec 32) :
    Scalar.select (IntOp.cmpi .slt w 0#32) (IntOp.addi w 100000#32) w = Cert.Gcn.normW w := by
  unfold Scalar.select IntOp.cmpi IntOp.addi Cert.Gcn.normW
  cases h : w.slt 0#32 <;> simp

/-- A select on a strict comparison of extended reals is the conditional on the order. -/
theorem select_gt (a z x y : EReal) :
    Scalar.select (Ideal.cmp .ogt a z) x y = if z < a then x else y := by
  unfold Scalar.select Ideal.cmp
  by_cases h : z < a <;> simp [h]

/-! ## The gathers and the scatter-adds with their operands named -/

theorem gather_vec_at {α : Type} (x : (⟨1, ![100000]⟩ : Shape).Idx → α) (idx : IVec ⟨2, ![1700000, 1]⟩ 32)
    (e : Fin 1700000) (w : BitVec 32) (hw : idx (ix2 e 0) = w) :
    Host.gather Cert.ReferenceIdeal.gather_S100000_S1700000x1_S1700000_n_0_n_n_0_1_1 x idx (ix1 e)
      = x (ix1 (Cert.Gcn.clampN w)) := by
  subst hw; exact Cert.Gcn.SG.gather_vec_r x idx e

theorem gather_rows_at {α : Type} (x : (⟨2, ![100000, 128]⟩ : Shape).Idx → α) (idx : IVec ⟨2, ![1700000, 1]⟩ 32)
    (e : Fin 1700000) (j : Fin 128) (w : BitVec 32) (hw : idx (ix2 e 0) = w) :
    Host.gather Cert.ReferenceIdeal.gather_S100000x128_S1700000x1_S1700000x128_1_0_n_n_0_1_1128 x idx (ix2 e j)
      = x (ix2 (Cert.Gcn.clampN w) j) := by
  subst hw; exact Cert.Gcn.SG.gather_rows128_r x idx e j

theorem scatter_deg_at (x : FVec Ideal ⟨1, ![100000]⟩ .f32) (idx : IVec ⟨2, ![1700000, 1]⟩ 32)
    (u : FVec Ideal ⟨1, ![1700000]⟩ .f32) (n : Fin 100000) (w : Fin 1700000 → BitVec 32) (f : Fin 1700000 → EReal)
    (hx : x (ix1 n) = 0) (hw : ∀ e, idx (ix2 e 0) = w e) (hu : ∀ e, u (ix1 e) = f e) :
    Host.scatterAdd (F := Ideal) Cert.ReferenceIdeal.scatter_S100000_S1700000x1_S1700000_n_0_0_1 x idx u (ix1 n)
      = 0 + ∑ e : Fin 1700000, if Cert.Gcn.hit (w e) n.val then f e else 0 := by
  refine (Cert.Gcn.SG.scatterAdd_deg_r x idx u n).trans ?_
  rw [hx]
  refine congrArg (fun t => (0 : EReal) + t) (Finset.sum_congr rfl fun e _ => ?_)
  rw [hw e, hu e, ite_hit]

theorem scatter_rows_at (x : FVec Ideal ⟨2, ![100000, 128]⟩ .f32) (idx : IVec ⟨2, ![1700000, 1]⟩ 32)
    (u : FVec Ideal ⟨2, ![1700000, 128]⟩ .f32) (n : Fin 100000) (j : Fin 128) (w : Fin 1700000 → BitVec 32)
    (f : Fin 1700000 → EReal)
    (hx : x (ix2 n j) = 0) (hw : ∀ e, idx (ix2 e 0) = w e) (hu : ∀ e, u (ix2 e j) = f e) :
    Host.scatterAdd (F := Ideal) Cert.ReferenceIdeal.scatter_S100000x128_S1700000x1_S1700000x128_1_0_0_1 x idx u (ix2 n j)
      = 0 + ∑ e : Fin 1700000, if Cert.Gcn.hit (w e) n.val then f e else 0 := by
  refine (Cert.Gcn.SG.scatterAdd_rows128_r x idx u n j).trans ?_
  rw [hx]
  refine congrArg (fun t => (0 : EReal) + t) (Finset.sum_congr rfl fun e _ => ?_)
  rw [hw e, hu e, ite_hit]

section Stages

variable (x0 : (⟨S100000x1, .f32⟩ : BufTy).Contents (Elt Ideal)) (x1 : (⟨S2x1600000, .i32⟩ : BufTy).Contents (Elt Ideal))
  (x3 : (⟨S1x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-! ## The edge words: the given edges, then one self loop per node -/

theorem v3_at (e : Fin 1700000) : val_main_v3 (F := Ideal) x1 (ix1 e) = Cert.Gcn.rowW x1 e := by
  unfold val_main_v3 Cert.Gcn.rowW
  by_cases h : e.val < 1600000
  · rw [dif_pos h]
    refine (concatenate_pair_apply_left (t := S1700000) (s₁ := S1600000) (s₂ := S100000) (0 : Fin S1700000.rank) _ _ _ (ix1 e) rfl (ix1 (⟨e.val, h⟩ : Fin 1600000)) ?_).trans ?_
    · intro b; match b with | ⟨0, _⟩ => rfl
    · rw [val_main_v2_apply, val_main_v1_apply]
      refine congrArg x1 (funext fun a => ?_)
      match a with
      | ⟨0, _⟩ => rfl
      | ⟨1, _⟩ => exact Fin.ext (Nat.mod_eq_of_lt h)
  · rw [dif_neg h]
    refine (concatenate_pair_apply_right (t := S1700000) (s₁ := S1600000) (s₂ := S100000) (0 : Fin S1700000.rank) _ _ _ (ix1 e) rfl rfl
      (ix1 (⟨e.val - 1600000, by have := e.isLt; omega⟩ : Fin 100000)) ?_ ?_).trans ?_
    · intro b hb; match b with | ⟨0, _⟩ => exact absurd rfl hb
    · show (e.val - 1600000) + 1600000 = e.val; omega
    · rw [val_main_v0_apply]

theorem v6_at (e : Fin 1700000) : val_main_v6 (F := Ideal) x1 (ix1 e) = Cert.Gcn.colW x1 e := by
  unfold val_main_v6 Cert.Gcn.colW
  by_cases h : e.val < 1600000
  · rw [dif_pos h]
    refine (concatenate_pair_apply_left (t := S1700000) (s₁ := S1600000) (s₂ := S100000) (0 : Fin S1700000.rank) _ _ _ (ix1 e) rfl (ix1 (⟨e.val, h⟩ : Fin 1600000)) ?_).trans ?_
    · intro b; match b with | ⟨0, _⟩ => rfl
    · rw [val_main_v5_apply, val_main_v4_apply]
      refine congrArg x1 (funext fun a => ?_)
      match a with
      | ⟨0, _⟩ => rfl
      | ⟨1, _⟩ => exact Fin.ext (Nat.mod_eq_of_lt h)
  · rw [dif_neg h]
    refine (concatenate_pair_apply_right (t := S1700000) (s₁ := S1600000) (s₂ := S100000) (0 : Fin S1700000.rank) _ _ _ (ix1 e) rfl rfl
      (ix1 (⟨e.val - 1600000, by have := e.isLt; omega⟩ : Fin 100000)) ?_ ?_).trans ?_
    · intro b hb; match b with | ⟨0, _⟩ => exact absurd rfl hb
    · show (e.val - 1600000) + 1600000 = e.val; omega
    · rw [val_main_v0_apply]

/-! ## The in-degree and the normaliser -/

theorem v10_at (n : Fin 100000) :
    val_main_v10 (F := Ideal) x1 (ix1 n) = Cert.Gcn.deg (Cert.Gcn.colW x1) n := by
  unfold val_main_v10 Cert.Gcn.deg
  refine scatter_deg_at _ _ _ n (Cert.Gcn.colW x1) (fun _ => 1) ?_ (fun e => ?_) (fun e => ?_)
  · rw [val_main_v8_apply, val_main_cst_0_apply]; exact Ideal.ofBits_zero_f32
  · rw [val_main_v9_apply, show idx_main_v9 (ix2 e 0) = ix1 e from funext fun a => match a with | ⟨0, _⟩ => rfl]
    exact v6_at x1 e
  · rw [val_main_v7_apply, val_main_cst_apply]; exact one_f32

theorem v16_at (n : Fin 100000) :
    val_main_v16 (F := Ideal) x1 (ix1 n) = Cert.Gcn.dinv (Cert.Gcn.colW x1) n := by
  rw [val_main_v16_apply, val_main_v12_apply, val_main_v15_apply, val_main_v14_apply, v10_at,
    val_main_v11_apply, val_main_cst_1_apply, val_main_v13_apply, val_main_cst_2_apply,
    val_main_call0_v1_apply, val_main_call0_v0_apply, val_main_cst_3_apply]
  simp only [Ideal.cmpf_def, Ideal.hostUnary_rsqrt_def, Ideal.maximumf_def, Ideal.ofBits_def, Ideal.ofBits_zero_f32,
    one_f32, select_gt]
  rfl

/-! ## The wrapped index words and the per-edge weight -/

theorem v21_at (e : Fin 1700000) :
    val_main_v21 (F := Ideal) x1 (ix1 e) = Cert.Gcn.normW (Cert.Gcn.rowW x1 e) := by
  rw [val_main_v21_apply, val_main_v18_apply, val_main_v20_apply, v3_at, val_main_v17_apply, val_main_c_apply,
    val_main_v19_apply, val_main_c_4_apply, wrap_word]

theorem v28_at (e : Fin 1700000) :
    val_main_v28 (F := Ideal) x1 (ix1 e) = Cert.Gcn.normW (Cert.Gcn.colW x1 e) := by
  rw [val_main_v28_apply, val_main_v25_apply, val_main_v27_apply, v6_at, val_main_v24_apply, val_main_c_5_apply,
    val_main_v26_apply, val_main_c_6_apply, wrap_word]

theorem v37_at (e : Fin 1700000) :
    val_main_v37 (F := Ideal) x1 (ix1 e) = Cert.Gcn.normW (Cert.Gcn.rowW x1 e) := by
  rw [val_main_v37_apply, val_main_v34_apply, val_main_v36_apply, v3_at, val_main_v33_apply, val_main_c_7_apply,
    val_main_v35_apply, val_main_c_8_apply, wrap_word]

theorem v55_at (e : Fin 1700000) :
    val_main_v55 (F := Ideal) x1 (ix1 e) = Cert.Gcn.normW (Cert.Gcn.rowW x1 e) := by
  rw [val_main_v55_apply, val_main_v52_apply, val_main_v54_apply, v3_at, val_main_v51_apply, val_main_c_10_apply,
    val_main_v53_apply, val_main_c_11_apply, wrap_word]

theorem v23_at (e : Fin 1700000) :
    val_main_v23 (F := Ideal) x1 (ix1 e) = Cert.Gcn.dinv (Cert.Gcn.colW x1) (Cert.Gcn.rowOf (Cert.Gcn.rowW x1 e)) := by
  unfold val_main_v23
  refine (gather_vec_at _ _ e (Cert.Gcn.normW (Cert.Gcn.rowW x1 e)) ?_).trans (v16_at x1 _)
  rw [val_main_v22_apply, show idx_main_v22 (ix2 e 0) = ix1 e from funext fun a => match a with | ⟨0, _⟩ => rfl]
  exact v21_at x1 e

theorem v30_at (e : Fin 1700000) :
    val_main_v30 (F := Ideal) x1 (ix1 e) = Cert.Gcn.dinv (Cert.Gcn.colW x1) (Cert.Gcn.rowOf (Cert.Gcn.colW x1 e)) := by
  unfold val_main_v30
  refine (gather_vec_at _ _ e (Cert.Gcn.normW (Cert.Gcn.colW x1 e)) ?_).trans (v16_at x1 _)
  rw [val_main_v29_apply, show idx_main_v29 (ix2 e 0) = ix1 e from funext fun a => match a with | ⟨0, _⟩ => rfl]
  exact v28_at x1 e

theorem v31_at (e : Fin 1700000) :
    val_main_v31 (F := Ideal) x1 (ix1 e) = Cert.Gcn.nrm (Cert.Gcn.rowW x1) (Cert.Gcn.colW x1) e := by
  rw [val_main_v31_apply, v23_at, v30_at]; rfl

/-! ## Layer 1: transform, gather by source, weight, scatter-add by target, bias, rectify -/

theorem v32_at (n : Fin 100000) (j : Fin 128) :
    val_main_v32 (F := Ideal) x0 x3 (ix2 n j) = ∑ _k : Fin 1, x0 (ix2 n 0) * x3 (ix2 0 j) := by
  rw [val_main_v32_apply]
  refine Finset.sum_congr rfl fun k _ => ?_
  obtain rfl : k = 0 := Subsingleton.elim _ _
  refine congrArg₂ (· * ·) (congrArg x0 (funext fun a => ?_)) (congrArg x3 (funext fun a => ?_))
  · match a with
    | ⟨0, _⟩ => rfl
    | ⟨1, _⟩ => rfl
  · match a with
    | ⟨0, _⟩ => rfl
    | ⟨1, _⟩ => rfl

theorem v39_at (e : Fin 1700000) (j : Fin 128) :
    val_main_v39 (F := Ideal) x0 x1 x3 (ix2 e j)
      = ∑ _k : Fin 1, x0 (ix2 (Cert.Gcn.rowOf (Cert.Gcn.rowW x1 e)) 0) * x3 (ix2 0 j) := by
  unfold val_main_v39
  refine (gather_rows_at _ _ e j (Cert.Gcn.normW (Cert.Gcn.rowW x1 e)) ?_).trans (v32_at x0 x3 _ j)
  rw [val_main_v38_apply, show idx_main_v38 (ix2 e 0) = ix1 e from funext fun a => match a with | ⟨0, _⟩ => rfl]
  exact v37_at x1 e

theorem v41_at (e : Fin 1700000) (j : Fin 128) :
    val_main_v41 (F := Ideal) x1 (ix2 e j) = Cert.Gcn.nrm (Cert.Gcn.rowW x1) (Cert.Gcn.colW x1) e := by
  rw [val_main_v41_apply, val_main_v40_apply,
    show idx_main_v40 (idx_main_v41 (ix2 e j)) = ix1 e from funext fun a => match a with | ⟨0, _⟩ => rfl]
  exact v31_at x1 e

theorem v45_at (n : Fin 100000) (j : Fin 128) :
    val_main_v45 (F := Ideal) x0 x1 x3 (ix2 n j)
      = 0 + ∑ e : Fin 1700000, if Cert.Gcn.hit (Cert.Gcn.colW x1 e) n.val
          then (∑ _k : Fin 1, x0 (ix2 (Cert.Gcn.rowOf (Cert.Gcn.rowW x1 e)) 0) * x3 (ix2 0 j))
            * Cert.Gcn.nrm (Cert.Gcn.rowW x1) (Cert.Gcn.colW x1) e
          else 0 := by
  unfold val_main_v45
  refine scatter_rows_at _ _ _ n j (Cert.Gcn.colW x1) _ ?_ (fun e => ?_) (fun e => ?_)
  · rw [val_main_v43_apply, val_main_cst_9_apply]; exact Ideal.ofBits_zero_f32
  · rw [val_main_v44_apply, show idx_main_v44 (ix2 e 0) = ix1 e from funext fun a => match a with | ⟨0, _⟩ => rfl]
    exact v6_at x1 e
  · rw [val_main_v42_apply, v39_at, v41_at]; rfl

theorem v49_at (n : Fin 100000) (j : Fin 128) :
    val_main_v49 (F := Ideal) x0 x1 x3 x4 (ix2 n j)
      = Cert.Gcn.h1 (fun n => x0 (ix2 n 0)) (Cert.Gcn.rowW x1) (Cert.Gcn.colW x1) (fun j => x3 (ix2 0 j))
          (fun j => x4 (ix1 j)) n j := by
  rw [val_main_v49_apply, val_main_v48_apply, v45_at, val_main_v47_apply, val_main_v46_apply,
    show idx_main_v46 (idx_main_v47 (ix2 n j)) = ix1 j from funext fun a => match a with | ⟨0, _⟩ => rfl,
    val_main_call1_v0_apply, val_main_call1_cst_apply]
  simp only [Ideal.maximumf_def, Ideal.addf_def, Ideal.ofBits_def, Ideal.ofBits_zero_f32]
  rfl

/-! ## Layer 2, on the product of layer 1's rows with the layer-2 weights -/

theorem v50_at (n : Fin 100000) (j : Fin 128) :
    val_main_v50 (F := Ideal) x0 x1 x3 x4 x5 (ix2 n j)
      = ∑ k : Fin 128, Cert.Gcn.h1 (fun n => x0 (ix2 n 0)) (Cert.Gcn.rowW x1) (Cert.Gcn.colW x1) (fun j => x3 (ix2 0 j))
          (fun j => x4 (ix1 j)) n k * x5 (ix2 k j) := by
  rw [val_main_v50_apply]
  refine Finset.sum_congr rfl fun k _ => ?_
  rw [show lidx_main_v50 (ix2 n j) k = ix2 n k from funext fun a => match a with | ⟨0, _⟩ => rfl | ⟨1, _⟩ => rfl,
    show ridx_main_v50 (ix2 n j) k = ix2 k j from funext fun a => match a with | ⟨0, _⟩ => rfl | ⟨1, _⟩ => rfl,
    v49_at]

theorem v57_at (e : Fin 1700000) (j : Fin 128) :
    val_main_v57 (F := Ideal) x0 x1 x3 x4 x5 (ix2 e j)
      = ∑ k : Fin 128, Cert.Gcn.h1 (fun n => x0 (ix2 n 0)) (Cert.Gcn.rowW x1) (Cert.Gcn.colW x1) (fun j => x3 (ix2 0 j))
          (fun j => x4 (ix1 j)) (Cert.Gcn.rowOf (Cert.Gcn.rowW x1 e)) k * x5 (ix2 k j) := by
  unfold val_main_v57
  refine (gather_rows_at _ _ e j (Cert.Gcn.normW (Cert.Gcn.rowW x1 e)) ?_).trans (v50_at x0 x1 x3 x4 x5 _ j)
  rw [val_main_v56_apply, show idx_main_v56 (ix2 e 0) = ix1 e from funext fun a => match a with | ⟨0, _⟩ => rfl]
  exact v55_at x1 e

theorem v59_at (e : Fin 1700000) (j : Fin 128) :
    val_main_v59 (F := Ideal) x1 (ix2 e j) = Cert.Gcn.nrm (Cert.Gcn.rowW x1) (Cert.Gcn.colW x1) e := by
  rw [val_main_v59_apply, val_main_v58_apply,
    show idx_main_v58 (idx_main_v59 (ix2 e j)) = ix1 e from funext fun a => match a with | ⟨0, _⟩ => rfl]
  exact v31_at x1 e

theorem v63_at (n : Fin 100000) (j : Fin 128) :
    val_main_v63 (F := Ideal) x0 x1 x3 x4 x5 (ix2 n j)
      = 0 + ∑ e : Fin 1700000, if Cert.Gcn.hit (Cert.Gcn.colW x1 e) n.val
          then (∑ k : Fin 128, Cert.Gcn.h1 (fun n => x0 (ix2 n 0)) (Cert.Gcn.rowW x1) (Cert.Gcn.colW x1)
              (fun j => x3 (ix2 0 j)) (fun j => x4 (ix1 j)) (Cert.Gcn.rowOf (Cert.Gcn.rowW x1 e)) k * x5 (ix2 k j))
            * Cert.Gcn.nrm (Cert.Gcn.rowW x1) (Cert.Gcn.colW x1) e
          else 0 := by
  unfold val_main_v63
  refine scatter_rows_at _ _ _ n j (Cert.Gcn.colW x1) _ ?_ (fun e => ?_) (fun e => ?_)
  · rw [val_main_v61_apply, val_main_cst_12_apply]; exact Ideal.ofBits_zero_f32
  · rw [val_main_v62_apply, show idx_main_v62 (ix2 e 0) = ix1 e from funext fun a => match a with | ⟨0, _⟩ => rfl]
    exact v6_at x1 e
  · rw [val_main_v60_apply, v57_at, v59_at]; rfl

/-- THE RECTIFIED LAYER-2 ARRAY at node `n`, column `j`. -/
theorem v67_at (n : Fin 100000) (j : Fin 128) :
    val_main_v67 (F := Ideal) x0 x1 x3 x4 x5 x6 (ix2 n j)
      = Cert.Gcn.h2 (fun n => x0 (ix2 n 0)) (Cert.Gcn.rowW x1) (Cert.Gcn.colW x1) (fun j => x3 (ix2 0 j))
          (fun j => x4 (ix1 j)) (fun k j => x5 (ix2 k j)) (fun j => x6 (ix1 j)) n j := by
  rw [val_main_v67_apply, val_main_v66_apply, v63_at, val_main_v65_apply, val_main_v64_apply,
    show idx_main_v64 (idx_main_v65 (ix2 n j)) = ix1 j from funext fun a => match a with | ⟨0, _⟩ => rfl,
    val_main_call2_v0_apply, val_main_call2_cst_apply]
  simp only [Ideal.maximumf_def, Ideal.addf_def, Ideal.ofBits_def, Ideal.ofBits_zero_f32]
  rfl

end Stages

end Body

/-- THE REFERENCE'S RESULT at graph `g`, class `o`, is `Cert.Gcn.R` of the argument arrays. -/
theorem ref_value (m : (ℓ : Loc nD τ sig) → Buf (Elt Ideal) ℓ) (c : Dev nD) (g : Fin 256) (o : Fin 2) :
    (res_out0 (F := Ideal) m c : S256x2.Idx → EReal) (ix2 g o)
      = Cert.Gcn.R
          (fun n => (m ((c.tc : Thread nD τ).loc main_arg0) : S100000x1.Idx → EReal) (ix2 n 0))
          (Cert.Gcn.rowW (m ((c.tc : Thread nD τ).loc main_arg1)))
          (Cert.Gcn.colW (m ((c.tc : Thread nD τ).loc main_arg1)))
          (fun n => (m ((c.tc : Thread nD τ).loc main_arg2) : S100000.Idx → BitVec 32) (ix1 n))
          (fun j => (m ((c.tc : Thread nD τ).loc main_arg3) : S1x128.Idx → EReal) (ix2 0 j))
          (fun j => (m ((c.tc : Thread nD τ).loc main_arg4) : S128.Idx → EReal) (ix1 j))
          (fun k j => (m ((c.tc : Thread nD τ).loc main_arg5) : S128x128.Idx → EReal) (ix2 k j))
          (fun j => (m ((c.tc : Thread nD τ).loc main_arg6) : S128.Idx → EReal) (ix1 j))
          (fun k q => (m ((c.tc : Thread nD τ).loc main_arg7) : S128x32.Idx → EReal) (ix2 k q))
          (fun q => (m ((c.tc : Thread nD τ).loc main_arg8) : S32.Idx → EReal) (ix1 q))
          (fun q o => (m ((c.tc : Thread nD τ).loc main_arg9) : S32x2.Idx → EReal) (ix2 q o))
          (fun o => (m ((c.tc : Thread nD τ).loc main_arg10) : S2.Idx → EReal) (ix1 o)) g o := by
  refine (ref_tail m c g o).trans ?_
  unfold Cert.Gcn.R Cert.Gcn.sums
  simp only [Body.v67_at]

end Cert.ReferenceIdeal.RefVal

end
-- ==== Proof.Val.Alg.lean ====
/-
  The kernel's arrangement `K` and the reference's arrangement `R` of the two-layer graph convolution are the
  same function when every float input is a real number.

  Both are the classifier `head` of per-graph sums and the same graph sizes, so it is enough that the per-graph
  sums agree. The reference weights every edge by `dinv(source) · dinv(target)`; under the scatter's hit the target
  is the row being summed, so the target's factor is constant over the sum and is pulled out of it (real
  distributivity), which leaves the kernel's pre-scaled aggregate. Over the extended reals only sums and products
  of reals occur: every piece is first shown to be a real, then the identity is the one in the reals.
-/
import proofs.«409842_j28716151341663_3_alg».proof.Proof.Val.Forms
import proofs.«409842_j28716151341663_3_alg».proof.Proof.LibERealBatchNorm
import Mathlib.Algebra.BigOperators.Fin

noncomputable section

open scoped BigOperators

namespace Cert.Gcn

open Cert.ERealBN

namespace Alg

/-! ### Masked sums of reals -/

/-- A masked sum of reals is a real. -/
theorem isReal_msum {ι : Type*} [Fintype ι] (p : ι → Prop) [DecidablePred p] (f : ι → EReal)
    (hf : ∀ i, IsReal (f i)) : IsReal (0 + ∑ i, if p i then f i else 0) := by
  refine IsReal.add IsReal.zero (IsReal.sum _ _ (fun i _ => ?_))
  split_ifs
  · exact hf i
  · exact IsReal.zero

/-- A real factor that is constant over a masked sum of reals comes out of the sum: with real witnesses chosen
    for the summands and the factor, this is distributivity in the reals. -/
theorem msum_mul {ι : Type*} [Fintype ι] (p : ι → Prop) [DecidablePred p] (f g : ι → EReal) (c : EReal)
    (hg : ∀ i, IsReal (g i)) (hc : IsReal c) (hfg : ∀ i, p i → f i = g i * c) :
    (0 + ∑ i, if p i then f i else 0) = (0 + ∑ i, if p i then g i else 0) * c := by
  choose G hG using hg
  obtain ⟨C, rfl⟩ := hc
  have h1 : ∀ i, (if p i then f i else 0) = (((if p i then G i * C else 0) : ℝ) : EReal) := by
    intro i
    split_ifs with h
    · rw [hfg i h, hG i, EReal.coe_mul]
    · simp
  have h2 : ∀ i, (if p i then g i else 0) = (((if p i then G i else 0) : ℝ) : EReal) := by
    intro i
    split_ifs with h
    · exact hG i
    · simp
  rw [Finset.sum_congr rfl (fun i _ => h1 i), Finset.sum_congr rfl (fun i _ => h2 i), coe_sum, coe_sum,
    zero_add, zero_add, ← EReal.coe_mul, Finset.sum_mul]
  congr 1
  refine Finset.sum_congr rfl (fun i _ => ?_)
  split_ifs <;> simp

/-! ### Index words -/

/-- Under a hit on row `n` the word read signed is `n ≥ 0`: it is not moved, and the clamp leaves `n`. -/
theorem rowOf_of_hit (w : BitVec 32) (n : Fin 100000) (h : hit w n.val) : rowOf w = n := by
  unfold hit at h
  have hn : ¬ (w.slt 0#32 = true) := by
    simp [BitVec.slt, h]
  apply Fin.ext
  simp only [rowOf, normW, if_neg hn, clampN, h, Int.toNat_natCast]
  have := n.isLt
  omega

/-- A 32-bit word read signed is `g < 256` exactly when it is the word of `g`. -/
theorem hit_iff_eq (w : BitVec 32) (g : Fin 256) : hit w g.val ↔ w = BitVec.ofNat 32 g.val := by
  have hg : (BitVec.ofNat 32 g.val).toInt = (g.val : ℤ) := by
    have := g.isLt
    rw [BitVec.toInt_ofNat', Int.bmod_def]
    norm_num
    omega
  unfold hit
  constructor
  · intro h
    apply BitVec.eq_of_toInt_eq
    rw [h, hg]
  · rintro rfl
    exact hg

section
variable (x : Fin 100000 → EReal) (rs cw : Fin 1700000 → BitVec 32) (bt : Fin 100000 → BitVec 32)
  (w1 b1 : Fin 128 → EReal) (w2 : Fin 128 → Fin 128 → EReal) (b2 : Fin 128 → EReal)

/-! ### Every piece is a real -/

theorem deg_isReal (n : Fin 100000) : IsReal (deg cw n) := by
  unfold deg
  exact isReal_msum (fun e => hit (cw e) n.val) _ (fun _ => ⟨1, by simp⟩)

/-- The normaliser is the reciprocal root of a real that is at least one, or zero. -/
theorem dinv_isReal (n : Fin 100000) : IsReal (dinv cw n) := by
  unfold dinv
  split_ifs with h
  · exact IsReal.rsqrt_of_pos (IsReal.max (deg_isReal cw n) ⟨1, by simp⟩)
      (lt_of_lt_of_le zero_lt_one (le_max_right _ _))
  · exact IsReal.zero

theorem a1_isReal (hx : ∀ n, IsReal (x n)) (n : Fin 100000) : IsReal (a1 x rs cw n) := by
  unfold a1
  exact isReal_msum (fun e => hit (cw e) n.val) _ (fun e => IsReal.mul (hx _) (dinv_isReal cw _))

theorem hs2_isReal (hx : ∀ n, IsReal (x n)) (hw1 : ∀ j, IsReal (w1 j)) (hb1 : ∀ j, IsReal (b1 j))
    (hw2 : ∀ k j, IsReal (w2 k j)) (n : Fin 100000) (j : Fin 128) :
    IsReal (hs2 (a1 x rs cw) w1 (dinv cw) b1 w2 n j) := by
  unfold hs2
  refine IsReal.mul (IsReal.sum _ _ (fun k _ => IsReal.mul (IsReal.max (IsReal.add (IsReal.mul
    (IsReal.mul (a1_isReal x rs cw hx n) (hw1 k)) (dinv_isReal cw n)) (hb1 k)) IsReal.zero) (hw2 k j)))
    (dinv_isReal cw n)

/-! ### The two layers -/

/-- Layer 1: under the hit the target's normaliser is `dinv n`, so the edge term
    `(x s · w1 j) · (dinv s · dinv n)` is `(x s · dinv s) · (w1 j · dinv n)` and the second factor leaves the sum. -/
theorem h1_eq (hx : ∀ n, IsReal (x n)) (hw1 : ∀ j, IsReal (w1 j)) (n : Fin 100000) (j : Fin 128) :
    h1 x rs cw w1 b1 n j = max ((a1 x rs cw n * w1 j) * dinv cw n + b1 j) 0 := by
  have key : (0 + ∑ e : Fin 1700000, if hit (cw e) n.val then
        (∑ _k : Fin 1, x (rowOf (rs e)) * w1 j) * nrm rs cw e else 0)
      = (a1 x rs cw n * w1 j) * dinv cw n := by
    rw [mul_assoc]
    unfold a1
    refine msum_mul (fun e => hit (cw e) n.val) _
      (fun e => x (rowOf (rs e)) * dinv cw (rowOf (rs e))) (w1 j * dinv cw n)
      (fun e => IsReal.mul (hx _) (dinv_isReal cw _)) (IsReal.mul (hw1 j) (dinv_isReal cw n)) ?_
    intro e he
    rw [Fin.sum_univ_one, nrm, rowOf_of_hit _ _ he]
    exact mul_mul_mul_comm _ _ _ _
  unfold h1
  rw [key]

/-- Layer 2: the edge term `(∑ₖ h1 s k · w2 k j) · (dinv s · dinv n)` is the pre-scaled row `hs2 s j` times
    `dinv n`, and `dinv n` leaves the sum. -/
theorem h2_eq (hx : ∀ n, IsReal (x n)) (hw1 : ∀ j, IsReal (w1 j)) (hb1 : ∀ j, IsReal (b1 j))
    (hw2 : ∀ k j, IsReal (w2 k j)) (n : Fin 100000) (j : Fin 128) :
    h2 x rs cw w1 b1 w2 b2 n j = max (a2 x rs cw w1 b1 w2 n j * dinv cw n + b2 j) 0 := by
  have key : (0 + ∑ e : Fin 1700000, if hit (cw e) n.val then
        (∑ k : Fin 128, h1 x rs cw w1 b1 (rowOf (rs e)) k * w2 k j) * nrm rs cw e else 0)
      = a2 x rs cw w1 b1 w2 n j * dinv cw n := by
    unfold a2
    refine msum_mul (fun e => hit (cw e) n.val) _
      (fun e => hs2 (a1 x rs cw) w1 (dinv cw) b1 w2 (rowOf (rs e)) j) (dinv cw n)
      (fun e => hs2_isReal x rs cw w1 b1 w2 hx hw1 hb1 hw2 _ j) (dinv_isReal cw n) ?_
    intro e he
    have hsum : (∑ k : Fin 128, h1 x rs cw w1 b1 (rowOf (rs e)) k * w2 k j)
        = ∑ k : Fin 128, max ((a1 x rs cw (rowOf (rs e)) * w1 k) * dinv cw (rowOf (rs e)) + b1 k) 0 * w2 k j :=
      Finset.sum_congr rfl (fun k _ => by rw [h1_eq x rs cw w1 b1 hx hw1])
    unfold hs2
    rw [hsum, nrm, rowOf_of_hit _ _ he, ← mul_assoc]
  unfold h2
  rw [key]

/-! ### Pooling -/

/-- The per-graph sums agree: the scatter's hit on graph `g` is the 0/1 factor `[bt n = g]`. -/
theorem sums_eq (hx : ∀ n, IsReal (x n)) (hw1 : ∀ j, IsReal (w1 j)) (hb1 : ∀ j, IsReal (b1 j))
    (hw2 : ∀ k j, IsReal (w2 k j)) (g : Fin 256) (j : Fin 128) :
    sums x rs cw bt w1 b1 w2 b2 g j = poolSum (a2 x rs cw w1 b1 w2) (dinv cw) b2 bt g j := by
  unfold sums poolSum
  rw [zero_add]
  refine Finset.sum_congr rfl (fun n _ => ?_)
  rw [h2_eq x rs cw w1 b1 w2 b2 hx hw1 hb1 hw2]
  by_cases h : hit (bt n) g.val
  · rw [if_pos h, if_pos ((hit_iff_eq _ _).1 h), one_mul]
  · rw [if_neg h, if_neg (fun h' => h ((hit_iff_eq _ _).2 h')), zero_mul]

end

end Alg

/-- The two arrangements agree: the classifier is applied to equal per-graph sums and the same graph sizes. -/
theorem K_eq_R (x : Fin 100000 → EReal) (rw cw : Fin 1700000 → BitVec 32) (bt : Fin 100000 → BitVec 32) (w1 b1 : Fin 128 → EReal) (w2 : Fin 128 → Fin 128 → EReal) (b2 : Fin 128 → EReal) (wc1 : Fin 128 → Fin 32 → EReal) (bc1 : Fin 32 → EReal) (wc2 : Fin 32 → Fin 2 → EReal) (bc2 : Fin 2 → EReal)
    (hx : ∀ n, IsReal (x n)) (hw1 : ∀ j, IsReal (w1 j)) (hb1 : ∀ j, IsReal (b1 j)) (hw2 : ∀ k j, IsReal (w2 k j)) (hb2 : ∀ j, IsReal (b2 j)) (g : Fin 256) (o : Fin 2) :
    K x rw cw bt w1 b1 w2 b2 wc1 bc1 wc2 bc2 g o = R x rw cw bt w1 b1 w2 b2 wc1 bc1 wc2 bc2 g o := by
  have hs : sums x rw cw bt w1 b1 w2 b2 = poolSum (a2 x rw cw w1 b1 w2) (dinv cw) b2 bt := by
    funext g' j
    exact Alg.sums_eq x rw cw bt w1 b1 w2 b2 hx hw1 hb1 hw2 g' j
  unfold K R
  rw [hs]

end Cert.Gcn

end
-- ==== Proof.Val.Finite.lean ====
/-
  From the printed precondition to real-valued inputs.

  The precondition is the conjunction, over the nine float arrays, of "every entry has absolute value below +∞".
  An extended real whose absolute value `max x (-x)` is below `⊤` is neither `⊤` nor `⊥`, hence a real number.
  A conjunction of one-bit words that is 1 has every conjunct 1; an and-reduction over all axes that is 1 had a 1
  at every index.
-/
import proofs.«409842_j28716151341663_3_alg».proof.Defs
import proofs.«409842_j28716151341663_3_alg».proof.Proof.Gen.Pre_finite_inputs
import proofs.«409842_j28716151341663_3_alg».proof.Proof.LibERealBatchNorm
import Idealize.ShloMosaic.Lib.ReduceAll
import Idealize.ShloMosaic.Lib.ValueIdx

noncomputable section

namespace Cert.KernelIdeal.Val

open Idealize.ShloMosaic Idealize.ShloMosaic.TcCoe Idealize.ShloMosaic.ValueIdx Cert.KernelIdeal Cert.ERealBN
open Idealize.SL.Sem

/-- The rank-0 shape has one index. -/
instance subsingleton_scalar_idx : Subsingleton (⟨0, ![]⟩ : Shape).Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value compares below `+∞` is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp only [Ideal.cmp, decide_eq_false hn] at h
    exact absurd h (by decide)
  induction x using EReal.rec with
  | bot => simp at hlt
  | coe r => exact ⟨r, rfl⟩
  | top => simp at hlt

/-- One array's `all(|x| < +∞)`, read back at an index. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1) (i : s.Idx) : IsReal (x i) :=
  isReal_of_abs_lt_inf (x i) (Host.reduce_andi_all _ _ hr hu ix0 e i)

theorem real_of_pre [hK : Cert.KernelIdeal.Facts] [hP : Cert.Pre_finite_inputs.Facts] (m : (ℓ : Loc nD τ sig) → Buf (Elt Ideal) ℓ) (h : Cert.Pre_KernelIdeal m) (c : Dev nD) :
      (∀ n : Fin 100000, IsReal ((m ((c.tc : Thread nD τ).loc main_arg0) : S100000x1.Idx → EReal) (ix2 n 0)))
      ∧ (∀ j : Fin 128, IsReal ((m ((c.tc : Thread nD τ).loc main_arg3) : S1x128.Idx → EReal) (ix2 0 j)))
      ∧ (∀ j : Fin 128, IsReal ((m ((c.tc : Thread nD τ).loc main_arg4) : S128.Idx → EReal) (ix1 j)))
      ∧ (∀ k j : Fin 128, IsReal ((m ((c.tc : Thread nD τ).loc main_arg5) : S128x128.Idx → EReal) (ix2 k j)))
      ∧ (∀ j : Fin 128, IsReal ((m ((c.tc : Thread nD τ).loc main_arg6) : S128.Idx → EReal) (ix1 j))) := by
  have h0 := congrFun (h c) ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨⟨e0, e3⟩, e4⟩, e5⟩, e6⟩, _⟩, _⟩, _⟩, _⟩ := h0
  exact ⟨fun n => isReal_of_all _ _ _ _ e0 (ix2 n 0), fun j => isReal_of_all _ _ _ _ e3 (ix2 0 j),
    fun j => isReal_of_all _ _ _ _ e4 (ix1 j), fun k j => isReal_of_all _ _ _ _ e5 (ix2 k j),
    fun j => isReal_of_all _ _ _ _ e6 (ix1 j)⟩

end Cert.KernelIdeal.Val

end
-- ==== Proof.lean ====
/-
  The certificate of a two-layer graph convolution with mean pooling and a two-layer classifier.

  The kernel's program is host operations around two pipelined regions. Region 0 takes the aggregated one-column
  feature `a`, forms `max((a n · w1 k) · dv n + b1 k, 0)`, multiplies into the layer-2 weights and scales by the node's
  normaliser `dv n`, block by block of 5000 nodes. Region 1 rectifies `a2 n j · dv n + b2 j`, adds each block's
  per-graph sums into a scratch carried across the grid, and at the last point divides by the graph sizes and applies
  the classifier and the logistic function. The frames of both programs (every run ends, nothing faults, the
  arguments end unchanged) are one text, generic in the float instance, read at the word-level and at the ideal one.

  At the ideal instance the kernel's result is `Cert.Gcn.K` of the argument arrays and the reference's is `Cert.Gcn.R`;
  they differ in where the symmetric normalisation `dv(source) · dv(target)` is applied (per node before the gather
  and after the scatter, against per edge) and in aggregating the one-column feature before the layer-1 weights. On
  real numbers both are distributivity of a factor over a finite sum; the precondition makes every float input real.
-/
import proofs.«409842_j28716151341663_3_alg».proof.Defs
import proofs.«409842_j28716151341663_3_alg».proof.Proof.Gen.Kernel
import proofs.«409842_j28716151341663_3_alg».proof.Proof.Gen.KernelIdeal
import proofs.«409842_j28716151341663_3_alg».proof.Proof.Gen.ReferenceIdeal
import proofs.«409842_j28716151341663_3_alg».proof.Proof.Gen.Pre_finite_inputs
import proofs.«409842_j28716151341663_3_alg».proof.Proof.K.Run
import proofs.«409842_j28716151341663_3_alg».proof.Proof.KI.Run
import proofs.«409842_j28716151341663_3_alg».proof.Proof.RefRun
import proofs.«409842_j28716151341663_3_alg».proof.Proof.Val.KHost
import proofs.«409842_j28716151341663_3_alg».proof.Proof.Val.RefVal
import proofs.«409842_j28716151341663_3_alg».proof.Proof.Val.Alg
import proofs.«409842_j28716151341663_3_alg».proof.Proof.Val.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and keeps its arguments. -/
theorem frame_k : Cert.frame_Kernel := fun m ρ _ => Cert.Kernel.Hand.frame m ρ

/-- The idealized program runs and keeps its arguments. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end at one result: the kernel's array is `K` of the
    arguments, the reference's is `R` of the same arguments, and `K = R` on real inputs. -/
theorem algebraic : Cert.algebraic_KernelIdeal_ReferenceIdeal := by
  intro m ρ m' ρ' hpre hagree
  refine ⟨fun c => (Cert.KernelIdeal.Hand.dat1 (Cert.KernelIdeal.Hand.V5 m) c).arrAt 9 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hw1, hb1, hw2, hb2⟩ := Cert.KernelIdeal.Val.real_of_pre m hpre c
  funext i
  obtain ⟨g, o, rfl⟩ : ∃ (g : Fin 256) (o : Fin 2), i = ix2 g o := ⟨i 0, i 1, eq_ix2 i⟩
  refine (Cert.ReferenceIdeal.RefVal.ref_value m' c g o).trans (Eq.trans ?_ (Cert.KernelIdeal.Val.kernel_value m c g o).symm)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (Cert.Gcn.K_eq_R _ _ _ _ _ _ _ _ _ _ _ _ hx hw1 hb1 hw2 hb2 g o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
